-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x10 : Shape := ⟨2, ![800000, 10]⟩
abbrev S266x128 : Shape := ⟨2, ![266, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x10 : S_.BroadcastsInDim S800000x10 (![] : Fin 0 → Fin S800000x10.rank)
  reducesTo_S800000x10_S_d0_1 : S800000x10.ReducesTo [0, 1] S_
  bcast_S_S266x128 : S_.BroadcastsInDim S266x128 (![] : Fin 0 → Fin S266x128.rank)
  reducesTo_S266x128_S_d0_1 : S266x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S266x128 .f32) (main_arg6 : FVec F S128 .f32) (main_arg7 : FVec F S128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S266x128 .f32 := Host.absf main_arg5
  let main_cst_6 : FVec F S_ .f32 := constant S_ .f32 0x7F800000#32
  let main_v20 : FVec F S266x128 .f32 := broadcastInDim S266x128 ![] bcast_S_S266x128 main_cst_6
  let main_v21 : IVec S266x128 1 := cmpf .olt main_v19 main_v20
  let main_c_7 : IVec S_ 1 := constantI S_ 1 1#1
  let main_v22 : IVec S_ 1 := (fun x v => Host.reduce IntOp.andi x v reducesTo_S266x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x800000 32) (main_arg2 : FVec F S800000x10 .f32) (main_arg3 : FVec F S266x128 .f32) (main_arg4 : FVec F S128 .f32) (main_arg5 : FVec F S266x128 .f32) (main_arg6 : FVec F S128 .f32) (main_arg7 : FVec F S128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x10 .f32 := Host.absf main_arg2
  let main_cst_0 : FVec F S_ .f32 := constant S_ .f32 0x7F800000#32
  let main_v5 : FVec F S800000x10 .f32 := broadcastInDim S800000x10 ![] bcast_S_S800000x10 main_cst_0
  let main_v6 : IVec S800000x10 1 := cmpf .olt main_v4 main_v5
  let main_c_1 : IVec S_ 1 := constantI S_ 1 1#1
  let main_v7 : IVec S_ 1 := (fun x v => Host.reduce IntOp.andi x v reducesTo_S800000x10_S_d0_1 h_S_) main_v6 main_c_1
  let main_v8 : IVec S_ 1 := andi main_v3 main_v7
  let main_v9 : FVec F S266x128 .f32 := Host.absf main_arg3
  let main_cst_2 : FVec F S_ .f32 := constant S_ .f32 0x7F800000#32
  let main_v10 : FVec F S266x128 .f32 := broadcastInDim S266x128 ![] bcast_S_S266x128 main_cst_2
  let main_v11 : IVec S266x128 1 := cmpf .olt main_v9 main_v10
  let main_c_3 : IVec S_ 1 := constantI S_ 1 1#1
  let main_v12 : IVec S_ 1 := (fun x v => Host.reduce IntOp.andi x v reducesTo_S266x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x128 : Shape := ⟨2, ![50000, 128]⟩
abbrev S2x800000 : Shape := ⟨2, ![2, 800000]⟩
abbrev S800000x10 : Shape := ⟨2, ![800000, 10]⟩
abbrev S266x128 : Shape := ⟨2, ![266, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S802816x128 : Shape := ⟨2, ![802816, 128]⟩
abbrev S802816x10 : Shape := ⟨2, ![802816, 10]⟩
abbrev S1x128 : Shape := ⟨2, ![1, 128]⟩
abbrev S4096x128 : Shape := ⟨2, ![4096, 128]⟩
abbrev S4096x10 : Shape := ⟨2, ![4096, 10]⟩
abbrev S4096x266 : Shape := ⟨2, ![4096, 266]⟩
abbrev S53248x128 : Shape := ⟨2, ![53248, 128]⟩

abbrev nBuf : Space → Nat
  | .hbm => 93
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x10, .f32⟩
  | .hbm, ⟨3, _⟩ => ⟨S266x128, .f32⟩
  | .hbm, ⟨4, _⟩ => ⟨S128, .f32⟩
  | .hbm, ⟨5, _⟩ => ⟨S266x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S_, .i32⟩
  | .hbm, ⟨32, _⟩ => ⟨S_, .f32⟩
  | .hbm, ⟨33, _⟩ => ⟨S802816x128, .f32⟩
  | .hbm, ⟨34, _⟩ => ⟨S_, .i32⟩
  | .hbm, ⟨35, _⟩ => ⟨S_, .f32⟩
  | .hbm, ⟨36, _⟩ => ⟨S802816x128, .f32⟩
  | .hbm, ⟨37, _⟩ => ⟨S_, .i32⟩
  | .hbm, ⟨38, _⟩ => ⟨S_, .f32⟩
  | .hbm, ⟨39, _⟩ => ⟨S802816x10, .f32⟩
  | .hbm, ⟨40, _⟩ => ⟨S1x128, .f32⟩
  | .hbm, ⟨41, _⟩ => ⟨S1x128, .f32⟩
  | .hbm, ⟨42, _⟩ => ⟨S802816x128, .f32⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S_, .f32⟩
  | .hbm, ⟨49, _⟩ => ⟨S128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S_, .i32⟩
  | .hbm, ⟨54, _⟩ => ⟨S_, .f32⟩
  | .hbm, ⟨55, _⟩ => ⟨S128, .f32⟩
  | .hbm, ⟨56, _⟩ => ⟨S1x128, .f32⟩
  | .hbm, ⟨57, _⟩ => ⟨S_, .f32⟩
  | .hbm, ⟨58, _⟩ => ⟨S1x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S128, .f32⟩
  | .hbm, ⟨68, _⟩ => ⟨S128, .f32⟩
  | .hbm, ⟨69, _⟩ => ⟨S128, .f32⟩
  | .hbm, ⟨70, _⟩ => ⟨S_, .f32⟩
  | .hbm, ⟨71, _⟩ => ⟨S_, .i1⟩
  | .hbm, ⟨72, _⟩ => ⟨S_, .f32⟩
  | .hbm, ⟨73, _⟩ => ⟨S_, .f32⟩
  | .hbm, ⟨74, _⟩ => ⟨S128, .f32⟩
  | .hbm, ⟨75, _⟩ => ⟨S128, .f32⟩
  | .hbm, ⟨76, _⟩ => ⟨S_, .f32⟩
  | .hbm, ⟨77, _⟩ => ⟨S128, .f32⟩
  | .hbm, ⟨78, _⟩ => ⟨S128, .f32⟩
  | .hbm, ⟨79, _⟩ => ⟨S128, .f32⟩
  | .hbm, ⟨80, _⟩ => ⟨S128, .f32⟩
  | .hbm, ⟨81, _⟩ => ⟨S128, .f32⟩
  | .hbm, ⟨82, _⟩ => ⟨S128, .f32⟩
  | .hbm, ⟨83, _⟩ => ⟨S1x128, .f32⟩
  | .hbm, ⟨84, _⟩ => ⟨S1x128, .f32⟩
  | .hbm, ⟨85, _⟩ => ⟨S_, .i32⟩
  | .hbm, ⟨86, _⟩ => ⟨S_, .f32⟩
  | .hbm, ⟨87, _⟩ => ⟨S53248x128, .f32⟩
  | .hbm, ⟨88, _⟩ => ⟨S_, .i32⟩
  | .hbm, ⟨89, _⟩ => ⟨S_, .f32⟩
  | .hbm, ⟨90, _⟩ => ⟨S53248x128, .f32⟩
  | .hbm, ⟨91, _⟩ => ⟨S53248x128, .f32⟩
  | .hbm, ⟨92, _⟩ => ⟨S50000x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x10, .f32⟩
  | .local _ .vmem, ⟨5, _⟩ => ⟨S4096x10, .f32⟩
  | .local _ .vmem, ⟨6, _⟩ => ⟨S266x128, .f32⟩
  | .local _ .vmem, ⟨7, _⟩ => ⟨S1x128, .f32⟩
  | .local _ .vmem, ⟨8, _⟩ => ⟨S266x128, .f32⟩
  | .local _ .vmem, ⟨9, _⟩ => ⟨S1x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S1x128, .f32⟩
  | .local _ .vmem, ⟨17, _⟩ => ⟨S1x128, .f32⟩
  | .local _ .vmem, ⟨18, _⟩ => ⟨S4096x128, .f32⟩
  | .local _ .vmem, ⟨19, _⟩ => ⟨S4096x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_call0_v0 : Ref sig .tc := ⟨.hbm, 32, rfl⟩
abbrev main_v18 : Ref sig .tc := ⟨.hbm, 33, rfl⟩
abbrev main_c_4 : Ref sig .tc := ⟨.hbm, 34, rfl⟩
abbrev main_call1_v0 : Ref sig .tc := ⟨.hbm, 35, rfl⟩
abbrev main_v19 : Ref sig .tc := ⟨.hbm, 36, rfl⟩
abbrev main_c_5 : Ref sig .tc := ⟨.hbm, 37, rfl⟩
abbrev main_call2_v0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_v30 : Ref sig .tc := ⟨.hbm, 52, rfl⟩
abbrev main_c_8 : Ref sig .tc := ⟨.hbm, 53, rfl⟩
abbrev main_call3_cst : Ref sig .tc := ⟨.hbm, 54, rfl⟩
abbrev main_call3_v0 : Ref sig .tc := ⟨.hbm, 55, rfl⟩
abbrev main_call3_v1 : Ref sig .tc := ⟨.hbm, 56, rfl⟩
abbrev main_call3_cst_0 : Ref sig .tc := ⟨.hbm, 57, rfl⟩
abbrev main_call3_v2 : Ref sig .tc := ⟨.hbm, 58, rfl⟩
abbrev main_call3_v3 : Ref sig .tc := ⟨.hbm, 59, rfl⟩
abbrev main_call3_v4 : Ref sig .tc := ⟨.hbm, 60, rfl⟩
abbrev main_call3_v5 : Ref sig .tc := ⟨.hbm, 61, rfl⟩
abbrev main_call3_v6 : Ref sig .tc := ⟨.hbm, 62, rfl⟩
abbrev main_call3_v7 : Ref sig .tc := ⟨.hbm, 63, rfl⟩
abbrev main_call3_cst_1 : Ref sig .tc := ⟨.hbm, 64, rfl⟩
abbrev main_call3_v8 : Ref sig .tc := ⟨.hbm, 65, rfl⟩
abbrev main_call3_cst_2 : Ref sig .tc := ⟨.hbm, 66, rfl⟩
abbrev main_call3_v9 : Ref sig .tc := ⟨.hbm, 67, rfl⟩
abbrev main_call3_v10 : Ref sig .tc := ⟨.hbm, 68, rfl⟩
abbrev main_call3_v11 : Ref sig .tc := ⟨.hbm, 69, rfl⟩
abbrev main_call3_cst_3 : Ref sig .tc := ⟨.hbm, 70, rfl⟩
abbrev main_call3_v12 : Ref sig .tc := ⟨.hbm, 71, rfl⟩
abbrev main_call3_cst_4 : Ref sig .tc := ⟨.hbm, 72, rfl⟩
abbrev main_call3_call0_v0 : Ref sig .tc := ⟨.hbm, 73, rfl⟩
abbrev main_call3_call0_v1 : Ref sig .tc := ⟨.hbm, 74, rfl⟩
abbrev main_v31 : Ref sig .tc := ⟨.hbm, 75, rfl⟩
abbrev main_cst_9 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_c_10 : Ref sig .tc := ⟨.hbm, 85, rfl⟩
abbrev main_call4_v0 : Ref sig .tc := ⟨.hbm, 86, rfl⟩
abbrev main_v40 : Ref sig .tc := ⟨.hbm, 87, rfl⟩
abbrev main_c_11 : Ref sig .tc := ⟨.hbm, 88, rfl⟩
abbrev main_call5_v0 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![196], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S266x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S266x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![13], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4096x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  pads_S800000x128_S802816x128_028160_000 : S800000x128.Pads (![0, 0] : Fin 2 → Nat) ![2816, 0] ![0, 0] S802816x128
  h_S_ : 0 < S_.numel
  pads_S800000x10_S802816x10_028160_000 : S800000x10.Pads (![0, 0] : Fin 2 → Nat) ![2816, 0] ![0, 0] S802816x10
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096x10_S4096x10_0_0 : ∀ a, (![0, 0] : Fin 2 → Nat) a + S4096x10.size a ≤ S4096x10.size a
  h_S4096x10 : 0 < S4096x10.numel
  shapeCasts_S4096x10_S4096x10 : S4096x10.ShapeCasts S4096x10
  concatenates_S4096x128_S4096x128_S4096x10_S4096x266_d1 : Shape.Concatenates [S4096x128, S4096x128, S4096x10] S4096x266 1
  bitsLt_bf16_f32 : FTy.bits .bf16 < FTy.bits .f32
  inb_S266x128_S266x128_0_0 : ∀ a, (![0, 0] : Fin 2 → Nat) a + S266x128.size a ≤ S266x128.size a
  h_S266x128 : 0 < S266x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  slices_S802816x128_S800000x128_0_0 : S802816x128.Slices ![0, 0] S800000x128
  bcast_S_S50000x128 : S_.BroadcastsInDim S50000x128 (![] : Fin 0 → Fin S50000x128.rank)
  reducesTo_S50000x128_S128_d0 : S50000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  pads_S50000x128_S53248x128_032480_000 : S50000x128.Pads (![0, 0] : Fin 2 → Nat) ![3248, 0] ![0, 0] S53248x128
  slices_S53248x128_S50000x128_0_0 : S53248x128.Slices ![0, 0] S50000x128
  gather_S50000x128_S800000x1_S800000x128_1_0_n_n_0_1_1128_wf : GatherDims.WF S50000x128 S800000x1 S800000x128 [1] [0] [] [0] [] 1 ![1, 128]
  dot_S4096x266_S266x128_S4096x128_1_0_0_1_n_n_wf : DotDims.WF S4096x266 S266x128 S4096x128 [1] [0] [0] [1] [] []
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S802816x128.size a
  hwx0_0 : ∀ i : grid0.Coords, EltTy.bits .f32 = 32 ∨ (Rect.block (s := S802816x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S802816x128.size a
  hwx0_1 : ∀ i : grid0.Coords, EltTy.bits .f32 = 32 ∨ (Rect.block (s := S802816x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x10.size a ≤ S802816x10.size a
  hwx0_2 : ∀ i : grid0.Coords, EltTy.bits .f32 = 32 ∨ (Rect.block (s := S802816x10) S4096x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S266x128.size a ≤ S266x128.size a
  hwx0_3 : ∀ i : grid0.Coords, EltTy.bits .f32 = 32 ∨ (Rect.block (s := S266x128) S266x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S266x128.size a ≤ S266x128.size a
  hwx0_5 : ∀ i : grid0.Coords, EltTy.bits .f32 = 32 ∨ (Rect.block (s := S266x128) S266x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x128.size a ≤ S802816x128.size a
  hwx0_7 : ∀ i : grid0.Coords, EltTy.bits .f32 = 32 ∨ (Rect.block (s := S802816x128) S4096x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S53248x128.size a
  hwx1_0 : ∀ i : grid1.Coords, EltTy.bits .f32 = 32 ∨ (Rect.block (s := S53248x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S53248x128.size a
  hwx1_1 : ∀ i : grid1.Coords, EltTy.bits .f32 = 32 ∨ (Rect.block (s := S53248x128) S4096x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4096x128.size a ≤ S53248x128.size a
  hwx1_4 : ∀ i : grid1.Coords, EltTy.bits .f32 = 32 ∨ (Rect.block (s := S53248x128) S4096x128.size (cc1_transform_4 i) (hinb1_4 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4096x266_S266x128_S4096x128_1_0_0_1_n_n : DotDims S4096x266 S266x128 S4096x128 where
  lhsContracting := [1]
  rhsContracting := [0]
  lhsNonContracting := [0]
  rhsNonContracting := [1]
  lhsBatch := []
  rhsBatch := []
  wf := dot_S4096x266_S266x128_S4096x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_v18) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S4096x10.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S266x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S266x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S4096x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v40) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S4096x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x10 : Shape := ⟨2, ![800000, 10]⟩
abbrev S266x128 : Shape := ⟨2, ![266, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x266 : Shape := ⟨2, ![800000, 266]⟩
abbrev S1x128 : Shape := ⟨2, ![1, 128]⟩

abbrev nBuf : Space → Nat
  | .hbm => 126
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x10, .f32⟩
  | .hbm, ⟨3, _⟩ => ⟨S266x128, .f32⟩
  | .hbm, ⟨4, _⟩ => ⟨S128, .f32⟩
  | .hbm, ⟨5, _⟩ => ⟨S266x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S800000x266, .f32⟩
  | .hbm, ⟨32, _⟩ => ⟨S800000x128, .f32⟩
  | .hbm, ⟨33, _⟩ => ⟨S1x128, .f32⟩
  | .hbm, ⟨34, _⟩ => ⟨S800000x128, .f32⟩
  | .hbm, ⟨35, _⟩ => ⟨S800000x128, .f32⟩
  | .hbm, ⟨36, _⟩ => ⟨S800000x128, .f32⟩
  | .hbm, ⟨37, _⟩ => ⟨S800000x128, .f32⟩
  | .hbm, ⟨38, _⟩ => ⟨S_, .f32⟩
  | .hbm, ⟨39, _⟩ => ⟨S800000x128, .f32⟩
  | .hbm, ⟨40, _⟩ => ⟨S800000x128, .f32⟩
  | .hbm, ⟨41, _⟩ => ⟨S_, .f32⟩
  | .hbm, ⟨42, _⟩ => ⟨S800000x128, .f32⟩
  | .hbm, ⟨43, _⟩ => ⟨S800000x128, .f32⟩
  | .hbm, ⟨44, _⟩ => ⟨S800000x128, .f32⟩
  | .hbm, ⟨45, _⟩ => ⟨S1x128, .f32⟩
  | .hbm, ⟨46, _⟩ => ⟨S800000x128, .f32⟩
  | .hbm, ⟨47, _⟩ => ⟨S800000x128, .f32⟩
  | .hbm, ⟨48, _⟩ => ⟨S_, .f32⟩
  | .hbm, ⟨49, _⟩ => ⟨S800000x128, .f32⟩
  | .hbm, ⟨50, _⟩ => ⟨S800000x128, .f32⟩
  | .hbm, ⟨51, _⟩ => ⟨S800000x128, .f32⟩
  | .hbm, ⟨52, _⟩ => ⟨S800000x128, .f32⟩
  | .hbm, ⟨53, _⟩ => ⟨S800000x128, .i1⟩
  | .hbm, ⟨54, _⟩ => ⟨S800000x128, .f32⟩
  | .hbm, ⟨55, _⟩ => ⟨S800000x128, .f32⟩
  | .hbm, ⟨56, _⟩ => ⟨S800000x128, .f32⟩
  | .hbm, ⟨57, _⟩ => ⟨S800000x128, .f32⟩
  | .hbm, ⟨58, _⟩ => ⟨S800000x128, .f32⟩
  | .hbm, ⟨59, _⟩ => ⟨S800000x128, .f32⟩
  | .hbm, ⟨60, _⟩ => ⟨S800000x128, .f32⟩
  | .hbm, ⟨61, _⟩ => ⟨S800000x128, .f32⟩
  | .hbm, ⟨62, _⟩ => ⟨S800000x128, .f32⟩
  | .hbm, ⟨63, _⟩ => ⟨S_, .f32⟩
  | .hbm, ⟨64, _⟩ => ⟨S50000x128, .f32⟩
  | .hbm, ⟨65, _⟩ => ⟨S800000x1, .i32⟩
  | .hbm, ⟨66, _⟩ => ⟨S50000x128, .f32⟩
  | .hbm, ⟨67, _⟩ => ⟨S_, .f32⟩
  | .hbm, ⟨68, _⟩ => ⟨S128, .f32⟩
  | .hbm, ⟨69, _⟩ => ⟨S_, .f32⟩
  | .hbm, ⟨70, _⟩ => ⟨S128, .f32⟩
  | .hbm, ⟨71, _⟩ => ⟨S128, .f32⟩
  | .hbm, ⟨72, _⟩ => ⟨S_, .i32⟩
  | .hbm, ⟨73, _⟩ => ⟨S_, .f32⟩
  | .hbm, ⟨74, _⟩ => ⟨S128, .f32⟩
  | .hbm, ⟨75, _⟩ => ⟨S1x128, .f32⟩
  | .hbm, ⟨76, _⟩ => ⟨S_, .f32⟩
  | .hbm, ⟨77, _⟩ => ⟨S1x128, .f32⟩
  | .hbm, ⟨78, _⟩ => ⟨S1x128, .f32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S128, .f32⟩
  | .hbm, ⟨87, _⟩ => ⟨S128, .f32⟩
  | .hbm, ⟨88, _⟩ => ⟨S128, .f32⟩
  | .hbm, ⟨89, _⟩ => ⟨S_, .f32⟩
  | .hbm, ⟨90, _⟩ => ⟨S_, .i1⟩
  | .hbm, ⟨91, _⟩ => ⟨S_, .f32⟩
  | .hbm, ⟨92, _⟩ => ⟨S_, .f32⟩
  | .hbm, ⟨93, _⟩ => ⟨S128, .f32⟩
  | .hbm, ⟨94, _⟩ => ⟨S128, .f32⟩
  | .hbm, ⟨95, _⟩ => ⟨S1x128, .f32⟩
  | .hbm, ⟨96, _⟩ => ⟨S50000x128, .f32⟩
  | .hbm, ⟨97, _⟩ => ⟨S50000x128, .f32⟩
  | .hbm, ⟨98, _⟩ => ⟨S_, .f32⟩
  | .hbm, ⟨99, _⟩ => ⟨S128, .f32⟩
  | .hbm, ⟨100, _⟩ => ⟨S128, .f32⟩
  | .hbm, ⟨101, _⟩ => ⟨S128, .f32⟩
  | .hbm, ⟨102, _⟩ => ⟨S1x128, .f32⟩
  | .hbm, ⟨103, _⟩ => ⟨S50000x128, .f32⟩
  | .hbm, ⟨104, _⟩ => ⟨S50000x128, .f32⟩
  | .hbm, ⟨105, _⟩ => ⟨S1x128, .f32⟩
  | .hbm, ⟨106, _⟩ => ⟨S50000x128, .f32⟩
  | .hbm, ⟨107, _⟩ => ⟨S50000x128, .f32⟩
  | .hbm, ⟨108, _⟩ => ⟨S1x128, .f32⟩
  | .hbm, ⟨109, _⟩ => ⟨S50000x128, .f32⟩
  | .hbm, ⟨110, _⟩ => ⟨S50000x128, .f32⟩
  | .hbm, ⟨111, _⟩ => ⟨S50000x128, .f32⟩
  | .hbm, ⟨112, _⟩ => ⟨S_, .f32⟩
  | .hbm, ⟨113, _⟩ => ⟨S50000x128, .f32⟩
  | .hbm, ⟨114, _⟩ => ⟨S50000x128, .f32⟩
  | .hbm, ⟨115, _⟩ => ⟨S50000x128, .f32⟩
  | .hbm, ⟨116, _⟩ => ⟨S50000x128, .f32⟩
  | .hbm, ⟨117, _⟩ => ⟨S50000x128, .i1⟩
  | .hbm, ⟨118, _⟩ => ⟨S50000x128, .f32⟩
  | .hbm, ⟨119, _⟩ => ⟨S50000x128, .f32⟩
  | .hbm, ⟨120, _⟩ => ⟨S50000x128, .f32⟩
  | .hbm, ⟨121, _⟩ => ⟨S50000x128, .f32⟩
  | .hbm, ⟨122, _⟩ => ⟨S50000x128, .f32⟩
  | .hbm, ⟨123, _⟩ => ⟨S50000x128, .f32⟩
  | .hbm, ⟨124, _⟩ => ⟨S50000x128, .f32⟩
  | .hbm, ⟨125, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_v8 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_v33 : Ref sig .tc := ⟨.hbm, 61, rfl⟩
abbrev main_v34 : Ref sig .tc := ⟨.hbm, 62, rfl⟩
abbrev main_cst_4 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_5 : Ref sig .tc := ⟨.hbm, 67, rfl⟩
abbrev main_v38 : Ref sig .tc := ⟨.hbm, 68, rfl⟩
abbrev main_cst_6 : Ref sig .tc := ⟨.hbm, 69, rfl⟩
abbrev main_v39 : Ref sig .tc := ⟨.hbm, 70, rfl⟩
abbrev main_v40 : Ref sig .tc := ⟨.hbm, 71, rfl⟩
abbrev main_c_7 : Ref sig .tc := ⟨.hbm, 72, rfl⟩
abbrev main_call1_cst : Ref sig .tc := ⟨.hbm, 73, rfl⟩
abbrev main_call1_v0 : Ref sig .tc := ⟨.hbm, 74, rfl⟩
abbrev main_call1_v1 : Ref sig .tc := ⟨.hbm, 75, rfl⟩
abbrev main_call1_cst_0 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_v6 : Ref sig .tc := ⟨.hbm, 81, rfl⟩
abbrev main_call1_v7 : Ref sig .tc := ⟨.hbm, 82, rfl⟩
abbrev main_call1_cst_1 : Ref sig .tc := ⟨.hbm, 83, rfl⟩
abbrev main_call1_v8 : Ref sig .tc := ⟨.hbm, 84, rfl⟩
abbrev main_call1_cst_2 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_call1_cst_3 : Ref sig .tc := ⟨.hbm, 89, rfl⟩
abbrev main_call1_v12 : Ref sig .tc := ⟨.hbm, 90, rfl⟩
abbrev main_call1_cst_4 : Ref sig .tc := ⟨.hbm, 91, rfl⟩
abbrev main_call1_call0_v0 : Ref sig .tc := ⟨.hbm, 92, rfl⟩
abbrev main_call1_call0_v1 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_cst_8 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_call2_cst : Ref sig .tc := ⟨.hbm, 112, rfl⟩
abbrev main_call2_v0 : Ref sig .tc := ⟨.hbm, 113, rfl⟩
abbrev main_call2_v1 : Ref sig .tc := ⟨.hbm, 114, rfl⟩
abbrev main_call2_v2 : Ref sig .tc := ⟨.hbm, 115, rfl⟩
abbrev main_call2_v3 : Ref sig .tc := ⟨.hbm, 116, rfl⟩
abbrev main_call2_v4 : Ref sig .tc := ⟨.hbm, 117, rfl⟩
abbrev main_call2_v5 : Ref sig .tc := ⟨.hbm, 118, rfl⟩
abbrev main_call2_v6 : Ref sig .tc := ⟨.hbm, 119, rfl⟩
abbrev main_call2_v7 : Ref sig .tc := ⟨.hbm, 120, rfl⟩
abbrev main_call2_v8 : Ref sig .tc := ⟨.hbm, 121, rfl⟩
abbrev main_call2_v9 : Ref sig .tc := ⟨.hbm, 122, rfl⟩
abbrev main_call2_v10 : Ref sig .tc := ⟨.hbm, 123, rfl⟩
abbrev main_call2_v11 : Ref sig .tc := ⟨.hbm, 124, rfl⟩
abbrev main_v58 : Ref sig .tc := ⟨.hbm, 125, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x10_S800000x266_d1 : Shape.Concatenates [S800000x128, S800000x128, S800000x10] S800000x266 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x266_S266x128_S800000x128_1_0_0_1_n_n_wf : DotDims.WF S800000x266 S266x128 S800000x128 [1] [0] [0] [1] [] []
  scatter_S50000x128_S800000x1_S800000x128_1_0_0_1_wf : ScatterDims.WF S50000x128 S800000x1 S800000x128 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x266_S266x128_S800000x128_1_0_0_1_n_n : DotDims S800000x266 S266x128 S800000x128 where
  lhsContracting := [1]
  rhsContracting := [0]
  lhsNonContracting := [0]
  rhsNonContracting := [1]
  lhsBatch := []
  rhsBatch := []
  wf := dot_S800000x266_S266x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Scalar.lean ====
/-
  Scalars on the extended reals: the entry-wise functions both programs compute, and the facts about
  finite values the comparison needs.

  A message entry is  logistic(z · g + gb) · softplus(z · c + cb)  where z is the concatenated edge row
  (source-node features, destination-node features, edge features); a result entry is
  softplus(h + normalized aggregate).  The two programs arrange the normalization differently:
  a · s + (β - μ · s)  with s = γ · r   against   (a - μ) · r · γ + β ;
  these agree when every quantity is a real number (distributivity fails at the infinities).
-/
import Idealize.ShloMosaic.PureOps.Ideal
import Mathlib.Data.EReal.Basic
import Mathlib.Data.EReal.Operations

noncomputable section

namespace Cert.Sc

open Idealize.ShloMosaic

/-- An extended real that is a real number. -/
def IsReal (x : EReal) : Prop := ∃ r : ℝ, x = (r : EReal)

/-- softplus as both programs spell it once the NaN guard is gone: max(x, 0) + log(1 + e^(-|x|)), with |x| = max(x, -x). -/
def softplus (x : EReal) : EReal := max x 0 + Ideal.log1p (Ideal.exp (-(max x (-x))))

/-- A row of 266 entries against a column of 266 weights, plus a bias. -/
def lin (z w : Fin 266 → EReal) (b : EReal) : EReal := (∑ k : Fin 266, z k * w k) + b

/-- One message entry: gate times candidate. -/
def msg (z gcol : Fin 266 → EReal) (gb : EReal) (ccol : Fin 266 → EReal) (cb : EReal) : EReal :=
  Ideal.logistic (lin z gcol gb) * softplus (lin z ccol cb)

/-- The concatenated edge row: 128 source features, 128 destination features, 10 edge features. -/
def zcat (a b : Fin 128 → EReal) (e : Fin 10 → EReal) : Fin 266 → EReal := fun k =>
  if h : k.val < 128 then a ⟨k.val, h⟩
  else if h2 : k.val < 256 then b ⟨k.val - 128, by omega⟩
  else e ⟨k.val - 256, by have := k.isLt; omega⟩

/-- The kernel's result entry: softplus(h + (a · s + t)). -/
def outK (h a s t : EReal) : EReal := softplus (h + (a * s + t))

/-- The reference's result entry: softplus(h + ((a - μ) · r · γ + β)). -/
def outR (h a μ r γ β : EReal) : EReal := softplus (h + ((a - μ) * r * γ + β))

/-! ## Real values are closed under the operations used -/

theorem IsReal.coe (r : ℝ) : IsReal (r : EReal) := ⟨r, rfl⟩
theorem IsReal.zero : IsReal (0 : EReal) := ⟨0, rfl⟩
theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.sub {x y : EReal} (hx : IsReal x) (hy : IsReal y) : IsReal (x - y) := by
  obtain ⟨a, rfl⟩ := hx
  obtain ⟨b, rfl⟩ := hy
  exact ⟨a - b, (EReal.coe_sub a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.neg {x : EReal} (hx : IsReal x) : IsReal (-x) := by
  obtain ⟨a, rfl⟩ := hx
  exact ⟨-a, (EReal.coe_neg a).symm⟩
theorem IsReal.max {x y : EReal} (hx : IsReal x) (hy : IsReal y) : IsReal (max x y) := by
  rcases le_total x y with h | h
  · rw [max_eq_right h]; exact hy
  · rw [max_eq_left h]; exact hx
/-- A finite sum of real values is real. -/
theorem IsReal.sum {ι : Type*} (s : Finset ι) (f : ι → EReal) (hf : ∀ i ∈ s, IsReal (f i)) : IsReal (∑ i ∈ s, f i) := by
  classical
  induction s using Finset.induction_on with
  | empty => rw [Finset.sum_empty]; exact IsReal.zero
  | insert i s hi ih =>
    rw [Finset.sum_insert hi]
    exact IsReal.add (hf i (Finset.mem_insert_self i s))
      (ih (fun j hj => hf j (Finset.mem_insert_of_mem hj)))
theorem IsReal.logistic {x : EReal} (hx : IsReal x) : IsReal (Ideal.logistic x) := by
  obtain ⟨a, rfl⟩ := hx
  exact ⟨(1 + Real.exp (-a))⁻¹, Ideal.logistic_coe a⟩
/-- log(1 + e^t) is real for real t: e^t > 0, so 1 + e^t > 0. -/
theorem IsReal.log1p_exp {x : EReal} (hx : IsReal x) : IsReal (Ideal.log1p (Ideal.exp x)) := by
  obtain ⟨a, rfl⟩ := hx
  have hpos : ¬ (1 + Real.exp a ≤ 0) := not_le.mpr (by positivity)
  refine ⟨Real.log (1 + Real.exp a), ?_⟩
  rw [Ideal.log1p, Ideal.exp_coe, ← EReal.coe_one, ← EReal.coe_add, Ideal.log_coe, if_neg hpos]

theorem IsReal.softplus {x : EReal} (hx : IsReal x) : IsReal (softplus x) := by
  unfold Cert.Sc.softplus
  exact IsReal.add (IsReal.max hx IsReal.zero) (IsReal.log1p_exp (IsReal.neg (IsReal.max hx (IsReal.neg hx))))
/-- Division by a nonzero real. -/
theorem IsReal.div_coe {x : EReal} (hx : IsReal x) {y : ℝ} (hy : y ≠ 0) : IsReal (Ideal.div x (y : EReal)) := by
  rw [Ideal.div_coe hy]
  exact IsReal.mul hx (IsReal.coe _)
/-- The reciprocal square root of a positive real is real. -/
theorem IsReal.rsqrt_pos {x : ℝ} (hx : 0 < x) : IsReal (Ideal.rsqrt (x : EReal)) := by
  refine ⟨(Real.sqrt x)⁻¹, ?_⟩
  rw [Ideal.rsqrt_coe, if_neg (not_lt.mpr hx.le), if_neg hx.ne']
theorem IsReal.lin {z w : Fin 266 → EReal} {b : EReal} (hz : ∀ k, IsReal (z k)) (hw : ∀ k, IsReal (w k)) (hb : IsReal b) :
    IsReal (lin z w b) := by
  unfold Cert.Sc.lin
  exact IsReal.add (IsReal.sum _ _ (fun k _ => IsReal.mul (hz k) (hw k))) hb
theorem IsReal.msg {z g c : Fin 266 → EReal} {gb cb : EReal} (hz : ∀ k, IsReal (z k)) (hg : ∀ k, IsReal (g k)) (hc : ∀ k, IsReal (c k))
    (hgb : IsReal gb) (hcb : IsReal cb) : IsReal (msg z g gb c cb) := by
  unfold Cert.Sc.msg
  exact IsReal.mul (IsReal.logistic (IsReal.lin hz hg hgb)) (IsReal.softplus (IsReal.lin hz hc hcb))
theorem IsReal.zcat {a b : Fin 128 → EReal} {e : Fin 10 → EReal} (ha : ∀ k, IsReal (a k)) (hb : ∀ k, IsReal (b k)) (he : ∀ k, IsReal (e k))
    (k : Fin 266) : IsReal (zcat a b e k) := by
  unfold Cert.Sc.zcat
  split_ifs
  · exact ha _
  · exact hb _
  · exact he _

/-- A square of a real value is a nonnegative real. -/
theorem sq_real {x : EReal} (hx : IsReal x) : ∃ r : ℝ, 0 ≤ r ∧ x * x = (r : EReal) := by
  obtain ⟨a, rfl⟩ := hx
  exact ⟨a * a, mul_self_nonneg a, (EReal.coe_mul a a).symm⟩
/-- A finite sum of nonnegative reals is a nonnegative real. -/
theorem sum_nonneg_real {ι : Type*} (s : Finset ι) (f : ι → EReal) (hf : ∀ i ∈ s, ∃ r : ℝ, 0 ≤ r ∧ f i = (r : EReal)) :
    ∃ r : ℝ, 0 ≤ r ∧ ∑ i ∈ s, f i = (r : EReal) := by
  classical
  induction s using Finset.induction_on with
  | empty => exact ⟨0, le_refl 0, by rw [Finset.sum_empty, EReal.coe_zero]⟩
  | insert i s hi ih =>
    obtain ⟨p, hp, hpe⟩ := hf i (Finset.mem_insert_self i s)
    obtain ⟨q, hq, hqe⟩ := ih (fun j hj => hf j (Finset.mem_insert_of_mem hj))
    exact ⟨p + q, add_nonneg hp hq, by rw [Finset.sum_insert hi, hpe, hqe, EReal.coe_add]⟩

/-! ## The two normalizations agree on real values -/

/-- a · (γ · r) + (β - μ · (γ · r)) = (a - μ) · r · γ + β  for real a, μ, r, γ, β. -/
theorem affine_eq {a μ r γ β : EReal} (ha : IsReal a) (hμ : IsReal μ) (hr : IsReal r) (hγ : IsReal γ) (hβ : IsReal β) :
    a * (γ * r) + (β - μ * (γ * r)) = (a - μ) * r * γ + β := by
  obtain ⟨a, rfl⟩ := ha
  obtain ⟨m, rfl⟩ := hμ
  obtain ⟨r, rfl⟩ := hr
  obtain ⟨g, rfl⟩ := hγ
  obtain ⟨b, rfl⟩ := hβ
  have h : a * (g * r) + (b - m * (g * r)) = (a - m) * r * g + b := by ring
  simp only [← EReal.coe_mul, ← EReal.coe_sub, ← EReal.coe_add]
  exact congrArg _ h

theorem outK_eq_outR {h a μ r γ β : EReal} (ha : IsReal a) (hμ : IsReal μ) (hr : IsReal r) (hγ : IsReal γ) (hβ : IsReal β) :
    outK h a (γ * r) (β - μ * (γ * r)) = outR h a μ r γ β := by
  unfold outK outR; rw [affine_eq ha hμ hr hγ hβ]

end Cert.Sc

end
-- ==== Proof.KSpec.lean ====
/-
  What the kernel's program computes, stage by stage, as functions of its argument arrays (at the ideal instance):
  the host stages in the operations' own spelling, the two kernel regions entry by entry over the scalar
  functions of Scalar.lean.
-/
import proofs.«179620_j6270652252664_1_alg».proof.Proof.Gen.KernelIdeal.Skeleton
import proofs.«179620_j6270652252664_1_alg».proof.Proof.Scalar
import Idealize.ShloMosaic.Lib.ValueIdx

noncomputable section

namespace Cert.KernelIdeal.Gen
namespace KV

open Idealize.ShloMosaic Idealize.ShloMosaic.ValueIdx

/-- Row 0 of the edge index: each edge's source node. -/
def src1 (ei : IVec S2x800000 32) : IVec S800000 32 :=
  shapeCast S800000 (extractStridedSlice S1x800000 ![0, 0] ei slices_S2x800000_S1x800000_0_0) shapeCasts_S1x800000_S800000
/-- Row 1 of the edge index: each edge's destination node. -/
def dst1 (ei : IVec S2x800000 32) : IVec S800000 32 :=
  shapeCast S800000 (extractStridedSlice S1x800000 ![1, 0] ei slices_S2x800000_S1x800000_1_0) shapeCasts_S1x800000_S800000
/-- A negative node index counts from the end. -/
def wrap (s : IVec S800000 32) : IVec S800000 32 :=
  select (cmpi .slt s (broadcastInDim S800000 ![] bcast_S_S800000 (constantI S_ 32 0#32)))
    (addi s (broadcastInDim S800000 ![] bcast_S_S800000 (constantI S_ 32 50000#32))) s
/-- The node-feature rows an index vector names. -/
def rows (h : FVec Ideal S50000x128 .f32) (s : IVec S800000 32) : FVec Ideal S800000x128 .f32 :=
  Host.gather gather_S50000x128_S800000x1_S800000x128_1_0_n_n_0_1_1128 h (broadcastInDim S800000x1 ![0] bcast_S800000_S800000x1_0 (wrap s))
/-- The padding value: the integer 0 converted. -/
def padv : FVec Ideal S_ .f32 := sitofp .f32 (constantI S_ 32 0#32)
/-- 800000 edge rows padded with 2816 more, to a whole number of blocks of 4096. -/
def padE (x : FVec Ideal S800000x128 .f32) : FVec Ideal S802816x128 .f32 :=
  pad S802816x128 ![0, 0] ![2816, 0] ![0, 0] x padv pads_S800000x128_S802816x128_028160_000 h_S_
def padE10 (x : FVec Ideal S800000x10 .f32) : FVec Ideal S802816x10 .f32 :=
  pad S802816x10 ![0, 0] ![2816, 0] ![0, 0] x padv pads_S800000x10_S802816x10_028160_000 h_S_
/-- A vector of 128 as one row. -/
def row1 (b : FVec Ideal S128 .f32) : FVec Ideal S1x128 .f32 := shapeCast S1x128 b shapeCasts_S128_S1x128

/-- REGION 0, entry by entry: the message of (padded) edge e, feature j. -/
def msgPad (hsP hdP : FVec Ideal S802816x128 .f32) (efP : FVec Ideal S802816x10 .f32) (gw : FVec Ideal S266x128 .f32) (gb2 : FVec Ideal S1x128 .f32)
    (cw : FVec Ideal S266x128 .f32) (cb2 : FVec Ideal S1x128 .f32) : FVec Ideal S802816x128 .f32 := fun i =>
  Sc.msg (Sc.zcat (fun k => hsP (ix2 (i 0) k)) (fun k => hdP (ix2 (i 0) k)) (fun k => efP (ix2 (i 0) k)))
    (fun k => gw (ix2 k (i 1))) (gb2 (ix2 0 (i 1))) (fun k => cw (ix2 k (i 1))) (cb2 (ix2 0 (i 1)))

/-- The first 800000 message rows. -/
def mK (M : FVec Ideal S802816x128 .f32) : FVec Ideal S800000x128 .f32 :=
  extractStridedSlice S800000x128 ![0, 0] M slices_S802816x128_S800000x128_0_0
/-- Each node's sum of the messages of the edges that start at it. -/
def agg (s : IVec S800000 32) (mm : FVec Ideal S800000x128 .f32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 s) mm
/-- Column sums over the nodes. -/
def colsum (a : FVec Ideal S50000x128 .f32) : FVec Ideal S128 .f32 :=
  Host.reduceAdd a (constant S_ .f32 0x00000000#32) reducesTo_S50000x128_S128_d0 h_S_
/-- Column means. -/
def mean (a : FVec Ideal S50000x128 .f32) : FVec Ideal S128 .f32 :=
  Host.divf (colsum a) (broadcastInDim S128 ![] bcast_S_S128 (constant S_ .f32 0x47435000#32))
/-- The node count minus the degrees-of-freedom correction 0, as jnp.var computes it. -/
def nrm : FVec Ideal S_ .f32 := subf (constant S_ .f32 0x47435000#32) (sitofp .f32 (constantI S_ 32 0#32))
/-- Deviations from the column mean, as jnp.var computes them. -/
def dev (a : FVec Ideal S50000x128 .f32) : FVec Ideal S50000x128 .f32 :=
  subf a (broadcastInDim S50000x128 ![0, 1] bcast_S1x128_S50000x128_0_1
    (Host.divf (broadcastInDim S1x128 ![1] bcast_S128_S1x128_1 (colsum a)) (broadcastInDim S1x128 ![] bcast_S_S1x128 (constant S_ .f32 0x47435000#32))))
/-- Column variances (biased), with jnp.var's guard on the normalizer. -/
def var (a : FVec Ideal S50000x128 .f32) : FVec Ideal S128 .f32 :=
  select (broadcastInDim S128 ![] bcast_S_S128 (cmpf .ogt nrm (constant S_ .f32 0x00000000#32)))
    (Host.divf (Host.reduceAdd (mulf (dev a) (dev a)) (constant S_ .f32 0x00000000#32) reducesTo_S50000x128_S128_d0 h_S_) (broadcastInDim S128 ![] bcast_S_S128 nrm))
    (broadcastInDim S128 ![] bcast_S_S128 (id (constant S_ .f32 0x7FC00000#32)))
/-- 1 / sqrt(variance + epsilon). -/
def rstd (v : FVec Ideal S128 .f32) : FVec Ideal S128 .f32 :=
  Host.rsqrt (addf v (broadcastInDim S128 ![] bcast_S_S128 (constant S_ .f32 0x3727C5AC#32)))
def scale (γ v : FVec Ideal S128 .f32) : FVec Ideal S128 .f32 := mulf γ (rstd v)
def shift (β mu sc : FVec Ideal S128 .f32) : FVec Ideal S128 .f32 := subf β (mulf mu sc)
/-- 50000 node rows padded with 3248 more, to a whole number of blocks of 4096. -/
def padN (x : FVec Ideal S50000x128 .f32) : FVec Ideal S53248x128 .f32 :=
  pad S53248x128 ![0, 0] ![3248, 0] ![0, 0] x padv pads_S50000x128_S53248x128_032480_000 h_S_

/-- REGION 1, entry by entry. -/
def outPad (hP aP : FVec Ideal S53248x128 .f32) (s2 t2 : FVec Ideal S1x128 .f32) : FVec Ideal S53248x128 .f32 := fun i =>
  Sc.outK (hP i) (aP i) (s2 (ix2 0 (i 1))) (t2 (ix2 0 (i 1)))
/-- The first 50000 result rows. -/
def outS (O : FVec Ideal S53248x128 .f32) : FVec Ideal S50000x128 .f32 :=
  extractStridedSlice S50000x128 ![0, 0] O slices_S53248x128_S50000x128_0_0

/-- The aggregate of the whole program. -/
def aggAll (h : FVec Ideal S50000x128 .f32) (ei : IVec S2x800000 32) (ef : FVec Ideal S800000x10 .f32) (gw : FVec Ideal S266x128 .f32)
    (gb : FVec Ideal S128 .f32) (cw : FVec Ideal S266x128 .f32) (cb : FVec Ideal S128 .f32) : FVec Ideal S50000x128 .f32 :=
  agg (src1 ei) (mK (msgPad (padE (rows h (src1 ei))) (padE (rows h (dst1 ei))) (padE10 ef) gw (row1 gb) cw (row1 cb)))
/-- The result from the aggregate. -/
def outOf (h a : FVec Ideal S50000x128 .f32) (γ β : FVec Ideal S128 .f32) : FVec Ideal S50000x128 .f32 :=
  outS (outPad (padN h) (padN a) (row1 (scale γ (var a))) (row1 (shift β (mean a) (scale γ (var a)))))
/-- The program's result. -/
def out (h : FVec Ideal S50000x128 .f32) (ei : IVec S2x800000 32) (ef : FVec Ideal S800000x10 .f32) (gw : FVec Ideal S266x128 .f32)
    (gb : FVec Ideal S128 .f32) (cw : FVec Ideal S266x128 .f32) (cb : FVec Ideal S128 .f32) (γ β : FVec Ideal S128 .f32) : FVec Ideal S50000x128 .f32 :=
  outOf h (aggAll h ei ef gw gb cw cb) γ β

end KV
end Cert.KernelIdeal.Gen

end
-- ==== Proof.KHostA.lean ====
/-
  The host operations before region 0, read at the arrays the region takes: from any contents W of the buffers, after
  the seven stretches the padded gathered rows, the padded edge features and the bias rows are the stage functions of
  W's argument arrays, and the arrays a later stage reads are as they were.
-/
import proofs.«179620_j6270652252664_1_alg».proof.Proof.Gen.KernelIdeal.Launch
import proofs.«179620_j6270652252664_1_alg».proof.Proof.KSpec
import Idealize.ShloMosaic.Lib.StableHlo.Run

noncomputable section

namespace Cert.KernelIdeal.Gen

open Idealize.ShloMosaic Idealize.ShloMosaic.ValueIdx Idealize.ShloMosaic.TcCoe Idealize.SL.Sem

namespace KV

/-- The buffers after the seven host stretches before region 0, from the contents `W`. -/
abbrev stageA (W : Valuation τ sig (Elt Ideal)) : Valuation τ sig (Elt Ideal) :=
  StableHlo.after hostOps0_6 (StableHlo.after hostOps0_5 (StableHlo.after hostOps0_4 (StableHlo.after hostOps0_3
    (StableHlo.after hostOps0_2 (StableHlo.after hostOps0_1 (StableHlo.after hostOps0 W))))))

variable (W : Valuation τ sig (Elt Ideal))

theorem stageA_v18 : stageA W (Proc.devRef .tc main_v18)
    = padE (rows (W (Proc.devRef .tc main_arg0)) (src1 (W (Proc.devRef .tc main_arg1)))) := by
  show StableHlo.after hostOps0_6 _ (Proc.devRef .tc main_v18) = _
  after_results_simp
  rfl
theorem stageA_v19 : stageA W (Proc.devRef .tc main_v19)
    = padE (rows (W (Proc.devRef .tc main_arg0)) (dst1 (W (Proc.devRef .tc main_arg1)))) := by
  show StableHlo.after hostOps0_6 _ (Proc.devRef .tc main_v19) = _
  after_results_simp
  rfl
theorem stageA_v20 : stageA W (Proc.devRef .tc main_v20) = padE10 (W (Proc.devRef .tc main_arg2)) := by
  show StableHlo.after hostOps0_6 _ (Proc.devRef .tc main_v20) = _
  after_results
  rfl
theorem stageA_v21 : stageA W (Proc.devRef .tc main_v21) = row1 (W (Proc.devRef .tc main_arg4)) := by
  show StableHlo.after hostOps0_6 _ (Proc.devRef .tc main_v21) = _
  after_results
  rfl
theorem stageA_v22 : stageA W (Proc.devRef .tc main_v22) = row1 (W (Proc.devRef .tc main_arg6)) := by
  show StableHlo.after hostOps0_6 _ (Proc.devRef .tc main_v22) = _
  after_results
  rfl
theorem stageA_v1 : stageA W (Proc.devRef .tc main_v1) = src1 (W (Proc.devRef .tc main_arg1)) := by
  show StableHlo.after hostOps0_6 _ (Proc.devRef .tc main_v1) = _
  after_results
  rfl
/-- No operation of these stretches writes an argument array. -/
theorem stageA_arg0 : stageA W (Proc.devRef .tc main_arg0) = W (Proc.devRef .tc main_arg0) := by
  show StableHlo.after hostOps0_6 _ (Proc.devRef .tc main_arg0) = _
  after_results
theorem stageA_arg3 : stageA W (Proc.devRef .tc main_arg3) = W (Proc.devRef .tc main_arg3) := by
  show StableHlo.after hostOps0_6 _ (Proc.devRef .tc main_arg3) = _
  after_results
theorem stageA_arg5 : stageA W (Proc.devRef .tc main_arg5) = W (Proc.devRef .tc main_arg5) := by
  show StableHlo.after hostOps0_6 _ (Proc.devRef .tc main_arg5) = _
  after_results
theorem stageA_arg7 : stageA W (Proc.devRef .tc main_arg7) = W (Proc.devRef .tc main_arg7) := by
  show StableHlo.after hostOps0_6 _ (Proc.devRef .tc main_arg7) = _
  after_results
theorem stageA_arg8 : stageA W (Proc.devRef .tc main_arg8) = W (Proc.devRef .tc main_arg8) := by
  show StableHlo.after hostOps0_6 _ (Proc.devRef .tc main_arg8) = _
  after_results

end KV
end Cert.KernelIdeal.Gen

end
-- ==== Proof.KHostB.lean ====
/-
  The host operations between the two regions, read at the arrays region 1 takes: from any contents W of the buffers,
  after the six stretches the padded features, the padded aggregate and the scale and shift rows are the stage functions
  of W's message array, source indices and argument arrays.
-/
import proofs.«179620_j6270652252664_1_alg».proof.Proof.Gen.KernelIdeal.Launch
import proofs.«179620_j6270652252664_1_alg».proof.Proof.KSpec
import Idealize.ShloMosaic.Lib.StableHlo.Run

noncomputable section

namespace Cert.KernelIdeal.Gen

open Idealize.ShloMosaic Idealize.ShloMosaic.ValueIdx Idealize.ShloMosaic.TcCoe Idealize.SL.Sem

namespace KV

/-- The buffers after the six host stretches between the regions, from the contents `W`. -/
abbrev stageB (W : Valuation τ sig (Elt Ideal)) : Valuation τ sig (Elt Ideal) :=
  StableHlo.after hostOps1_5 (StableHlo.after hostOps1_4 (StableHlo.after hostOps1_3
    (StableHlo.after hostOps1_2 (StableHlo.after hostOps1_1 (StableHlo.after hostOps1 W)))))

variable (W : Valuation τ sig (Elt Ideal))

/-- The aggregate the stretches compute from W's message array and source indices. -/
abbrev aggOf : FVec Ideal S50000x128 .f32 := agg (W (Proc.devRef .tc main_v1)) (mK (W (Proc.devRef .tc main_v23)))

/-! ## Stretch by stretch, from arbitrary contents -/

section Stretches

variable (V : Valuation τ sig (Elt Ideal))

/-! ### The slice of the message array, the scatter-add and the column mean -/

theorem stageB_s0_v27 : StableHlo.after hostOps1 V (Proc.devRef .tc main_v27)
    = agg (V (Proc.devRef .tc main_v1)) (mK (V (Proc.devRef .tc main_v23))) := by
  after_results; rfl
theorem stageB_s0_v30 : StableHlo.after hostOps1 V (Proc.devRef .tc main_v30)
    = mean (agg (V (Proc.devRef .tc main_v1)) (mK (V (Proc.devRef .tc main_v23)))) := by
  after_results; rfl
theorem stageB_s0_c8 : StableHlo.after hostOps1 V (Proc.devRef .tc main_c_8) = constantI S_ 32 0#32 := by
  after_results
theorem stageB_s0_arg0 : StableHlo.after hostOps1 V (Proc.devRef .tc main_arg0) = V (Proc.devRef .tc main_arg0) := by
  after_results
theorem stageB_s0_arg7 : StableHlo.after hostOps1 V (Proc.devRef .tc main_arg7) = V (Proc.devRef .tc main_arg7) := by
  after_results
theorem stageB_s0_arg8 : StableHlo.after hostOps1 V (Proc.devRef .tc main_arg8) = V (Proc.devRef .tc main_arg8) := by
  after_results

/-! ### The column variance -/

/-- The variance reads the integer 0 the first stretch leaves (the degrees-of-freedom correction). -/
theorem stageB_s1_v31 (hc : V (Proc.devRef .tc main_c_8) = constantI S_ 32 0#32) :
    StableHlo.after hostOps1_1 V (Proc.devRef .tc main_v31) = var (V (Proc.devRef .tc main_v27)) := by
  after_results_simp
  simp only [StableHlo.TRef.ofBuf, StableHlo.TRef.toBuf, cast_eq]
  rw [hc]
  rfl
theorem stageB_s1_v27 : StableHlo.after hostOps1_1 V (Proc.devRef .tc main_v27) = V (Proc.devRef .tc main_v27) := by
  after_results
theorem stageB_s1_v30 : StableHlo.after hostOps1_1 V (Proc.devRef .tc main_v30) = V (Proc.devRef .tc main_v30) := by
  after_results
theorem stageB_s1_arg0 : StableHlo.after hostOps1_1 V (Proc.devRef .tc main_arg0) = V (Proc.devRef .tc main_arg0) := by
  after_results
theorem stageB_s1_arg7 : StableHlo.after hostOps1_1 V (Proc.devRef .tc main_arg7) = V (Proc.devRef .tc main_arg7) := by
  after_results
theorem stageB_s1_arg8 : StableHlo.after hostOps1_1 V (Proc.devRef .tc main_arg8) = V (Proc.devRef .tc main_arg8) := by
  after_results

/-! ### Scale and shift -/

theorem stageB_s2_v38 : StableHlo.after hostOps1_2 V (Proc.devRef .tc main_v38)
    = row1 (scale (V (Proc.devRef .tc main_arg7)) (V (Proc.devRef .tc main_v31))) := by
  after_results; rfl
theorem stageB_s2_v39 : StableHlo.after hostOps1_2 V (Proc.devRef .tc main_v39)
    = row1 (shift (V (Proc.devRef .tc main_arg8)) (V (Proc.devRef .tc main_v30))
        (scale (V (Proc.devRef .tc main_arg7)) (V (Proc.devRef .tc main_v31)))) := by
  after_results; rfl
theorem stageB_s2_c10 : StableHlo.after hostOps1_2 V (Proc.devRef .tc main_c_10) = constantI S_ 32 0#32 := by
  after_results
theorem stageB_s2_v27 : StableHlo.after hostOps1_2 V (Proc.devRef .tc main_v27) = V (Proc.devRef .tc main_v27) := by
  after_results
theorem stageB_s2_arg0 : StableHlo.after hostOps1_2 V (Proc.devRef .tc main_arg0) = V (Proc.devRef .tc main_arg0) := by
  after_results

/-! ### The pad of the features -/

/-- The pad reads the integer 0 the stretch before leaves (the padding value). -/
theorem stageB_s3_v40 (hc : V (Proc.devRef .tc main_c_10) = constantI S_ 32 0#32) :
    StableHlo.after hostOps1_3 V (Proc.devRef .tc main_v40) = padN (V (Proc.devRef .tc main_arg0)) := by
  after_results
  simp only [StableHlo.TRef.ofBuf, StableHlo.TRef.toBuf, cast_eq]
  rw [hc]
  rfl
theorem stageB_s3_v27 : StableHlo.after hostOps1_3 V (Proc.devRef .tc main_v27) = V (Proc.devRef .tc main_v27) := by
  after_results
theorem stageB_s3_v38 : StableHlo.after hostOps1_3 V (Proc.devRef .tc main_v38) = V (Proc.devRef .tc main_v38) := by
  after_results
theorem stageB_s3_v39 : StableHlo.after hostOps1_3 V (Proc.devRef .tc main_v39) = V (Proc.devRef .tc main_v39) := by
  after_results

/-! ### The constant between the pads -/

theorem stageB_s4_c11 : StableHlo.after hostOps1_4 V (Proc.devRef .tc main_c_11) = constantI S_ 32 0#32 := by
  after_results
theorem stageB_s4_v27 : StableHlo.after hostOps1_4 V (Proc.devRef .tc main_v27) = V (Proc.devRef .tc main_v27) := by
  after_results
theorem stageB_s4_v38 : StableHlo.after hostOps1_4 V (Proc.devRef .tc main_v38) = V (Proc.devRef .tc main_v38) := by
  after_results
theorem stageB_s4_v39 : StableHlo.after hostOps1_4 V (Proc.devRef .tc main_v39) = V (Proc.devRef .tc main_v39) := by
  after_results
theorem stageB_s4_v40 : StableHlo.after hostOps1_4 V (Proc.devRef .tc main_v40) = V (Proc.devRef .tc main_v40) := by
  after_results

/-! ### The pad of the aggregate -/

/-- The pad reads the integer 0 the stretch before leaves (the padding value). -/
theorem stageB_s5_v41 (hc : V (Proc.devRef .tc main_c_11) = constantI S_ 32 0#32) :
    StableHlo.after hostOps1_5 V (Proc.devRef .tc main_v41) = padN (V (Proc.devRef .tc main_v27)) := by
  after_results
  simp only [StableHlo.TRef.ofBuf, StableHlo.TRef.toBuf, cast_eq]
  rw [hc]
  rfl
theorem stageB_s5_v38 : StableHlo.after hostOps1_5 V (Proc.devRef .tc main_v38) = V (Proc.devRef .tc main_v38) := by
  after_results
theorem stageB_s5_v39 : StableHlo.after hostOps1_5 V (Proc.devRef .tc main_v39) = V (Proc.devRef .tc main_v39) := by
  after_results
theorem stageB_s5_v40 : StableHlo.after hostOps1_5 V (Proc.devRef .tc main_v40) = V (Proc.devRef .tc main_v40) := by
  after_results

end Stretches

/-! ## The six stretches chained -/

theorem stageB_v40 : stageB W (Proc.devRef .tc main_v40) = padN (W (Proc.devRef .tc main_arg0)) := by
  show StableHlo.after hostOps1_5 _ _ = _
  rw [stageB_s5_v40, stageB_s4_v40, stageB_s3_v40 _ (stageB_s2_c10 _), stageB_s2_arg0, stageB_s1_arg0, stageB_s0_arg0]
theorem stageB_v41 : stageB W (Proc.devRef .tc main_v41) = padN (aggOf W) := by
  show StableHlo.after hostOps1_5 _ _ = _
  rw [stageB_s5_v41 _ (stageB_s4_c11 _), stageB_s4_v27, stageB_s3_v27, stageB_s2_v27, stageB_s1_v27, stageB_s0_v27]
theorem stageB_v38 : stageB W (Proc.devRef .tc main_v38)
    = row1 (scale (W (Proc.devRef .tc main_arg7)) (var (aggOf W))) := by
  show StableHlo.after hostOps1_5 _ _ = _
  rw [stageB_s5_v38, stageB_s4_v38, stageB_s3_v38, stageB_s2_v38, stageB_s1_arg7, stageB_s0_arg7, stageB_s1_v31 _ (stageB_s0_c8 _), stageB_s0_v27]
theorem stageB_v39 : stageB W (Proc.devRef .tc main_v39)
    = row1 (shift (W (Proc.devRef .tc main_arg8)) (mean (aggOf W)) (scale (W (Proc.devRef .tc main_arg7)) (var (aggOf W)))) := by
  show StableHlo.after hostOps1_5 _ _ = _
  rw [stageB_s5_v39, stageB_s4_v39, stageB_s3_v39, stageB_s2_v39, stageB_s1_arg8, stageB_s0_arg8, stageB_s1_v30, stageB_s0_v30, stageB_s1_arg7, stageB_s0_arg7, stageB_s1_v31 _ (stageB_s0_c8 _), stageB_s0_v27]

end KV
end Cert.KernelIdeal.Gen

end
-- ==== Proof.PayloadK.lean ====
/-
  The two kernel bodies' stored values read at an entry: the message body's value at row r, feature j is the
  scalar message of the concatenated row r of its three input blocks; the normalization body's value is the scalar
  result of the four loaded values at that entry.
-/
import proofs.«179620_j6270652252664_1_alg».proof.Proof.Gen.KernelIdeal.Skeleton
import proofs.«179620_j6270652252664_1_alg».proof.Proof.Scalar
import Idealize.ShloMosaic.Lib.ValueIdx
import Idealize.ShloMosaic.Lib.Pipeline.Value
import Idealize.ShloMosaic.PureOps.Ideal.Laws

noncomputable section

namespace Cert.KernelIdeal.Gen

open Idealize.ShloMosaic Idealize.ShloMosaic.ValueIdx

namespace KV

/-! ## The pieces: the guarded softplus, the row broadcast, the matrix product, the concatenation -/

namespace PayK

/-- The comparison "ordered and not equal" of a value with itself is false, so the guarded softplus takes its
    unguarded branch: max(x, 0) + log(1 + e^(-|x|)). -/
theorem softplus_guarded (x : EReal) :
    Scalar.select (Ideal.cmp .one (x - 0) (x - 0)) (x + 0)
      (max x 0 + Ideal.log1p (Ideal.exp (0 - max (x - 0) (-(x - 0))))) = Sc.softplus x := by
  have hc : Ideal.cmp .one (x - 0) (x - 0) = 0#1 := by
    simp [Ideal.cmp]
  rw [hc, select_zero, sub_zero, zero_sub]
  rfl

/-- The guarded softplus of a whole vector, read at an index (`c` is the zero constant). -/
theorem softplus_vec {s : Shape} (x : FVec Ideal s .f32) (i : s.Idx) (c : Ideal .f32) (hc : c = (0 : EReal)) :
    select (cmpf .one (subf x (broadcast s c)) (subf x (broadcast s c)))
      (addf x (broadcast s c))
      (addf (maximumf x (broadcast s c))
        (log1p (exp (subf (broadcast s c) (absf (subf x (broadcast s c))))))) i
    = Sc.softplus (x i) := by
  subst hc
  exact softplus_guarded (x i)

/-- A row [1,128] broadcast over 4096 rows reads the row's entry of the same column. -/
theorem rowBcast_apply (v : FVec Ideal S1x128 .f32) (r : Fin 4096) (j : Fin 128) :
    broadcastTo S4096x128 v broadcasts_S1x128_S4096x128 (ix2 r j) = v (ix2 0 j) :=
  broadcastTo_apply v _ (ix2 r j) (ix2 0 j) (fun a => match a with | ⟨0, _⟩ => rfl | ⟨1, _⟩ => rfl)

/-! ## The matrix product's operand indices, axis by axis -/

theorem lhs_dot_0 (i : S4096x128.Idx) (q : dot_S4096x266_S266x128_S4096x128_1_0_0_1_n_n.contr.Idx) :
    (dot_S4096x266_S266x128_S4096x128_1_0_0_1_n_n.lhsIdx i q 0).val = (i 0).val := by
  unfold DotDims.lhsIdx
  rw [dif_neg (show ¬(0 : Fin S4096x266.rank) ∈ dot_S4096x266_S266x128_S4096x128_1_0_0_1_n_n.lhsBatch by decide),
    dif_pos (show (0 : Fin S4096x266.rank) ∈ dot_S4096x266_S266x128_S4096x128_1_0_0_1_n_n.lhsNonContracting by decide)]
  rfl

theorem lhs_dot_1 (i : S4096x128.Idx) (q : dot_S4096x266_S266x128_S4096x128_1_0_0_1_n_n.contr.Idx) :
    (dot_S4096x266_S266x128_S4096x128_1_0_0_1_n_n.lhsIdx i q 1).val = (q ⟨0, by decide⟩).val :=
  dot_S4096x266_S266x128_S4096x128_1_0_0_1_n_n.lhsIdx_val_of_single rfl i q

theorem rhs_dot_0 (i : S4096x128.Idx) (q : dot_S4096x266_S266x128_S4096x128_1_0_0_1_n_n.contr.Idx) :
    (dot_S4096x266_S266x128_S4096x128_1_0_0_1_n_n.rhsIdx i q 0).val = (q ⟨0, by decide⟩).val :=
  dot_S4096x266_S266x128_S4096x128_1_0_0_1_n_n.rhsIdx_val_of_single rfl i q

theorem rhs_dot_1 (i : S4096x128.Idx) (q : dot_S4096x266_S266x128_S4096x128_1_0_0_1_n_n.contr.Idx) :
    (dot_S4096x266_S266x128_S4096x128_1_0_0_1_n_n.rhsIdx i q 1).val = (i 1).val := by
  unfold DotDims.rhsIdx
  rw [dif_neg (show ¬(1 : Fin S266x128.rank) ∈ dot_S4096x266_S266x128_S4096x128_1_0_0_1_n_n.rhsBatch by decide),
    dif_pos (show (1 : Fin S266x128.rank) ∈ dot_S4096x266_S266x128_S4096x128_1_0_0_1_n_n.rhsNonContracting by decide)]
  rfl

/-- The [4096,266] × [266,128] product into a zero accumulator, read at row r, column j: the sum over the 266
    contracted coordinates of the products of the entries. -/
theorem matmul_row (L : FVec Ideal S4096x266 .bf16) (R : FVec Ideal S266x128 .bf16) (r : Fin 4096) (j : Fin 128) :
    matmul (F := Ideal) dot_S4096x266_S266x128_S4096x128_1_0_0_1_n_n none L R
        (constant (F := Ideal) S4096x128 .f32 0x00000000#32) (ix2 r j)
      = ∑ k : Fin 266, L (ix2 r k) * R (ix2 k j) := by
  show FloatOps.matmul dot_S4096x266_S266x128_S4096x128_1_0_0_1_n_n none L R
        (constant (F := Ideal) S4096x128 .f32 0x00000000#32) (ix2 r j) = _
  rw [Ideal.matmul_constant_zero_apply,
    ← Equiv.sum_comp (contrEquiv1 dot_S4096x266_S266x128_S4096x128_1_0_0_1_n_n 266 rfl rfl).symm]
  refine Finset.sum_congr rfl fun k _ => ?_
  have hk := contrEquiv1_symm_val dot_S4096x266_S266x128_S4096x128_1_0_0_1_n_n 266 rfl rfl k
  have el : dot_S4096x266_S266x128_S4096x128_1_0_0_1_n_n.lhsIdx (ix2 r j)
      ((contrEquiv1 dot_S4096x266_S266x128_S4096x128_1_0_0_1_n_n 266 rfl rfl).symm k) = ix2 r k :=
    funext fun a => Fin.ext (by
      match a with
      | ⟨0, _⟩ => exact lhs_dot_0 _ _
      | ⟨1, _⟩ => exact (lhs_dot_1 _ _).trans hk)
  have er : dot_S4096x266_S266x128_S4096x128_1_0_0_1_n_n.rhsIdx (ix2 r j)
      ((contrEquiv1 dot_S4096x266_S266x128_S4096x128_1_0_0_1_n_n 266 rfl rfl).symm k) = ix2 k j :=
    funext fun a => Fin.ext (by
      match a with
      | ⟨0, _⟩ => exact (rhs_dot_0 _ _).trans hk
      | ⟨1, _⟩ => exact rhs_dot_1 _ _)
  rw [el, er]

/-- The three blocks laid side by side along the columns, read at row r, column k: the block whose span holds k. -/
theorem zcat_apply (a b : FVec Ideal S4096x128 .f32) (e : FVec Ideal S4096x10 .f32) (r : Fin 4096) (k : Fin 266) :
    concatenate S4096x266 1 [⟨S4096x128, a⟩, ⟨S4096x128, b⟩, ⟨S4096x10, e⟩]
        concatenates_S4096x128_S4096x128_S4096x10_S4096x266_d1 (ix2 r k)
      = Sc.zcat (fun k => a (ix2 r k)) (fun k => b (ix2 r k)) (fun k => e (ix2 r k)) k := by
  unfold Sc.zcat
  dsimp only
  by_cases h1 : k.val < 128
  · rw [dif_pos h1]
    exact concatenate_apply_piece (1 : Fin S4096x266.rank) _ _ (ix2 r k) 0 (by show 0 < 3; omega) S4096x128 a rfl rfl 0 rfl
      (ix2 r ⟨k.val, h1⟩)
      (fun b => match b with | ⟨0, _⟩ => fun _ => rfl | ⟨1, _⟩ => fun hb => absurd rfl hb)
      (by show 0 + k.val = k.val; omega)
  · rw [dif_neg h1]
    by_cases h2 : k.val < 256
    · rw [dif_pos h2]
      exact concatenate_apply_piece (1 : Fin S4096x266.rank) _ _ (ix2 r k) 1 (by show 1 < 3; omega) S4096x128 b rfl rfl 128 rfl
        (ix2 r ⟨k.val - 128, by omega⟩)
        (fun b => match b with | ⟨0, _⟩ => fun _ => rfl | ⟨1, _⟩ => fun hb => absurd rfl hb)
        (by show 128 + (k.val - 128) = k.val; omega)
    · rw [dif_neg h2]
      exact concatenate_apply_piece (1 : Fin S4096x266.rank) _ _ (ix2 r k) 2 (by show 2 < 3; omega) S4096x10 e rfl rfl 256 rfl
        (ix2 r ⟨k.val - 256, by have := k.isLt; omega⟩)
        (fun b => match b with | ⟨0, _⟩ => fun _ => rfl | ⟨1, _⟩ => fun hb => absurd rfl hb)
        (by show 256 + (k.val - 256) = k.val; omega)

/-- One linear layer of the message body at an entry: the concatenated row against a weight column, plus the bias. -/
theorem lin_apply (a b : FVec Ideal S4096x128 .f32) (e : FVec Ideal S4096x10 .f32) (w : FVec Ideal S266x128 .f32)
    (bias : FVec Ideal S1x128 .f32) (r : Fin 4096) (j : Fin 128) :
    addf
        (matmul (F := Ideal) dot_S4096x266_S266x128_S4096x128_1_0_0_1_n_n none
          (truncf .bf16
            (concatenate S4096x266 1
              [⟨S4096x128, shapeCast S4096x128 a shapeCasts_S4096x128_S4096x128⟩,
               ⟨S4096x128, shapeCast S4096x128 b shapeCasts_S4096x128_S4096x128⟩,
               ⟨S4096x10, shapeCast S4096x10 e shapeCasts_S4096x10_S4096x10⟩]
              concatenates_S4096x128_S4096x128_S4096x10_S4096x266_d1) bitsLt_bf16_f32)
          (truncf .bf16 w bitsLt_bf16_f32)
          (constant (F := Ideal) S4096x128 .f32 0x00000000#32))
        (broadcastTo S4096x128 (shapeCast S1x128 bias shapeCasts_S1x128_S1x128) broadcasts_S1x128_S4096x128) (ix2 r j)
      = Sc.lin (Sc.zcat (fun k => a (ix2 r k)) (fun k => b (ix2 r k)) (fun k => e (ix2 r k)))
          (fun k => w (ix2 k j)) (bias (ix2 0 j)) := by
  rw [shapeCast_self a, shapeCast_self b, shapeCast_self e, shapeCast_self bias]
  refine (addf_apply _ _ _).trans ?_
  unfold Sc.lin
  refine congrArg₂ (· + ·) ?_ (rowBcast_apply _ r j)
  refine (matmul_row _ _ r j).trans ?_
  refine Finset.sum_congr rfl fun k _ => ?_
  exact congrArg₂ (· * ·)
    ((truncf_apply (φ := .f32) (ψ := .bf16) _ bitsLt_bf16_f32 (ix2 r k)).trans (zcat_apply a b e r k))
    (truncf_apply (φ := .f32) (ψ := .bf16) w bitsLt_bf16_f32 (ix2 k j))

end PayK

open PayK

/-- The message body at an entry. (Argument order of the payload: source block, destination block, edge-feature block,
    gate weights, candidate weights, gate bias row, candidate bias row.) -/
theorem pay0_apply (a b : Vec Ideal S4096x128 .f32) (e : Vec Ideal S4096x10 .f32) (gw cw : Vec Ideal S266x128 .f32) (gb cb : Vec Ideal S1x128 .f32)
    (r : Fin 4096) (j : Fin 128) :
    k0_pay1 (F := Ideal) a b e gw cw gb cb (ix2 r j)
      = Sc.msg (Sc.zcat (fun k => a (ix2 r k)) (fun k => b (ix2 r k)) (fun k => e (ix2 r k)))
          (fun k => gw (ix2 k j)) (gb (ix2 0 j)) (fun k => cw (ix2 k j)) (cb (ix2 0 j)) := by
  unfold k0_pay1
  unfold Sc.msg
  refine (mulf_apply _ _ (ix2 r j)).trans ?_
  refine congrArg₂ (· * ·) ?_ ?_
  · exact congrArg Ideal.logistic (lin_apply a b e gw gb r j)
  · refine (softplus_vec _ (ix2 r j) _ Ideal.ofBits_zero_f32).trans ?_
    exact congrArg Sc.softplus (lin_apply a b e cw cb r j)

/-- The normalization body at an entry. (Argument order of the payload: aggregate block, scale row, shift row, feature block.) -/
theorem pay1_apply (ag : Vec Ideal S4096x128 .f32) (s t : Vec Ideal S1x128 .f32) (h : Vec Ideal S4096x128 .f32)
    (r : Fin 4096) (j : Fin 128) :
    k1_pay1 (F := Ideal) ag s t h (ix2 r j) = Sc.outK (h (ix2 r j)) (ag (ix2 r j)) (s (ix2 0 j)) (t (ix2 0 j)) := by
  unfold k1_pay1
  refine (softplus_vec _ (ix2 r j) _ Ideal.ofBits_zero_f32).trans ?_
  unfold Sc.outK
  refine congrArg Sc.softplus ?_
  rw [shapeCast_self, shapeCast_self, shapeCast_self, shapeCast_self]
  rw [addf_apply, addf_apply, mulf_apply, rowBcast_apply, rowBcast_apply]

end KV
end Cert.KernelIdeal.Gen

end
-- ==== Proof.KReg0.lean ====
/-
  Region 0 (the message kernel over 196 blocks of 4096 edges): the result array after the region, as one function of the
  arrays the region finds. Block t of the result is the body's value on block t of the three edge-shaped inputs and the
  whole weight and bias arrays; the blocks tile the result.
-/
import proofs.«179620_j6270652252664_1_alg».proof.Proof.Gen.KernelIdeal.Frame
import proofs.«179620_j6270652252664_1_alg».proof.Proof.KSpec
import proofs.«179620_j6270652252664_1_alg».proof.Proof.PayloadK
import Idealize.ShloMosaic.Lib.Pipeline.Value

noncomputable section

namespace Cert.KernelIdeal.Gen

open Idealize.ShloMosaic Idealize.ShloMosaic.ValueIdx Idealize.ShloMosaic.TcCoe
open Idealize.ShloMosaic.Pipeline (Dat Cfg Window)

namespace KV

variable (V : (c : Dev nD) → (b : Ref sig .tc) → Buf (Elt Ideal) ((c : Thread nD τ).loc b))

/-- The zero offsets of a two-axis rectangle, as the constant function. -/
theorem zero_off0 : (![0, 0] : Fin 2 → Nat) = fun _ => 0 := funext fun a => by
  match a with
  | ⟨0, _⟩ => rfl
  | ⟨1, _⟩ => rfl

/-- The index maps over the grid's 196 points: the three edge-shaped inputs and the result take block (t, 0) at point t,
    the weight and bias arrays block (0, 0) at every point. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## Each input block as rows of its array

A block's coordinate on an axis is the block index times the block's size plus the coordinate inside the block. -/

/-- Block t of the source-node rows: its row r is row 4096·t + r of the array. -/
theorem iblk0_0_apply (c : Dev nD) (t : Fin cfg0.N) (r : Fin 4096) (k : Fin 128) (h : t.val * 4096 + r.val < 802816) :
    (iblk0 V c 0 t : Vec Ideal S4096x128 .f32) (ix2 r k) = (V c main_v18 : S802816x128.Idx → EReal) (ix2 ⟨t.val * 4096 + r.val, h⟩ k) := by
  have e0 : win0_0.index t (0 : Fin 2) = t.val := by obtain ⟨e00, e01, e10, e11, e20, e21, -⟩ := idx_facts0 t; assumption
  have e1 : win0_0.index t (1 : Fin 2) = 0 := by obtain ⟨e00, e01, e10, e11, e20, e21, -⟩ := idx_facts0 t; assumption
  unfold iblk0
  rw [View.read_apply]
  show V c main_v18 _ = V c main_v18 _
  congr 1
  funext a
  apply Fin.ext
  match a with
  | ⟨0, _⟩ => show win0_0.index t (0 : Fin 2) * 4096 + 1 * r.val = t.val * 4096 + r.val; rw [e0]; omega
  | ⟨1, _⟩ => show win0_0.index t (1 : Fin 2) * 128 + 1 * k.val = k.val; rw [e1]; omega

/-- Block t of the destination-node rows: its row r is row 4096·t + r of the array. -/
theorem iblk0_1_apply (c : Dev nD) (t : Fin cfg0.N) (r : Fin 4096) (k : Fin 128) (h : t.val * 4096 + r.val < 802816) :
    (iblk0 V c 1 t : Vec Ideal S4096x128 .f32) (ix2 r k) = (V c main_v19 : S802816x128.Idx → EReal) (ix2 ⟨t.val * 4096 + r.val, h⟩ k) := by
  have e0 : win0_1.index t (0 : Fin 2) = t.val := by obtain ⟨e00, e01, e10, e11, e20, e21, -⟩ := idx_facts0 t; assumption
  have e1 : win0_1.index t (1 : Fin 2) = 0 := by obtain ⟨e00, e01, e10, e11, e20, e21, -⟩ := idx_facts0 t; assumption
  unfold iblk0
  rw [View.read_apply]
  show V c main_v19 _ = V c main_v19 _
  congr 1
  funext a
  apply Fin.ext
  match a with
  | ⟨0, _⟩ => show win0_1.index t (0 : Fin 2) * 4096 + 1 * r.val = t.val * 4096 + r.val; rw [e0]; omega
  | ⟨1, _⟩ => show win0_1.index t (1 : Fin 2) * 128 + 1 * k.val = k.val; rw [e1]; omega

/-- Block t of the edge-feature rows: its row r is row 4096·t + r of the array. -/
theorem iblk0_2_apply (c : Dev nD) (t : Fin cfg0.N) (r : Fin 4096) (k : Fin 10) (h : t.val * 4096 + r.val < 802816) :
    (iblk0 V c 2 t : Vec Ideal S4096x10 .f32) (ix2 r k) = (V c main_v20 : S802816x10.Idx → EReal) (ix2 ⟨t.val * 4096 + r.val, h⟩ k) := by
  have e0 : win0_2.index t (0 : Fin 2) = t.val := by obtain ⟨e00, e01, e10, e11, e20, e21, -⟩ := idx_facts0 t; assumption
  have e1 : win0_2.index t (1 : Fin 2) = 0 := by obtain ⟨e00, e01, e10, e11, e20, e21, -⟩ := idx_facts0 t; assumption
  unfold iblk0
  rw [View.read_apply]
  show V c main_v20 _ = V c main_v20 _
  congr 1
  funext a
  apply Fin.ext
  match a with
  | ⟨0, _⟩ => show win0_2.index t (0 : Fin 2) * 4096 + 1 * r.val = t.val * 4096 + r.val; rw [e0]; omega
  | ⟨1, _⟩ => show win0_2.index t (1 : Fin 2) * 10 + 1 * k.val = k.val; rw [e1]; omega

/-- The block of the gate weights is the whole array at every point. -/
theorem iblk0_3_eq (c : Dev nD) (t : Fin cfg0.N) :
    (iblk0 V c 3 t : Vec Ideal S266x128 .f32) = (V c main_arg3 : S266x128.Idx → EReal) := by
  have e0 : win0_3.index t (0 : Fin 2) = 0 := by obtain ⟨-, -, -, -, -, -, e30, e31, e40, e41, e50, e51, e60, e61, -⟩ := idx_facts0 t; assumption
  have e1 : win0_3.index t (1 : Fin 2) = 0 := by obtain ⟨-, -, -, -, -, -, e30, e31, e40, e41, e50, e51, e60, e61, -⟩ := idx_facts0 t; assumption
  funext x
  unfold iblk0
  rw [View.read_apply]
  show V c main_arg3 _ = V c main_arg3 _
  congr 1
  funext a
  apply Fin.ext
  match a with
  | ⟨0, _⟩ => show win0_3.index t (0 : Fin 2) * 266 + 1 * (x 0).val = (x 0).val; rw [e0]; omega
  | ⟨1, _⟩ => show win0_3.index t (1 : Fin 2) * 128 + 1 * (x 1).val = (x 1).val; rw [e1]; omega

/-- The block of the gate bias row is the whole array at every point. -/
theorem iblk0_4_eq (c : Dev nD) (t : Fin cfg0.N) :
    (iblk0 V c 4 t : Vec Ideal S1x128 .f32) = (V c main_v21 : S1x128.Idx → EReal) := by
  have e0 : win0_4.index t (0 : Fin 2) = 0 := by obtain ⟨-, -, -, -, -, -, e30, e31, e40, e41, e50, e51, e60, e61, -⟩ := idx_facts0 t; assumption
  have e1 : win0_4.index t (1 : Fin 2) = 0 := by obtain ⟨-, -, -, -, -, -, e30, e31, e40, e41, e50, e51, e60, e61, -⟩ := idx_facts0 t; assumption
  funext x
  unfold iblk0
  rw [View.read_apply]
  show V c main_v21 _ = V c main_v21 _
  congr 1
  funext a
  apply Fin.ext
  match a with
  | ⟨0, _⟩ => show win0_4.index t (0 : Fin 2) * 1 + 1 * (x 0).val = (x 0).val; rw [e0]; omega
  | ⟨1, _⟩ => show win0_4.index t (1 : Fin 2) * 128 + 1 * (x 1).val = (x 1).val; rw [e1]; omega

/-- The block of the candidate weights is the whole array at every point. -/
theorem iblk0_5_eq (c : Dev nD) (t : Fin cfg0.N) :
    (iblk0 V c 5 t : Vec Ideal S266x128 .f32) = (V c main_arg5 : S266x128.Idx → EReal) := by
  have e0 : win0_5.index t (0 : Fin 2) = 0 := by obtain ⟨-, -, -, -, -, -, e30, e31, e40, e41, e50, e51, e60, e61, -⟩ := idx_facts0 t; assumption
  have e1 : win0_5.index t (1 : Fin 2) = 0 := by obtain ⟨-, -, -, -, -, -, e30, e31, e40, e41, e50, e51, e60, e61, -⟩ := idx_facts0 t; assumption
  funext x
  unfold iblk0
  rw [View.read_apply]
  show V c main_arg5 _ = V c main_arg5 _
  congr 1
  funext a
  apply Fin.ext
  match a with
  | ⟨0, _⟩ => show win0_5.index t (0 : Fin 2) * 266 + 1 * (x 0).val = (x 0).val; rw [e0]; omega
  | ⟨1, _⟩ => show win0_5.index t (1 : Fin 2) * 128 + 1 * (x 1).val = (x 1).val; rw [e1]; omega

/-- The block of the candidate bias row is the whole array at every point. -/
theorem iblk0_6_eq (c : Dev nD) (t : Fin cfg0.N) :
    (iblk0 V c 6 t : Vec Ideal S1x128 .f32) = (V c main_v22 : S1x128.Idx → EReal) := by
  have e0 : win0_6.index t (0 : Fin 2) = 0 := by obtain ⟨-, -, -, -, -, -, e30, e31, e40, e41, e50, e51, e60, e61, -⟩ := idx_facts0 t; assumption
  have e1 : win0_6.index t (1 : Fin 2) = 0 := by obtain ⟨-, -, -, -, -, -, e30, e31, e40, e41, e50, e51, e60, e61, -⟩ := idx_facts0 t; assumption
  funext x
  unfold iblk0
  rw [View.read_apply]
  show V c main_v22 _ = V c main_v22 _
  congr 1
  funext a
  apply Fin.ext
  match a with
  | ⟨0, _⟩ => show win0_6.index t (0 : Fin 2) * 1 + 1 * (x 0).val = (x 0).val; rw [e0]; omega
  | ⟨1, _⟩ => show win0_6.index t (1 : Fin 2) * 128 + 1 * (x 1).val = (x 1).val; rw [e1]; omega

/-- Entry (r, j) of the result's block t sits at entry (4096·t + r, j) of the result array. -/
theorem emb0_7 (t : Fin cfg0.N) (r : Fin 4096) (j : Fin 128) (h : t.val * 4096 + r.val < 802816) :
    (((cfg0.win 7).blk t).view.emb (ix2 r j : S4096x128.Idx) : S802816x128.Idx) = ix2 ⟨t.val * 4096 + r.val, h⟩ j := by
  obtain ⟨-, -, -, -, -, -, -, -, -, -, -, -, -, -, e0, e1⟩ := idx_facts0 t
  funext a
  apply Fin.ext
  match a with
  | ⟨0, _⟩ => show win0_7.index t (0 : Fin 2) * 4096 + 1 * r.val = t.val * 4096 + r.val; rw [e0]; omega
  | ⟨1, _⟩ => show win0_7.index t (1 : Fin 2) * 128 + 1 * j.val = j.val; rw [e1]; omega

/-! ## One point -/

/-- The body's value on the blocks of point t, at (r, j), is the message of edge 4096·t + r, feature j: the row of the
    block is that edge's row in each edge-shaped array, and the weights and biases are the whole arrays. -/
theorem point0 (c : Dev nD) (t : Fin cfg0.N) (r : Fin 4096) (j : Fin 128) (h : t.val * 4096 + r.val < 802816) :
    k0_pay1 (F := Ideal) (iblk0 V c 0 t) (iblk0 V c 1 t) (iblk0 V c 2 t) (iblk0 V c 3 t) (iblk0 V c 5 t) (iblk0 V c 4 t) (iblk0 V c 6 t) (ix2 r j)
      = msgPad (V c main_v18) (V c main_v19) (V c main_v20) (V c main_arg3) (V c main_v21) (V c main_arg5) (V c main_v22) (ix2 ⟨t.val * 4096 + r.val, h⟩ j) := by
  refine (pay0_apply _ _ _ _ _ _ _ r j).trans ?_
  unfold msgPad
  simp only [iblk0_0_apply V c t _ _ h, iblk0_1_apply V c t _ _ h, iblk0_2_apply V c t _ _ h, iblk0_3_eq V c t, iblk0_4_eq V c t, iblk0_5_eq V c t, iblk0_6_eq V c t]

/-- What point t writes back is block t of the message array of the arrays the region finds. -/
theorem flushed_eq0 (c : Dev nD) (t : Fin cfg0.N) :
    (dat0 (F := Ideal) V c).flushed 7 t = ((cfg0.win 7).blk t).view.read (Elt Ideal)
      (msgPad (V c main_v18) (V c main_v19) (V c main_v20) (V c main_arg3) (V c main_v21) (V c main_arg5) (V c main_v22)) := by
  show (cfg0.win 7).cut (grid0.coords t) ((dat0 V c).after 7 t) = _
  rw [after0_7]
  unfold out0_7
  rw [View.canon_unit_zero zero_off0]
  simp only [View.ld_unit_zero (S := S4096x128) zero_off0, View.ld_unit_zero (S := S4096x10) zero_off0, View.ld_unit_zero (S := S266x128) zero_off0, View.ld_unit_zero (S := S1x128) zero_off0]
  refine funext fun (y : S4096x128.Idx) => ?_
  have ht : t.val < 196 := t.isLt.trans_eq N_0
  obtain ⟨r, j, rfl⟩ : ∃ (r : Fin 4096) (j : Fin 128), y = ix2 r j := ⟨y 0, y 1, eq_ix2 y⟩
  have hr : r.val < 4096 := r.isLt
  have h : t.val * 4096 + r.val < 802816 := by omega
  rw [View.read_apply]
  refine (point0 V c t r j h).trans ?_
  show _ = msgPad (V c main_v18) (V c main_v19) (V c main_v20) (V c main_arg3) (V c main_v21) (V c main_arg5) (V c main_v22) (((cfg0.win 7).blk t).view.emb (ix2 r j))
  exact congrArg _ (emb0_7 t r j h).symm

/-! ## The blocks tile the result -/

/-- An index of the result array is in point t's block iff each coordinate is in the block's range on its axis. -/
theorem mem_blk0_7 (t : Fin cfg0.N) (i : S802816x128.Idx) :
    i ∈ ((cfg0.win 7).blk t).view.set ↔ ∀ a : Fin 2, win0_7.index t a * S4096x128.size a ≤ (i a).val ∧ (i a).val < win0_7.index t a * S4096x128.size a + S4096x128.size a := by
  show i ∈ ((View.whole main_v23).slice (win0_7.rect t)).set ↔ _
  rw [View.set_slice_whole, Rect.mem_set_unit]
  exact Iff.rfl

/-- Row e of the result is in the block of point e / 4096, which writes back. -/
theorem cover0 (i : S802816x128.Idx) : ∃ t : Fin cfg0.N, (cfg0.win 7).flush t = true ∧ i ∈ ((cfg0.win 7).blk t).view.set := by
  have hN : grid0.N = 196 := N_0
  have hi0 : (i 0).val < 802816 := (i 0).isLt
  have hi1 : (i 1).val < 128 := (i 1).isLt
  let t : Fin cfg0.N := ⟨(i 0).val / 4096, by show _ < grid0.N; omega⟩
  obtain ⟨-, -, -, -, -, -, -, -, -, -, -, -, -, -, e0, e1⟩ := idx_facts0 t
  refine ⟨t, flush0_7 t, ?_⟩
  rw [mem_blk0_7]
  intro a
  match a with
  | ⟨0, _⟩ => show win0_7.index t (0 : Fin 2) * 4096 ≤ (i 0).val ∧ (i 0).val < win0_7.index t (0 : Fin 2) * 4096 + 4096; rw [e0]; show (i 0).val / 4096 * 4096 ≤ (i 0).val ∧ (i 0).val < (i 0).val / 4096 * 4096 + 4096; omega
  | ⟨1, _⟩ => show win0_7.index t (1 : Fin 2) * 128 ≤ (i 1).val ∧ (i 1).val < win0_7.index t (1 : Fin 2) * 128 + 128; rw [e1]; omega

/-- After region 0 its result array (window 7, main_v23) holds the message array of the arrays it was entered with. -/
theorem region0_value (c : Dev nD) :
    (dat0 (F := Ideal) V c).arrAt 7 cfg0.N
      = msgPad (V c main_v18) (V c main_v19) (V c main_v20) (V c main_arg3) (V c main_v21) (V c main_arg5) (V c main_v22) :=
  (dat0 V c).arrAt_eq_of_cover 7 _ (fun t _ => flushed_eq0 V c t) cover0

end KV
end Cert.KernelIdeal.Gen

end
-- ==== Proof.KReg1.lean ====
/-
  Region 1 (the normalization kernel over 13 blocks of 4096 nodes): the result array after the region, as one function
  of the arrays the region finds. Block t of the result is the body's value on block t of the two node-shaped inputs and
  the scale and shift rows; the blocks tile the result.
-/
import proofs.«179620_j6270652252664_1_alg».proof.Proof.Gen.KernelIdeal.Frame
import proofs.«179620_j6270652252664_1_alg».proof.Proof.KSpec
import proofs.«179620_j6270652252664_1_alg».proof.Proof.PayloadK
import Idealize.ShloMosaic.Lib.Pipeline.Value

noncomputable section

namespace Cert.KernelIdeal.Gen

open Idealize.ShloMosaic Idealize.ShloMosaic.ValueIdx Idealize.ShloMosaic.TcCoe
open Idealize.ShloMosaic.Pipeline (Dat Cfg Window)

namespace KV

variable (V : (c : Dev nD) → (b : Ref sig .tc) → Buf (Elt Ideal) ((c : Thread nD τ).loc b))

/-- The zero offsets of a whole block, as the constant function. -/
theorem zero2 : (![0, 0] : Fin 2 → Nat) = fun _ => 0 := funext fun a => by fin_cases a <;> rfl

/-- The block indices at point t: the two node-shaped inputs and the result move with t along the rows (block t, column
    block 0); the scale and shift rows stay at block (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The result entry is a function of its four scalar arguments. -/
theorem outK_congr {h h' a a' s s' u u' : EReal} (e0 : h = h') (e1 : a = a') (e2 : s = s') (e3 : u = u') :
    Sc.outK h a s u = Sc.outK h' a' s' u' := by subst e0 e1 e2 e3; rfl

/-- What point t writes back is block t of the result array of the arrays the region was entered with: entry (r, j) of
    the body's value is the scalar result of entry (r, j) of the feature and aggregate blocks and entry (0, j) of the two
    rows; row r of block t of a node-shaped array is row 4096 t + r of the array, and the rows' one block is the row. -/
theorem flushed_eq (c : Dev nD) (t : Fin cfg1.N) :
    (dat1 (F := Ideal) V c).flushed 4 t
      = ((cfg1.win 4).blk t).view.read (Elt Ideal) (outPad (V c main_v40) (V c main_v41) (V c main_v38) (V c main_v39)) := by
  show (cfg1.win 4).cut (grid1.coords t) ((dat1 V c).after 4 t) = _
  rw [after1_4]
  unfold out1_4
  rw [View.canon_unit_zero zero2]
  simp only [View.ld_unit_zero (S := S4096x128) zero2, View.ld_unit_zero (S := S1x128) zero2]
  funext y
  obtain ⟨r, j, rfl⟩ : ∃ (r : Fin 4096) (j : Fin 128), y = ix2 r j := ⟨y 0, y 1, eq_ix2 y⟩
  obtain ⟨e00, e01, e10, e11, e20, e21, e30, e31, e40, e41⟩ := idx1 t
  show k1_pay1 (F := Ideal) (iblk1 V c 1 t) (iblk1 V c 2 t) (iblk1 V c 3 t) (iblk1 V c 0 t) (ix2 r j)
    = outPad (V c main_v40) (V c main_v41) (V c main_v38) (V c main_v39) (((cfg1.win 4).blk t).view.emb (ix2 r j))
  refine (pay1_apply _ _ _ _ r j).trans ?_
  -- entry (r, j) of block t sits at the same place of its array for the features, the aggregate and the result
  have h0 : ((cfg1.win 0).blk t).view.emb (ix2 r j) = ((cfg1.win 4).blk t).view.emb (ix2 r j) := by
    funext a; apply Fin.ext
    match a with
    | ⟨0, _⟩ => show win1_0.index t (0 : Fin 2) * 4096 + 1 * r.val = win1_4.index t (0 : Fin 2) * 4096 + 1 * r.val; omega
    | ⟨1, _⟩ => show win1_0.index t (1 : Fin 2) * 128 + 1 * j.val = win1_4.index t (1 : Fin 2) * 128 + 1 * j.val; omega
  have h1 : ((cfg1.win 1).blk t).view.emb (ix2 r j) = ((cfg1.win 4).blk t).view.emb (ix2 r j) := by
    funext a; apply Fin.ext
    match a with
    | ⟨0, _⟩ => show win1_1.index t (0 : Fin 2) * 4096 + 1 * r.val = win1_4.index t (0 : Fin 2) * 4096 + 1 * r.val; omega
    | ⟨1, _⟩ => show win1_1.index t (1 : Fin 2) * 128 + 1 * j.val = win1_4.index t (1 : Fin 2) * 128 + 1 * j.val; omega
  -- entry (0, j) of a row's one block is entry (0, column of the result entry) of the row
  have h2 : ((cfg1.win 2).blk t).view.emb (ix2 0 j) = ix2 0 (((cfg1.win 4).blk t).view.emb (ix2 r j) 1) := by
    funext a; apply Fin.ext
    match a with
    | ⟨0, _⟩ => show win1_2.index t (0 : Fin 2) * 1 + 1 * 0 = 0; omega
    | ⟨1, _⟩ => show win1_2.index t (1 : Fin 2) * 128 + 1 * j.val = win1_4.index t (1 : Fin 2) * 128 + 1 * j.val; omega
  have h3 : ((cfg1.win 3).blk t).view.emb (ix2 0 j) = ix2 0 (((cfg1.win 4).blk t).view.emb (ix2 r j) 1) := by
    funext a; apply Fin.ext
    match a with
    | ⟨0, _⟩ => show win1_3.index t (0 : Fin 2) * 1 + 1 * 0 = 0; omega
    | ⟨1, _⟩ => show win1_3.index t (1 : Fin 2) * 128 + 1 * j.val = win1_4.index t (1 : Fin 2) * 128 + 1 * j.val; omega
  exact outK_congr (congrArg (V c main_v40) h0) (congrArg (V c main_v41) h1) (congrArg (V c main_v38) h2) (congrArg (V c main_v39) h3)

/-- An index of the result array lies in block t iff, on each axis, it lies in the block's range. -/
theorem mem_blk (t : Fin cfg1.N) (i : S53248x128.Idx) :
    i ∈ ((cfg1.win 4).blk t).view.set ↔ ∀ a : Fin 2, win1_4.index t a * S4096x128.size a ≤ (i a).val
      ∧ (i a).val < win1_4.index t a * S4096x128.size a + S4096x128.size a := by
  show i ∈ ((View.whole main_v42).slice (win1_4.rect t)).set ↔ _
  rw [View.set_slice_whole, Rect.mem_set_unit]
  exact Iff.rfl

/-- Row n of the result array lies in block n / 4096: the 13 blocks of 4096 rows tile the 53248 rows. -/
theorem cover (i : S53248x128.Idx) :
    ∃ t : Fin cfg1.N, (cfg1.win 4).flush t = true ∧ i ∈ ((cfg1.win 4).blk t).view.set := by
  have hi0 : (i 0).val < 53248 := (i 0).isLt
  have hi1 : (i 1).val < 128 := (i 1).isLt
  have hN : grid1.N = 13 := N_1
  obtain ⟨t, ht⟩ : ∃ t : Fin cfg1.N, t.val = (i 0).val / 4096 :=
    ⟨⟨(i 0).val / 4096, by show _ < grid1.N; rw [hN]; omega⟩, rfl⟩
  obtain ⟨_, _, _, _, _, _, _, _, e40, e41⟩ := idx1 t
  refine ⟨t, flush1_4 t, ?_⟩
  rw [mem_blk]
  intro a
  match a with
  | ⟨0, _⟩ =>
    show win1_4.index t (0 : Fin 2) * 4096 ≤ (i 0).val ∧ (i 0).val < win1_4.index t (0 : Fin 2) * 4096 + 4096
    omega
  | ⟨1, _⟩ =>
    show win1_4.index t (1 : Fin 2) * 128 ≤ (i 1).val ∧ (i 1).val < win1_4.index t (1 : Fin 2) * 128 + 128
    omega

/-- After region 1 its result array (window 4, main_v42) holds the result array of the arrays it was entered with. -/
theorem region1_value (c : Dev nD) :
    (dat1 (F := Ideal) V c).arrAt 4 cfg1.N
      = outPad (V c main_v40) (V c main_v41) (V c main_v38) (V c main_v39) :=
  (dat1 (F := Ideal) V c).arrAt_eq_of_cover 4 (outPad (V c main_v40) (V c main_v41) (V c main_v38) (V c main_v39))
    (fun t _ => flushed_eq V c t) cover

end KV
end Cert.KernelIdeal.Gen

end
-- ==== Proof.KValue.lean ====
/-
  The kernel program's result: the contents of the last segment boundary at the result array, as the result function
  (KSpec.lean) of the launch memory's argument arrays — the two regions' values chained through the host stretches.
-/
import proofs.«179620_j6270652252664_1_alg».proof.Proof.Gen.KernelIdeal.Frame
import proofs.«179620_j6270652252664_1_alg».proof.Proof.KSpec
import proofs.«179620_j6270652252664_1_alg».proof.Proof.KHostA
import proofs.«179620_j6270652252664_1_alg».proof.Proof.KHostB
import proofs.«179620_j6270652252664_1_alg».proof.Proof.KReg0
import proofs.«179620_j6270652252664_1_alg».proof.Proof.KReg1

noncomputable section

namespace Cert.KernelIdeal.Gen

open Idealize.ShloMosaic Idealize.ShloMosaic.ValueIdx Idealize.ShloMosaic.TcCoe Idealize.SL.Sem

namespace KV

variable (m : (ℓ : Loc nD τ sig) → Buf (Elt Ideal) ℓ) (ρ : Dev nD → PrngReg)

/-- The result array at the last boundary is the program's result function of the launch memory's arguments. -/
theorem W16_v43 (c : Dev nD) : W16 (F := Ideal) m ρ c (Proc.devRef .tc main_v43)
    = out (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) := by
  -- the boundaries before and after each region are the two stage folds
  have e7 : W7 (F := Ideal) m ρ c = stageA (W0 m ρ c) := rfl
  have e14 : W14 (F := Ideal) m ρ c = stageB (W8 m ρ c) := rfl
  -- region 0's exit: the arrays a later stage reads
  have w8_arg0 : W8 (F := Ideal) m ρ c (Proc.devRef .tc main_arg0) = m ((c.tc : Thread nD τ).loc main_arg0) := by
    rw [W8_of_ne m ρ c main_arg0 (by decide), e7, stageA_arg0]
  have w8_arg7 : W8 (F := Ideal) m ρ c (Proc.devRef .tc main_arg7) = m ((c.tc : Thread nD τ).loc main_arg7) := by
    rw [W8_of_ne m ρ c main_arg7 (by decide), e7, stageA_arg7]
  have w8_arg8 : W8 (F := Ideal) m ρ c (Proc.devRef .tc main_arg8) = m ((c.tc : Thread nD τ).loc main_arg8) := by
    rw [W8_of_ne m ρ c main_arg8 (by decide), e7, stageA_arg8]
  have w8_v1 : W8 (F := Ideal) m ρ c (Proc.devRef .tc main_v1) = src1 (m ((c.tc : Thread nD τ).loc main_arg1)) := by
    rw [W8_of_ne m ρ c main_v1 (by decide), e7, stageA_v1]
  -- region 0's result: the messages of the staged inputs
  have w8_v23 : W8 (F := Ideal) m ρ c (Proc.devRef .tc main_v23)
      = msgPad (padE (rows (m ((c.tc : Thread nD τ).loc main_arg0)) (src1 (m ((c.tc : Thread nD τ).loc main_arg1)))))
          (padE (rows (m ((c.tc : Thread nD τ).loc main_arg0)) (dst1 (m ((c.tc : Thread nD τ).loc main_arg1)))))
          (padE10 (m ((c.tc : Thread nD τ).loc main_arg2))) (m ((c.tc : Thread nD τ).loc main_arg3)) (row1 (m ((c.tc : Thread nD τ).loc main_arg4)))
          (m ((c.tc : Thread nD τ).loc main_arg5)) (row1 (m ((c.tc : Thread nD τ).loc main_arg6))) := by
    refine (W8_arr m ρ c 7).trans ((region0_value (V7 m ρ) c).trans ?_)
    show msgPad (W7 m ρ c (Proc.devRef .tc main_v18)) (W7 m ρ c (Proc.devRef .tc main_v19)) (W7 m ρ c (Proc.devRef .tc main_v20))
      (W7 m ρ c (Proc.devRef .tc main_arg3)) (W7 m ρ c (Proc.devRef .tc main_v21)) (W7 m ρ c (Proc.devRef .tc main_arg5))
      (W7 m ρ c (Proc.devRef .tc main_v22)) = _
    rw [e7, stageA_v18, stageA_v19, stageA_v20, stageA_arg3, stageA_v21, stageA_arg5, stageA_v22]
  -- region 1's result: the normalization of the staged inputs
  have w15_v42 : W15 (F := Ideal) m ρ c (Proc.devRef .tc main_v42)
      = outPad (W14 m ρ c (Proc.devRef .tc main_v40)) (W14 m ρ c (Proc.devRef .tc main_v41))
          (W14 m ρ c (Proc.devRef .tc main_v38)) (W14 m ρ c (Proc.devRef .tc main_v39)) :=
    (W15_arr m ρ c 4).trans (region1_value (V14 m ρ) c)
  -- the last host operation: the leading slice
  have w16 : W16 (F := Ideal) m ρ c (Proc.devRef .tc main_v43) = outS (W15 m ρ c (Proc.devRef .tc main_v42)) := by
    show StableHlo.after hostOps2 (W15 m ρ c) (Proc.devRef .tc main_v43) = _
    after_results
    rfl
  rw [w16, w15_v42, e14, stageB_v40, stageB_v41, stageB_v38, stageB_v39]
  simp only [aggOf]
  rw [w8_arg0, w8_arg7, w8_arg8, w8_v1, w8_v23]
  rfl

end KV
end Cert.KernelIdeal.Gen

end
-- ==== Proof.ROps.lean ====
import proofs.«179620_j6270652252664_1_alg».proof.Proof.Gen.ReferenceIdeal
import Idealize.ShloMosaic.Lib.StableHlo.Run

noncomputable section

namespace Cert.ReferenceIdeal.Gen
namespace RV

open Idealize.ShloMosaic Idealize.ShloMosaic.TcCoe Idealize.SL.Sem

variable {F : FTy → Type} [FloatOps F]

/-- The edge index rows, the gathered node rows and their concatenation with the edge features. (23 operations) -/
abbrev opsGather : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_c_1 (constantI S_ 32 0#32),
    StableHlo.unary main_c_1 main_v11 (broadcastInDim S800000 ![] bcast_S_S800000 : (⟨S_, .i32⟩ : BufTy).Contents (Elt F) → (⟨S800000, .i32⟩ : BufTy).Contents (Elt F)),
    StableHlo.binary main_v3 main_v11 main_v12 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v13 (broadcastInDim S800000 ![] bcast_S_S800000 : (⟨S_, .i32⟩ : BufTy).Contents (Elt F) → (⟨S800000, .i32⟩ : BufTy).Contents (Elt F)),
    StableHlo.binary main_v3 main_v13 main_v14 (addi : (⟨S800000, .i32⟩ : BufTy).Contents (Elt F) → (⟨S800000, .i32⟩ : BufTy).Contents (Elt F) → (⟨S800000, .i32⟩ : BufTy).Contents (Elt F)),
    StableHlo.ternary main_v12 main_v14 main_v3 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v15 main_v16 (broadcastInDim S800000x1 ![0] bcast_S800000_S800000x1_0 : (⟨S800000, .i32⟩ : BufTy).Contents (Elt F) → (⟨S800000x1, .i32⟩ : BufTy).Contents (Elt F)),
    StableHlo.binary main_arg0 main_v16 main_v17 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nary ![main_v10, main_v17, main_arg2] main_v18 (fun u => concatenate S800000x266 1 [⟨S800000x128, u 0⟩, ⟨S800000x128, u 1⟩, ⟨S800000x10, u 2⟩] concatenates_S800000x128_S800000x128_S800000x10_S800000x266_d1) ]

/-- The two linear maps, the gate, the candidate (softplus, inline) and their product. (31 operations) -/
abbrev opsMessage : List (HloOp τ sig (Elt F)) :=
  [ StableHlo.binary main_v18 main_arg3 main_v19 ((fun l r => Host.dotGeneral dot_S800000x266_S266x128_S800000x128_1_0_0_1_n_n none l r) : (⟨S800000x266, .f32⟩ : BufTy).Contents (Elt F) → (⟨S266x128, .f32⟩ : BufTy).Contents (Elt F) → (⟨S800000x128, .f32⟩ : BufTy).Contents (Elt F)),
    StableHlo.unary main_arg4 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S800000x128 ![0, 1] bcast_S1x128_S800000x128_0_1 : (⟨S1x128, .f32⟩ : BufTy).Contents (Elt F) → (⟨S800000x128, .f32⟩ : BufTy).Contents (Elt F)),
    StableHlo.binary main_v19 main_v21 main_v22 (addf : (⟨S800000x128, .f32⟩ : BufTy).Contents (Elt F) → (⟨S800000x128, .f32⟩ : BufTy).Contents (Elt F) → (⟨S800000x128, .f32⟩ : BufTy).Contents (Elt F)),
    StableHlo.unary main_v22 main_v23 (Host.negf : (⟨S800000x128, .f32⟩ : BufTy).Contents (Elt F) → (⟨S800000x128, .f32⟩ : BufTy).Contents (Elt F)),
    StableHlo.unary main_v23 main_v24 (Host.exp : (⟨S800000x128, .f32⟩ : BufTy).Contents (Elt F) → (⟨S800000x128, .f32⟩ : BufTy).Contents (Elt F)),
    StableHlo.nullary main_cst (constant S_ .f32 0x3F800000#32),
    StableHlo.unary main_cst main_v25 (broadcastInDim S800000x128 ![] bcast_S_S800000x128 : (⟨S_, .f32⟩ : BufTy).Contents (Elt F) → (⟨S800000x128, .f32⟩ : BufTy).Contents (Elt F)),
    StableHlo.binary main_v25 main_v24 main_v26 (addf : (⟨S800000x128, .f32⟩ : BufTy).Contents (Elt F) → (⟨S800000x128, .f32⟩ : BufTy).Contents (Elt F) → (⟨S800000x128, .f32⟩ : BufTy).Contents (Elt F)),
    StableHlo.nullary main_cst_3 (constant S_ .f32 0x3F800000#32),
    StableHlo.unary main_cst_3 main_v27 (broadcastInDim S800000x128 ![] bcast_S_S800000x128 : (⟨S_, .f32⟩ : BufTy).Contents (Elt F) → (⟨S800000x128, .f32⟩ : BufTy).Contents (Elt F)),
    StableHlo.binary main_v27 main_v26 main_v28 (Host.divf : (⟨S800000x128, .f32⟩ : BufTy).Contents (Elt F) → (⟨S800000x128, .f32⟩ : BufTy).Contents (Elt F) → (⟨S800000x128, .f32⟩ : BufTy).Contents (Elt F)),
    StableHlo.binary main_v18 main_arg5 main_v29 ((fun l r => Host.dotGeneral dot_S800000x266_S266x128_S800000x128_1_0_0_1_n_n none l r) : (⟨S800000x266, .f32⟩ : BufTy).Contents (Elt F) → (⟨S266x128, .f32⟩ : BufTy).Contents (Elt F) → (⟨S800000x128, .f32⟩ : BufTy).Contents (Elt F)),
    StableHlo.unary main_arg6 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S800000x128 ![0, 1] bcast_S1x128_S800000x128_0_1 : (⟨S1x128, .f32⟩ : BufTy).Contents (Elt F) → (⟨S800000x128, .f32⟩ : BufTy).Contents (Elt F)),
    StableHlo.binary main_v29 main_v31 main_v32 (addf : (⟨S800000x128, .f32⟩ : BufTy).Contents (Elt F) → (⟨S800000x128, .f32⟩ : BufTy).Contents (Elt F) → (⟨S800000x128, .f32⟩ : BufTy).Contents (Elt F)),
    StableHlo.TRef.nullary main_call0.cst (constant S_ .f32 0x00000000#32),
    StableHlo.TRef.unary main_call0.cst main_call0.v0 (broadcastInDim S800000x128 ![] bcast_S_S800000x128),
    StableHlo.TRef.binary (.of main_v32 : StableHlo.TRef sig ⟨S800000x128, .f32⟩) main_call0.v0 main_call0.v1 maximumf,
    StableHlo.TRef.unary main_call0.cst main_call0.v2 (broadcastInDim S800000x128 ![] bcast_S_S800000x128),
    StableHlo.TRef.binary (.of main_v32 : StableHlo.TRef sig ⟨S800000x128, .f32⟩) main_call0.v2 main_call0.v3 subf,
    StableHlo.TRef.binary main_call0.v3 main_call0.v3 main_call0.v4 (cmpf .une),
    StableHlo.TRef.unary main_call0.cst main_call0.v5 (broadcastInDim S800000x128 ![] bcast_S_S800000x128),
    StableHlo.TRef.binary (.of main_v32 : StableHlo.TRef sig ⟨S800000x128, .f32⟩) main_call0.v5 main_call0.v6 addf,
    StableHlo.TRef.unary main_call0.v3 main_call0.v7 Host.absf,
    StableHlo.TRef.unary main_call0.v7 main_call0.v8 Host.negf,
    StableHlo.TRef.unary main_call0.v8 main_call0.v9 Host.exp,
    StableHlo.TRef.unary main_call0.v9 main_call0.v10 Host.log1p,
    StableHlo.TRef.binary main_call0.v1 main_call0.v10 main_call0.v11 addf,
    StableHlo.TRef.ternary main_call0.v4 main_call0.v6 main_call0.v11 main_call0.v12 select,
    StableHlo.binary main_v28 main_v33 main_v34 (mulf : (⟨S800000x128, .f32⟩ : BufTy).Contents (Elt F) → (⟨S800000x128, .f32⟩ : BufTy).Contents (Elt F) → (⟨S800000x128, .f32⟩ : BufTy).Contents (Elt F)) ]

/-- The scatter-add into nodes, the column means and the column variances (jnp.var, inline). (32 operations) -/
abbrev opsMoments : List (HloOp τ sig (Elt F)) :=
  [ StableHlo.nullary main_cst_4 (constant S_ .f32 0x00000000#32),
    StableHlo.unary main_cst_4 main_v35 (broadcastInDim S50000x128 ![] bcast_S_S50000x128 : (⟨S_, .f32⟩ : BufTy).Contents (Elt F) → (⟨S50000x128, .f32⟩ : BufTy).Contents (Elt F)),
    StableHlo.unary main_v1 main_v36 (broadcastInDim S800000x1 ![0] bcast_S800000_S800000x1_0 : (⟨S800000, .i32⟩ : BufTy).Contents (Elt F) → (⟨S800000x1, .i32⟩ : BufTy).Contents (Elt F)),
    StableHlo.ternary main_v35 main_v36 main_v34 main_v37 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_5 (constant S_ .f32 0x00000000#32),
    StableHlo.binary main_v37 main_cst_5 main_v38 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_6 (constant S_ .f32 0x47435000#32),
    StableHlo.unary main_cst_6 main_v39 (broadcastInDim S128 ![] bcast_S_S128 : (⟨S_, .f32⟩ : BufTy).Contents (Elt F) → (⟨S128, .f32⟩ : BufTy).Contents (Elt F)),
    StableHlo.binary main_v38 main_v39 main_v40 (Host.divf : (⟨S128, .f32⟩ : BufTy).Contents (Elt F) → (⟨S128, .f32⟩ : BufTy).Contents (Elt F) → (⟨S128, .f32⟩ : BufTy).Contents (Elt F)),
    StableHlo.nullary main_c_7 (constantI S_ 32 0#32),
    StableHlo.TRef.nullary main_call1.cst (constant S_ .f32 0x00000000#32),
    StableHlo.TRef.binary (.of main_v37 : StableHlo.TRef sig ⟨S50000x128, .f32⟩) main_call1.cst main_call1.v0 (fun x v => Host.reduceAdd x v reducesTo_S50000x128_S128_d0 h_S_),
    StableHlo.TRef.unary main_call1.v0 main_call1.v1 (broadcastInDim S1x128 ![1] bcast_S128_S1x128_1),
    StableHlo.TRef.nullary main_call1.cst_0 (constant S_ .f32 0x47435000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S50000x128 ![0, 1] bcast_S1x128_S50000x128_0_1),
    StableHlo.TRef.binary (.of main_v37 : StableHlo.TRef sig ⟨S50000x128, .f32⟩) main_call1.v4 main_call1.v5 subf,
    StableHlo.TRef.binary main_call1.v5 main_call1.v5 main_call1.v6 mulf,
    StableHlo.TRef.unary (.of main_c_7 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary (main_call1.cst_4 : StableHlo.TRef sig ⟨S_, .f32⟩) main_call1.call0.v0 id,
    StableHlo.TRef.unary main_call1.call0.v0 main_call1.call0.v1 (broadcastInDim S128 ![] bcast_S_S128),
    StableHlo.TRef.ternary (main_call1.v12 : StableHlo.TRef sig ⟨S_, .i1⟩) (main_call1.v11 : StableHlo.TRef sig ⟨S128, .f32⟩) main_call1.call0.v1 main_call1.call0.v2 (fun p a b => select (broadcastInDim S128 ![] bcast_S_S128 p) a b) ]

/-- The normalization, the residual and the final softplus (inline). (31 operations) -/
abbrev opsNormalize : List (HloOp τ sig (Elt F)) :=
  [ StableHlo.unary main_v40 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S50000x128 ![0, 1] bcast_S1x128_S50000x128_0_1 : (⟨S1x128, .f32⟩ : BufTy).Contents (Elt F) → (⟨S50000x128, .f32⟩ : BufTy).Contents (Elt F)),
    StableHlo.binary main_v37 main_v43 main_v44 (subf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x3727C5AC#32),
    StableHlo.unary main_cst_8 main_v45 (broadcastInDim S128 ![] bcast_S_S128 : (⟨S_, .f32⟩ : BufTy).Contents (Elt F) → (⟨S128, .f32⟩ : BufTy).Contents (Elt F)),
    StableHlo.binary main_v41 main_v45 main_v46 (addf : (⟨S128, .f32⟩ : BufTy).Contents (Elt F) → (⟨S128, .f32⟩ : BufTy).Contents (Elt F) → (⟨S128, .f32⟩ : BufTy).Contents (Elt F)),
    StableHlo.unary main_v46 main_v47 (Host.rsqrt : (⟨S128, .f32⟩ : BufTy).Contents (Elt F) → (⟨S128, .f32⟩ : BufTy).Contents (Elt F)),
    StableHlo.unary main_v47 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S50000x128 ![0, 1] bcast_S1x128_S50000x128_0_1 : (⟨S1x128, .f32⟩ : BufTy).Contents (Elt F) → (⟨S50000x128, .f32⟩ : BufTy).Contents (Elt F)),
    StableHlo.binary main_v44 main_v49 main_v50 (mulf : (⟨S50000x128, .f32⟩ : BufTy).Contents (Elt F) → (⟨S50000x128, .f32⟩ : BufTy).Contents (Elt F) → (⟨S50000x128, .f32⟩ : BufTy).Contents (Elt F)),
    StableHlo.unary main_arg7 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S50000x128 ![0, 1] bcast_S1x128_S50000x128_0_1 : (⟨S1x128, .f32⟩ : BufTy).Contents (Elt F) → (⟨S50000x128, .f32⟩ : BufTy).Contents (Elt F)),
    StableHlo.binary main_v50 main_v52 main_v53 (mulf : (⟨S50000x128, .f32⟩ : BufTy).Contents (Elt F) → (⟨S50000x128, .f32⟩ : BufTy).Contents (Elt F) → (⟨S50000x128, .f32⟩ : BufTy).Contents (Elt F)),
    StableHlo.unary main_arg8 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S50000x128 ![0, 1] bcast_S1x128_S50000x128_0_1 : (⟨S1x128, .f32⟩ : BufTy).Contents (Elt F) → (⟨S50000x128, .f32⟩ : BufTy).Contents (Elt F)),
    StableHlo.binary main_v53 main_v55 main_v56 (addf : (⟨S50000x128, .f32⟩ : BufTy).Contents (Elt F) → (⟨S50000x128, .f32⟩ : BufTy).Contents (Elt F) → (⟨S50000x128, .f32⟩ : BufTy).Contents (Elt F)),
    StableHlo.binary main_arg0 main_v56 main_v57 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v57 : StableHlo.TRef sig ⟨S50000x128, .f32⟩) main_call2.v0 main_call2.v1 maximumf,
    StableHlo.TRef.unary main_call2.cst main_call2.v2 (broadcastInDim S50000x128 ![] bcast_S_S50000x128),
    StableHlo.TRef.binary (.of main_v57 : StableHlo.TRef sig ⟨S50000x128, .f32⟩) main_call2.v2 main_call2.v3 subf,
    StableHlo.TRef.binary main_call2.v3 main_call2.v3 main_call2.v4 (cmpf .une),
    StableHlo.TRef.unary main_call2.cst main_call2.v5 (broadcastInDim S50000x128 ![] bcast_S_S50000x128),
    StableHlo.TRef.binary (.of main_v57 : StableHlo.TRef sig ⟨S50000x128, .f32⟩) main_call2.v5 main_call2.v6 addf,
    StableHlo.TRef.unary main_call2.v3 main_call2.v7 Host.absf,
    StableHlo.TRef.unary main_call2.v7 main_call2.v8 Host.negf,
    StableHlo.TRef.unary main_call2.v8 main_call2.v9 Host.exp,
    StableHlo.TRef.unary main_call2.v9 main_call2.v10 Host.log1p,
    StableHlo.TRef.binary main_call2.v1 main_call2.v10 main_call2.v11 addf,
    StableHlo.TRef.ternary main_call2.v4 main_call2.v6 main_call2.v11 main_call2.v12 select ]

/-- @main's 117 operations, in order. -/
abbrev ops : List (HloOp τ sig (Elt F)) := opsGather ++ opsMessage ++ opsMoments ++ opsNormalize

end RV
end Cert.ReferenceIdeal.Gen

end
-- ==== Proof.RRun.lean ====
/-
  The reference's run: @main is the sequence of its 117 host operations (ROps.lean), so every weakly fair execution
  terminates with every buffer at the fold of those operations over the launch memory, the arguments unchanged.
-/
import proofs.«179620_j6270652252664_1_alg».proof.Proof.ROps
import Idealize.ShloMosaic.Lib.StableHlo.Run

noncomputable section

namespace Cert.ReferenceIdeal.Gen

open Idealize.ShloMosaic Idealize.ShloMosaic.TcCoe Idealize.SL.Sem Idealize.ShloMosaic.StableHlo

namespace RV

variable {F : FTy → Type} [FloatOps F]

/-! ### A straight line read one statement at a time

A `do` block of host operations is `seq` of their list: `hlo … >>= fun _ => p` is `seq (op :: l)` when `p` is `seq l`.
Inside the body of an outlined function, which stands to the left of the statements after its call, the same holds
after the sequencing is reassociated; the body's closing `pure` is the unit of sequencing. -/

section Peel

variable {nD' : Nat} {τ' : Topo} {sig' : RefSig} {Val' : EltTy → Type} {Λ' : Labels}

/-- One operation, then a line: the line with the operation in front. -/
theorem seq_step (op : HloOp τ' sig' Val') {l : List (HloOp τ' sig' Val')}
    {p : Prog (TpuEff nD' τ' sig' Val' Λ' .tc) PUnit} (h : p = seq l) :
    ((hlo rfl op fun _ => .ret (⟨⟩ : PUnit)) >>= fun _ => p) = seq (op :: l) := by
  subst h; rfl

/-- One operation alone is the line of it. -/
theorem seq_last (op : HloOp τ' sig' Val') :
    (hlo rfl op fun _ => .ret (⟨⟩ : PUnit) : Prog (TpuEff nD' τ' sig' Val' Λ' .tc) PUnit) = seq [op] := rfl

/-- `seq_step` for an operation of a body `q` that is followed by `p`. -/
theorem seq_step_in (op : HloOp τ' sig' Val') {l : List (HloOp τ' sig' Val')}
    {q p : Prog (TpuEff nD' τ' sig' Val' Λ' .tc) PUnit} (h : (q >>= fun _ => p) = seq l) :
    (((hlo rfl op fun _ => .ret (⟨⟩ : PUnit)) >>= fun _ => q) >>= fun _ => p) = seq (op :: l) := by
  rw [bind_assoc]; exact seq_step op h

/-- A body's return, followed by `p`, is `p`. -/
theorem seq_pure_bind {l : List (HloOp τ' sig' Val')}
    {p : Prog (TpuEff nD' τ' sig' Val' Λ' .tc) PUnit} (h : p = seq l) :
    ((pure (⟨⟩ : PUnit) : Prog (TpuEff nD' τ' sig' Val' Λ' .tc) PUnit) >>= fun _ => p) = seq l := by
  rw [pure_bind]; exact h

/-- A call `b` inside a body: what follows the call in the body, then what follows the body. -/
theorem seq_assoc_in {l : List (HloOp τ' sig' Val')}
    {b q p : Prog (TpuEff nD' τ' sig' Val' Λ' .tc) PUnit} (h : (b >>= fun _ => (q >>= fun _ => p)) = seq l) :
    ((b >>= fun _ => q) >>= fun _ => p) = seq l := by
  rw [bind_assoc]; exact h

end Peel

/-! ### @main's two windows -/

/-- @main's statements 1 … 60 are the first 94 operations (the bodies of @softplus, @_var and, in it, @_where inline). -/
theorem part0_eq (c : Dev nD) :
    main_part0 (F := F) c = seq (opsGather ++ opsMessage ++ opsMoments ++ opsNormalize.take 8) := by
  iterate 39 refine seq_step _ ?_
  iterate 14 refine seq_step_in _ ?_
  refine seq_pure_bind ?_
  iterate 11 refine seq_step _ ?_
  iterate 19 refine seq_step_in _ ?_
  refine seq_assoc_in ?_
  iterate 3 refine seq_step_in _ ?_
  refine seq_pure_bind ?_
  refine seq_pure_bind ?_
  iterate 7 refine seq_step _ ?_
  exact seq_last _

/-- @main's statements 61 … 71 are the last 23 operations (the body of @softplus_0 inline). -/
theorem part1_eq (c : Dev nD) : main_part1 (F := F) c = seq (opsNormalize.drop 8) := by
  iterate 9 refine seq_step _ ?_
  iterate 14 refine seq_step_in _ ?_
  refine seq_pure_bind ?_
  rfl

/-- @main is the sequence of its operations (the outlined functions' bodies inline). -/
theorem main_eq (c : Dev nD) : main (F := F) c = seq (ops (F := F)) := by
  have e : (ops : List (HloOp τ sig (Elt F)))
      = (opsGather ++ opsMessage ++ opsMoments ++ opsNormalize.take 8) ++ opsNormalize.drop 8 := by
    rw [List.append_assoc _ (List.take 8 _), List.take_append_drop]
  rw [e, seq_append, ← part0_eq c, ← part1_eq c]
  rfl

theorem gather_sub : (opsGather : List (HloOp τ sig (Elt F))).Forall fun op => op.bufs ⊆ tcRefs τ sig :=
  ⟨unary_bufs_sub .., reshape_bufs_sub .., unary_bufs_sub .., reshape_bufs_sub .., nullary_bufs_sub ..,
    unary_bufs_sub .., binary_bufs_sub .., nullary_bufs_sub .., unary_bufs_sub .., binary_bufs_sub ..,
    ternary_bufs_sub .., unary_bufs_sub .., binary_bufs_sub .., nullary_bufs_sub .., unary_bufs_sub ..,
    binary_bufs_sub .., nullary_bufs_sub .., unary_bufs_sub .., binary_bufs_sub .., ternary_bufs_sub ..,
    unary_bufs_sub .., binary_bufs_sub .., nary_bufs_sub ..⟩

theorem gather_fresh : (opsGather : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

theorem message_sub : (opsMessage : List (HloOp τ sig (Elt F))).Forall fun op => op.bufs ⊆ tcRefs τ sig :=
  ⟨binary_bufs_sub .., unary_bufs_sub .., unary_bufs_sub .., binary_bufs_sub .., unary_bufs_sub ..,
    unary_bufs_sub .., nullary_bufs_sub .., unary_bufs_sub .., binary_bufs_sub .., nullary_bufs_sub ..,
    unary_bufs_sub .., binary_bufs_sub .., binary_bufs_sub .., unary_bufs_sub .., unary_bufs_sub ..,
    binary_bufs_sub .., nullary_bufs_sub .., unary_bufs_sub .., binary_bufs_sub .., unary_bufs_sub ..,
    binary_bufs_sub .., binary_bufs_sub .., unary_bufs_sub .., binary_bufs_sub .., unary_bufs_sub ..,
    unary_bufs_sub .., unary_bufs_sub .., unary_bufs_sub .., binary_bufs_sub .., ternary_bufs_sub ..,
    binary_bufs_sub ..⟩

theorem message_fresh : (opsMessage : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl⟩

theorem moments_sub : (opsMoments : List (HloOp τ sig (Elt F))).Forall fun op => op.bufs ⊆ tcRefs τ sig :=
  ⟨nullary_bufs_sub .., unary_bufs_sub .., unary_bufs_sub .., ternary_bufs_sub .., nullary_bufs_sub ..,
    binary_bufs_sub .., nullary_bufs_sub .., unary_bufs_sub .., binary_bufs_sub .., nullary_bufs_sub ..,
    nullary_bufs_sub .., binary_bufs_sub .., unary_bufs_sub .., nullary_bufs_sub .., unary_bufs_sub ..,
    binary_bufs_sub .., unary_bufs_sub .., binary_bufs_sub .., binary_bufs_sub .., unary_bufs_sub ..,
    nullary_bufs_sub .., binary_bufs_sub .., nullary_bufs_sub .., binary_bufs_sub .., unary_bufs_sub ..,
    binary_bufs_sub .., nullary_bufs_sub .., binary_bufs_sub .., nullary_bufs_sub .., unary_bufs_sub ..,
    unary_bufs_sub .., ternary_bufs_sub ..⟩

theorem moments_fresh : (opsMoments : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

theorem normalize_sub : (opsNormalize : List (HloOp τ sig (Elt F))).Forall fun op => op.bufs ⊆ tcRefs τ sig :=
  ⟨unary_bufs_sub .., unary_bufs_sub .., binary_bufs_sub .., nullary_bufs_sub .., unary_bufs_sub ..,
    binary_bufs_sub .., unary_bufs_sub .., unary_bufs_sub .., unary_bufs_sub .., binary_bufs_sub ..,
    unary_bufs_sub .., unary_bufs_sub .., binary_bufs_sub .., unary_bufs_sub .., unary_bufs_sub ..,
    binary_bufs_sub .., binary_bufs_sub .., nullary_bufs_sub .., unary_bufs_sub .., binary_bufs_sub ..,
    unary_bufs_sub .., binary_bufs_sub .., binary_bufs_sub .., unary_bufs_sub .., binary_bufs_sub ..,
    unary_bufs_sub .., unary_bufs_sub .., unary_bufs_sub .., unary_bufs_sub .., binary_bufs_sub ..,
    ternary_bufs_sub ..⟩

theorem normalize_fresh : (opsNormalize : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl⟩

/-- Every operation touches TensorCore references only. -/
theorem ops_sub : (ops : List (HloOp τ sig (Elt F))).Forall fun op => op.bufs ⊆ tcRefs τ sig :=
  List.forall_append.mpr ⟨List.forall_append.mpr ⟨List.forall_append.mpr ⟨gather_sub, message_sub⟩, moments_sub⟩, normalize_sub⟩

/-- Every operation determines its results: none allocates. -/
theorem ops_fresh : ∀ op ∈ (ops : List (HloOp τ sig (Elt F))), op.fresh = ∅ :=
  List.forall_iff_forall_mem.mp
    (List.forall_append.mpr ⟨List.forall_append.mpr ⟨List.forall_append.mpr ⟨gather_fresh, message_fresh⟩, moments_fresh⟩, normalize_fresh⟩)

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- The buffers after the whole of @main, from the launch memory of core c. -/
abbrev fin (m : (ℓ : Loc nD τ sig) → Buf (Elt F) ℓ) (c : Dev nD) : Valuation τ sig (Elt F) :=
  StableHlo.after (ops (F := F)) (fun b => m ((c : Dev nD), b))

/-- From any memory with zero counters every weakly fair execution of @main terminates, nothing faulting, every
    TensorCore buffer at the fold of the operations over the launch memory. -/
theorem run_all (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = fin m c (Proc.devRef .tc b) :=
  run_seq scopedRefs_eq scopedSems_eq defs main (fun _ => ops) main_eq (fun _ => ops_sub) m ρ (fun _ => ops_fresh)

end RV
end Cert.ReferenceIdeal.Gen

end
-- ==== Proof.RSpec.lean ====
/-
  What the reference computes, stage by stage, as functions of its argument arrays (at the ideal instance),
  in the operations' own spelling.
-/
import proofs.«179620_j6270652252664_1_alg».proof.Proof.Gen.ReferenceIdeal
import proofs.«179620_j6270652252664_1_alg».proof.Proof.Scalar
import Idealize.ShloMosaic.Lib.ValueIdx

noncomputable section

namespace Cert.ReferenceIdeal.Gen
namespace RV

open Idealize.ShloMosaic Idealize.ShloMosaic.ValueIdx

/-- Row 0 of the edge index: each edge's source node. -/
def src1 (ei : IVec S2x800000 32) : IVec S800000 32 :=
  shapeCast S800000 (extractStridedSlice S1x800000 ![0, 0] ei slices_S2x800000_S1x800000_0_0) shapeCasts_S1x800000_S800000
/-- Row 1 of the edge index: each edge's destination node. -/
def dst1 (ei : IVec S2x800000 32) : IVec S800000 32 :=
  shapeCast S800000 (extractStridedSlice S1x800000 ![1, 0] ei slices_S2x800000_S1x800000_1_0) shapeCasts_S1x800000_S800000
/-- A negative node index counts from the end. -/
def wrap (s : IVec S800000 32) : IVec S800000 32 :=
  select (cmpi .slt s (broadcastInDim S800000 ![] bcast_S_S800000 (constantI S_ 32 0#32)))
    (addi s (broadcastInDim S800000 ![] bcast_S_S800000 (constantI S_ 32 50000#32))) s
/-- The node-feature rows an index vector names. -/
def rows (h : FVec Ideal S50000x128 .f32) (s : IVec S800000 32) : FVec Ideal S800000x128 .f32 :=
  Host.gather gather_S50000x128_S800000x1_S800000x128_1_0_n_n_0_1_1128 h (broadcastInDim S800000x1 ![0] bcast_S800000_S800000x1_0 (wrap s))
/-- The concatenated edge rows: source features, destination features, edge features. -/
def z (h : FVec Ideal S50000x128 .f32) (ei : IVec S2x800000 32) (ef : FVec Ideal S800000x10 .f32) : FVec Ideal S800000x266 .f32 :=
  concatenate S800000x266 1 [⟨S800000x128, rows h (src1 ei)⟩, ⟨S800000x128, rows h (dst1 ei)⟩, ⟨S800000x10, ef⟩]
    concatenates_S800000x128_S800000x128_S800000x10_S800000x266_d1
/-- A vector of 128 repeated down 800000 rows. -/
def bcE (b : FVec Ideal S128 .f32) : FVec Ideal S800000x128 .f32 :=
  broadcastInDim S800000x128 ![0, 1] bcast_S1x128_S800000x128_0_1 (broadcastInDim S1x128 ![1] bcast_S128_S1x128_1 b)
/-- Z · W + b. -/
def logits (Z : FVec Ideal S800000x266 .f32) (w : FVec Ideal S266x128 .f32) (b : FVec Ideal S128 .f32) : FVec Ideal S800000x128 .f32 :=
  addf (Host.dotGeneral dot_S800000x266_S266x128_S800000x128_1_0_0_1_n_n none Z w) (bcE b)
/-- 1 / (1 + e^(-x)), as jax expands the logistic. -/
def gate (x : FVec Ideal S800000x128 .f32) : FVec Ideal S800000x128 .f32 :=
  Host.divf (broadcastInDim S800000x128 ![] bcast_S_S800000x128 (constant S_ .f32 0x3F800000#32))
    (addf (broadcastInDim S800000x128 ![] bcast_S_S800000x128 (constant S_ .f32 0x3F800000#32)) (Host.exp (Host.negf x)))
/-- jax.nn.softplus on the edge-shaped array: logaddexp(x, 0) with its NaN guard. -/
def spE (x : FVec Ideal S800000x128 .f32) : FVec Ideal S800000x128 .f32 :=
  select (cmpf .une (subf x (broadcastInDim S800000x128 ![] bcast_S_S800000x128 (constant S_ .f32 0x00000000#32)))
                    (subf x (broadcastInDim S800000x128 ![] bcast_S_S800000x128 (constant S_ .f32 0x00000000#32))))
    (addf x (broadcastInDim S800000x128 ![] bcast_S_S800000x128 (constant S_ .f32 0x00000000#32)))
    (addf (maximumf x (broadcastInDim S800000x128 ![] bcast_S_S800000x128 (constant S_ .f32 0x00000000#32)))
      (Host.log1p (Host.exp (Host.negf (Host.absf (subf x (broadcastInDim S800000x128 ![] bcast_S_S800000x128 (constant S_ .f32 0x00000000#32))))))))
/-- The messages. -/
def msg (Z : FVec Ideal S800000x266 .f32) (gw : FVec Ideal S266x128 .f32) (gb : FVec Ideal S128 .f32)
    (cw : FVec Ideal S266x128 .f32) (cb : FVec Ideal S128 .f32) : FVec Ideal S800000x128 .f32 :=
  mulf (gate (logits Z gw gb)) (spE (logits Z cw cb))
/-- Each node's sum of the messages of the edges that start at it. -/
def agg (s : IVec S800000 32) (mm : FVec Ideal S800000x128 .f32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 s) mm
/-- Column sums over the nodes. -/
def colsum (a : FVec Ideal S50000x128 .f32) : FVec Ideal S128 .f32 :=
  Host.reduceAdd a (constant S_ .f32 0x00000000#32) reducesTo_S50000x128_S128_d0 h_S_
/-- Column means. -/
def mean (a : FVec Ideal S50000x128 .f32) : FVec Ideal S128 .f32 :=
  Host.divf (colsum a) (broadcastInDim S128 ![] bcast_S_S128 (constant S_ .f32 0x47435000#32))
/-- The node count minus the degrees-of-freedom correction 0, as jnp.var computes it. -/
def nrm : FVec Ideal S_ .f32 := subf (constant S_ .f32 0x47435000#32) (sitofp .f32 (constantI S_ 32 0#32))
/-- Deviations from the column mean, as jnp.var computes them. -/
def dev (a : FVec Ideal S50000x128 .f32) : FVec Ideal S50000x128 .f32 :=
  subf a (broadcastInDim S50000x128 ![0, 1] bcast_S1x128_S50000x128_0_1
    (Host.divf (broadcastInDim S1x128 ![1] bcast_S128_S1x128_1 (colsum a)) (broadcastInDim S1x128 ![] bcast_S_S1x128 (constant S_ .f32 0x47435000#32))))
/-- Column variances (biased), with jnp.var's guard on the normalizer. -/
def var (a : FVec Ideal S50000x128 .f32) : FVec Ideal S128 .f32 :=
  select (broadcastInDim S128 ![] bcast_S_S128 (cmpf .ogt nrm (constant S_ .f32 0x00000000#32)))
    (Host.divf (Host.reduceAdd (mulf (dev a) (dev a)) (constant S_ .f32 0x00000000#32) reducesTo_S50000x128_S128_d0 h_S_) (broadcastInDim S128 ![] bcast_S_S128 nrm))
    (broadcastInDim S128 ![] bcast_S_S128 (id (constant S_ .f32 0x7FC00000#32)))
/-- 1 / sqrt(variance + epsilon). -/
def rstd (v : FVec Ideal S128 .f32) : FVec Ideal S128 .f32 :=
  Host.rsqrt (addf v (broadcastInDim S128 ![] bcast_S_S128 (constant S_ .f32 0x3727C5AC#32)))
/-- A vector of 128 repeated down 50000 rows. -/
def bcN (b : FVec Ideal S128 .f32) : FVec Ideal S50000x128 .f32 :=
  broadcastInDim S50000x128 ![0, 1] bcast_S1x128_S50000x128_0_1 (broadcastInDim S1x128 ![1] bcast_S128_S1x128_1 b)
/-- jax.nn.softplus on the node-shaped array. -/
def spN (x : FVec Ideal S50000x128 .f32) : FVec Ideal S50000x128 .f32 :=
  select (cmpf .une (subf x (broadcastInDim S50000x128 ![] bcast_S_S50000x128 (constant S_ .f32 0x00000000#32)))
                    (subf x (broadcastInDim S50000x128 ![] bcast_S_S50000x128 (constant S_ .f32 0x00000000#32))))
    (addf x (broadcastInDim S50000x128 ![] bcast_S_S50000x128 (constant S_ .f32 0x00000000#32)))
    (addf (maximumf x (broadcastInDim S50000x128 ![] bcast_S_S50000x128 (constant S_ .f32 0x00000000#32)))
      (Host.log1p (Host.exp (Host.negf (Host.absf (subf x (broadcastInDim S50000x128 ![] bcast_S_S50000x128 (constant S_ .f32 0x00000000#32))))))))
/-- The result from the aggregate: batch normalization, residual, softplus. -/
def outOf (h a : FVec Ideal S50000x128 .f32) (γ β : FVec Ideal S128 .f32) : FVec Ideal S50000x128 .f32 :=
  spN (addf h (addf (mulf (mulf (subf a (bcN (mean a))) (bcN (rstd (var a)))) (bcN γ)) (bcN β)))
/-- The aggregate of the whole program. -/
def aggAll (h : FVec Ideal S50000x128 .f32) (ei : IVec S2x800000 32) (ef : FVec Ideal S800000x10 .f32) (gw : FVec Ideal S266x128 .f32)
    (gb : FVec Ideal S128 .f32) (cw : FVec Ideal S266x128 .f32) (cb : FVec Ideal S128 .f32) : FVec Ideal S50000x128 .f32 :=
  agg (src1 ei) (msg (z h ei ef) gw gb cw cb)
/-- The reference's result. -/
def out (h : FVec Ideal S50000x128 .f32) (ei : IVec S2x800000 32) (ef : FVec Ideal S800000x10 .f32) (gw : FVec Ideal S266x128 .f32)
    (gb : FVec Ideal S128 .f32) (cw : FVec Ideal S266x128 .f32) (cb : FVec Ideal S128 .f32) (γ β : FVec Ideal S128 .f32) : FVec Ideal S50000x128 .f32 :=
  outOf h (aggAll h ei ef gw gb cw cb) γ β

end RV
end Cert.ReferenceIdeal.Gen

end
-- ==== Proof.RGather.lean ====
/-
  The reference's first stretch of host operations (the edge index rows, the two gathers, the concatenation) read at the
  buffers the later stretches take, from any contents W of the buffers.
-/
import proofs.«179620_j6270652252664_1_alg».proof.Proof.ROps
import proofs.«179620_j6270652252664_1_alg».proof.Proof.RSpec
import Idealize.ShloMosaic.Lib.StableHlo.Run

noncomputable section

namespace Cert.ReferenceIdeal.Gen

open Idealize.ShloMosaic Idealize.ShloMosaic.ValueIdx Idealize.ShloMosaic.TcCoe Idealize.SL.Sem

namespace RV

variable (W : Valuation τ sig (Elt Ideal))

/-! ### Stretch 1: the gathers and the concatenation -/
theorem gather_v18 : StableHlo.after (opsGather (F := Ideal)) W (Proc.devRef .tc main_v18)
    = z (W (Proc.devRef .tc main_arg0)) (W (Proc.devRef .tc main_arg1)) (W (Proc.devRef .tc main_arg2)) := by
  show StableHlo.after (opsGather (F := Ideal)) W (Proc.devRef .tc main_v18) = _
  after_results
  rfl
theorem gather_v1 : StableHlo.after (opsGather (F := Ideal)) W (Proc.devRef .tc main_v1) = src1 (W (Proc.devRef .tc main_arg1)) := by
  show StableHlo.after (opsGather (F := Ideal)) W (Proc.devRef .tc main_v1) = _
  after_results
  rfl
/-- An argument array is written by no operation of the stretch (k = 0, 3, 4, 5, 6, 7, 8 are the ones read later). -/
theorem gather_arg0 : StableHlo.after (opsGather (F := Ideal)) W (Proc.devRef .tc main_arg0) = W (Proc.devRef .tc main_arg0) := by
  after_results
theorem gather_arg3 : StableHlo.after (opsGather (F := Ideal)) W (Proc.devRef .tc main_arg3) = W (Proc.devRef .tc main_arg3) := by
  after_results
theorem gather_arg4 : StableHlo.after (opsGather (F := Ideal)) W (Proc.devRef .tc main_arg4) = W (Proc.devRef .tc main_arg4) := by
  after_results
theorem gather_arg5 : StableHlo.after (opsGather (F := Ideal)) W (Proc.devRef .tc main_arg5) = W (Proc.devRef .tc main_arg5) := by
  after_results
theorem gather_arg6 : StableHlo.after (opsGather (F := Ideal)) W (Proc.devRef .tc main_arg6) = W (Proc.devRef .tc main_arg6) := by
  after_results
theorem gather_arg7 : StableHlo.after (opsGather (F := Ideal)) W (Proc.devRef .tc main_arg7) = W (Proc.devRef .tc main_arg7) := by
  after_results
theorem gather_arg8 : StableHlo.after (opsGather (F := Ideal)) W (Proc.devRef .tc main_arg8) = W (Proc.devRef .tc main_arg8) := by
  after_results
end RV
end Cert.ReferenceIdeal.Gen

end
-- ==== Proof.RMessage.lean ====
/-
  The reference's second stretch of host operations (the two linear maps, the gate, the softplus, the product) read at the
  message buffer, from any contents W of the buffers; the buffers a later stretch reads are as they were.
-/
import proofs.«179620_j6270652252664_1_alg».proof.Proof.ROps
import proofs.«179620_j6270652252664_1_alg».proof.Proof.RSpec
import Idealize.ShloMosaic.Lib.StableHlo.Run

noncomputable section

namespace Cert.ReferenceIdeal.Gen

open Idealize.ShloMosaic Idealize.ShloMosaic.ValueIdx Idealize.ShloMosaic.TcCoe Idealize.SL.Sem

namespace RV

variable (W : Valuation τ sig (Elt Ideal))

/-! ### Stretch 2: the messages -/
theorem message_v34 : StableHlo.after (opsMessage (F := Ideal)) W (Proc.devRef .tc main_v34)
    = msg (W (Proc.devRef .tc main_v18)) (W (Proc.devRef .tc main_arg3)) (W (Proc.devRef .tc main_arg4))
        (W (Proc.devRef .tc main_arg5)) (W (Proc.devRef .tc main_arg6)) := by
  show StableHlo.after (opsMessage (F := Ideal)) W (Proc.devRef .tc main_v34) = _
  after_results_simp
  simp only [StableHlo.TRef.ofBuf, StableHlo.TRef.toBuf, cast_eq]
  rfl
theorem message_v1 : StableHlo.after (opsMessage (F := Ideal)) W (Proc.devRef .tc main_v1) = W (Proc.devRef .tc main_v1) := by
  after_results_simp
theorem message_arg0 : StableHlo.after (opsMessage (F := Ideal)) W (Proc.devRef .tc main_arg0) = W (Proc.devRef .tc main_arg0) := by
  after_results_simp
theorem message_arg7 : StableHlo.after (opsMessage (F := Ideal)) W (Proc.devRef .tc main_arg7) = W (Proc.devRef .tc main_arg7) := by
  after_results_simp
theorem message_arg8 : StableHlo.after (opsMessage (F := Ideal)) W (Proc.devRef .tc main_arg8) = W (Proc.devRef .tc main_arg8) := by
  after_results_simp
end RV
end Cert.ReferenceIdeal.Gen

end
-- ==== Proof.RNormalize.lean ====
/-
  The reference's last stretch of host operations (normalization, residual, softplus) read at the result buffer, from any
  contents W whose aggregate and moment buffers hold an aggregate and its column mean and variance.
-/
import proofs.«179620_j6270652252664_1_alg».proof.Proof.ROps
import proofs.«179620_j6270652252664_1_alg».proof.Proof.RSpec
import Idealize.ShloMosaic.Lib.StableHlo.Run

noncomputable section

namespace Cert.ReferenceIdeal.Gen

open Idealize.ShloMosaic Idealize.ShloMosaic.ValueIdx Idealize.ShloMosaic.TcCoe Idealize.SL.Sem

namespace RV

variable (W : Valuation τ sig (Elt Ideal))

/-! ### Stretch 4: normalization, residual, softplus -/
/-- The result from W's aggregate, moments, features and the two affine parameters — `outOf` with the moments as buffers. -/
theorem normalize_v58 (a : FVec Ideal S50000x128 .f32) (ha : W (Proc.devRef .tc main_v37) = a)
    (hm : W (Proc.devRef .tc main_v40) = mean a) (hv : W (Proc.devRef .tc main_v41) = var a) :
    StableHlo.after (opsNormalize (F := Ideal)) W (Proc.devRef .tc main_v58)
      = outOf (W (Proc.devRef .tc main_arg0)) a (W (Proc.devRef .tc main_arg7)) (W (Proc.devRef .tc main_arg8)) := by
  show StableHlo.after (opsNormalize (F := Ideal)) W (Proc.devRef .tc main_v58) = _
  after_results_simp
  simp only [StableHlo.TRef.ofBuf, StableHlo.TRef.toBuf, cast_eq]
  rw [ha, hm, hv]
  rfl
end RV
end Cert.ReferenceIdeal.Gen

end
-- ==== Proof.RStages.lean ====
/-
  The reference's third stretch of host operations (scatter-add, column means, column variances) read at its three
  result buffers, and the whole list read at the result buffer: the four stretches chained.

  The variance operations read only the aggregate's buffer and the buffer of the integer 0 (the degrees-of-freedom
  correction), so they are read from arbitrary contents of those two and joined to the scatter-add afterwards.
-/
import proofs.«179620_j6270652252664_1_alg».proof.Proof.ROps
import proofs.«179620_j6270652252664_1_alg».proof.Proof.RSpec
import proofs.«179620_j6270652252664_1_alg».proof.Proof.RGather
import proofs.«179620_j6270652252664_1_alg».proof.Proof.RMessage
import proofs.«179620_j6270652252664_1_alg».proof.Proof.RNormalize
import Idealize.ShloMosaic.Lib.StableHlo.Run
import Idealize.ShloMosaic.Lib.Pipeline.Frame

noncomputable section

namespace Cert.ReferenceIdeal.Gen

open Idealize.ShloMosaic Idealize.ShloMosaic.ValueIdx Idealize.ShloMosaic.TcCoe Idealize.SL.Sem

namespace RV

section Lists
variable {F : FTy → Type} [FloatOps F]

/-- The scatter-add and the column means: the first ten operations of the third stretch. -/
abbrev opsAgg : List (HloOp τ sig (Elt F)) :=
  [ StableHlo.nullary main_cst_4 (constant S_ .f32 0x00000000#32),
    StableHlo.unary main_cst_4 main_v35 (broadcastInDim S50000x128 ![] bcast_S_S50000x128 : (⟨S_, .f32⟩ : BufTy).Contents (Elt F) → (⟨S50000x128, .f32⟩ : BufTy).Contents (Elt F)),
    StableHlo.unary main_v1 main_v36 (broadcastInDim S800000x1 ![0] bcast_S800000_S800000x1_0 : (⟨S800000, .i32⟩ : BufTy).Contents (Elt F) → (⟨S800000x1, .i32⟩ : BufTy).Contents (Elt F)),
    StableHlo.ternary main_v35 main_v36 main_v34 main_v37 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_5 (constant S_ .f32 0x00000000#32),
    StableHlo.binary main_v37 main_cst_5 main_v38 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_6 (constant S_ .f32 0x47435000#32),
    StableHlo.unary main_cst_6 main_v39 (broadcastInDim S128 ![] bcast_S_S128 : (⟨S_, .f32⟩ : BufTy).Contents (Elt F) → (⟨S128, .f32⟩ : BufTy).Contents (Elt F)),
    StableHlo.binary main_v38 main_v39 main_v40 (Host.divf : (⟨S128, .f32⟩ : BufTy).Contents (Elt F) → (⟨S128, .f32⟩ : BufTy).Contents (Elt F) → (⟨S128, .f32⟩ : BufTy).Contents (Elt F)),
    StableHlo.nullary main_c_7 (constantI S_ 32 0#32) ]

/-- jnp.var inline: the last twenty-two operations of the third stretch. -/
abbrev opsVar : List (HloOp τ sig (Elt F)) :=
  [ StableHlo.TRef.nullary main_call1.cst (constant S_ .f32 0x00000000#32),
    StableHlo.TRef.binary (.of main_v37 : StableHlo.TRef sig ⟨S50000x128, .f32⟩) main_call1.cst main_call1.v0 (fun x v => Host.reduceAdd x v reducesTo_S50000x128_S128_d0 h_S_),
    StableHlo.TRef.unary main_call1.v0 main_call1.v1 (broadcastInDim S1x128 ![1] bcast_S128_S1x128_1),
    StableHlo.TRef.nullary main_call1.cst_0 (constant S_ .f32 0x47435000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S50000x128 ![0, 1] bcast_S1x128_S50000x128_0_1),
    StableHlo.TRef.binary (.of main_v37 : StableHlo.TRef sig ⟨S50000x128, .f32⟩) main_call1.v4 main_call1.v5 subf,
    StableHlo.TRef.binary main_call1.v5 main_call1.v5 main_call1.v6 mulf,
    StableHlo.TRef.unary (.of main_c_7 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary (main_call1.cst_4 : StableHlo.TRef sig ⟨S_, .f32⟩) main_call1.call0.v0 id,
    StableHlo.TRef.unary main_call1.call0.v0 main_call1.call0.v1 (broadcastInDim S128 ![] bcast_S_S128),
    StableHlo.TRef.ternary (main_call1.v12 : StableHlo.TRef sig ⟨S_, .i1⟩) (main_call1.v11 : StableHlo.TRef sig ⟨S128, .f32⟩) main_call1.call0.v1 main_call1.call0.v2 (fun p a b => select (broadcastInDim S128 ![] bcast_S_S128 p) a b) ]

theorem opsMoments_split : (opsMoments (F := F)) = opsAgg ++ opsVar := rfl

end Lists

variable (W : Valuation τ sig (Elt Ideal))

/-! ### Stretch 3: the aggregate and its moments -/
/-- The aggregate the stretch computes from W's messages and source indices. -/
abbrev aggOf : FVec Ideal S50000x128 .f32 := agg (W (Proc.devRef .tc main_v1)) (W (Proc.devRef .tc main_v34))

/-- From any contents whose main_c_7 holds the integer 0, the variance operations leave the variance of what main_v37 holds. -/
theorem var_v41 (hc : W (Proc.devRef .tc main_c_7) = constantI S_ 32 0#32) :
    StableHlo.after (opsVar (F := Ideal)) W (Proc.devRef .tc main_v41) = var (W (Proc.devRef .tc main_v37)) := by
  show StableHlo.after (opsVar (F := Ideal)) W (Proc.devRef .tc main_v41) = _
  after_results_simp
  simp only [StableHlo.TRef.ofBuf, StableHlo.TRef.toBuf, cast_eq]
  rw [hc]
  rfl
/-- The first ten operations leave the aggregate in main_v37 and the integer 0 in main_c_7. -/
theorem agg_v37 : StableHlo.after (opsAgg (F := Ideal)) W (Proc.devRef .tc main_v37) = aggOf W := by
  show StableHlo.after (opsAgg (F := Ideal)) W (Proc.devRef .tc main_v37) = _
  after_results
  rfl
theorem agg_c7 : StableHlo.after (opsAgg (F := Ideal)) W (Proc.devRef .tc main_c_7) = constantI S_ 32 0#32 := by
  show StableHlo.after (opsAgg (F := Ideal)) W (Proc.devRef .tc main_c_7) = _
  after_results

theorem moments_v37 : StableHlo.after (opsMoments (F := Ideal)) W (Proc.devRef .tc main_v37) = aggOf W := by
  show StableHlo.after (opsMoments (F := Ideal)) W (Proc.devRef .tc main_v37) = _
  after_results_simp
  rfl
theorem moments_v40 : StableHlo.after (opsMoments (F := Ideal)) W (Proc.devRef .tc main_v40) = mean (aggOf W) := by
  show StableHlo.after (opsMoments (F := Ideal)) W (Proc.devRef .tc main_v40) = _
  after_results_simp
  rfl
theorem moments_v41 : StableHlo.after (opsMoments (F := Ideal)) W (Proc.devRef .tc main_v41) = var (aggOf W) := by
  rw [opsMoments_split, StableHlo.after_append, var_v41 _ (agg_c7 W), agg_v37]
theorem moments_arg0 : StableHlo.after (opsMoments (F := Ideal)) W (Proc.devRef .tc main_arg0) = W (Proc.devRef .tc main_arg0) := by
  after_results_simp
theorem moments_arg7 : StableHlo.after (opsMoments (F := Ideal)) W (Proc.devRef .tc main_arg7) = W (Proc.devRef .tc main_arg7) := by
  after_results_simp
theorem moments_arg8 : StableHlo.after (opsMoments (F := Ideal)) W (Proc.devRef .tc main_arg8) = W (Proc.devRef .tc main_arg8) := by
  after_results_simp

/-- The whole of @main at the result buffer: the reference's result function of W's argument arrays. -/
theorem ops_v58 : StableHlo.after (ops (F := Ideal)) W (Proc.devRef .tc main_v58)
    = out (W (Proc.devRef .tc main_arg0)) (W (Proc.devRef .tc main_arg1)) (W (Proc.devRef .tc main_arg2)) (W (Proc.devRef .tc main_arg3))
        (W (Proc.devRef .tc main_arg4)) (W (Proc.devRef .tc main_arg5)) (W (Proc.devRef .tc main_arg6)) (W (Proc.devRef .tc main_arg7))
        (W (Proc.devRef .tc main_arg8)) := by
  show StableHlo.after (opsGather ++ opsMessage ++ opsMoments ++ opsNormalize) W (Proc.devRef .tc main_v58) = _
  rw [StableHlo.after_append, StableHlo.after_append, StableHlo.after_append]
  rw [normalize_v58 _ (aggOf (StableHlo.after opsMessage (StableHlo.after opsGather W))) (moments_v37 _) (moments_v40 _) (moments_v41 _)]
  rw [moments_arg0, moments_arg7, moments_arg8, message_arg0, message_arg7, message_arg8, gather_arg0, gather_arg7, gather_arg8]
  simp only [aggOf]
  rw [message_v1, message_v34, gather_v1, gather_v18, gather_arg3, gather_arg4, gather_arg5, gather_arg6]
  rfl

end RV
end Cert.ReferenceIdeal.Gen

end
-- ==== Proof.RArgs.lean ====
/-
  No operation of the reference writes an argument array: after the whole list each argument buffer holds what it held.
-/
import proofs.«179620_j6270652252664_1_alg».proof.Proof.ROps
import proofs.«179620_j6270652252664_1_alg».proof.Proof.RSpec
import Idealize.ShloMosaic.Lib.StableHlo.Run

noncomputable section

namespace Cert.ReferenceIdeal.Gen

open Idealize.ShloMosaic Idealize.ShloMosaic.ValueIdx Idealize.ShloMosaic.TcCoe Idealize.SL.Sem

namespace RV

variable (W : Valuation τ sig (Elt Ideal))

/-- Every operation of the list writes its one result buffer, and no result buffer is the given reference: the
    list unfolds to its 117 operations, each one's written set is the singleton of its result, and the references differ
    by their positions in the signature. -/
local macro "not_written" : tactic => `(tactic| (
  refine StableHlo.after_of_forall_not_mem _ _ (List.forall_iff_forall_mem.mp ?_)
  simp only [ops, opsGather, opsMessage, opsMoments, opsNormalize, List.cons_append, List.nil_append, List.Forall,
    StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (by decide)))

/-- The whole of @main writes no argument array: used for the frame. -/
theorem ops_arg0 : StableHlo.after (ops (F := Ideal)) W (Proc.devRef .tc main_arg0) = W (Proc.devRef .tc main_arg0) := by
  not_written
theorem ops_arg1 : StableHlo.after (ops (F := Ideal)) W (Proc.devRef .tc main_arg1) = W (Proc.devRef .tc main_arg1) := by
  not_written
theorem ops_arg2 : StableHlo.after (ops (F := Ideal)) W (Proc.devRef .tc main_arg2) = W (Proc.devRef .tc main_arg2) := by
  not_written
theorem ops_arg3 : StableHlo.after (ops (F := Ideal)) W (Proc.devRef .tc main_arg3) = W (Proc.devRef .tc main_arg3) := by
  not_written
theorem ops_arg4 : StableHlo.after (ops (F := Ideal)) W (Proc.devRef .tc main_arg4) = W (Proc.devRef .tc main_arg4) := by
  not_written
theorem ops_arg5 : StableHlo.after (ops (F := Ideal)) W (Proc.devRef .tc main_arg5) = W (Proc.devRef .tc main_arg5) := by
  not_written
theorem ops_arg6 : StableHlo.after (ops (F := Ideal)) W (Proc.devRef .tc main_arg6) = W (Proc.devRef .tc main_arg6) := by
  not_written
theorem ops_arg7 : StableHlo.after (ops (F := Ideal)) W (Proc.devRef .tc main_arg7) = W (Proc.devRef .tc main_arg7) := by
  not_written
theorem ops_arg8 : StableHlo.after (ops (F := Ideal)) W (Proc.devRef .tc main_arg8) = W (Proc.devRef .tc main_arg8) := by
  not_written
end RV
end Cert.ReferenceIdeal.Gen

end
-- ==== Proof.PreReal.lean ====
/-
  The precondition read: "every float input holds finite numbers" makes every entry of the eight float arguments a real
  number (an extended real whose absolute value is below +infinity, and which is not -infinity either).
-/
import proofs.«179620_j6270652252664_1_alg».proof.Proof.Gen.Pre_finite_inputs
import proofs.«179620_j6270652252664_1_alg».proof.Proof.Scalar
import Idealize.ShloMosaic.Lib.ReduceAll
import Idealize.ShloMosaic.Lib.ValueIdx

noncomputable section

namespace Cert.PreReal

open Idealize.ShloMosaic Idealize.ShloMosaic.ValueIdx
open Cert.Pre_finite_inputs

/-- The pattern 0x7F800000 (sign 0, exponent all ones, fraction 0) denotes +infinity. -/
theorem inf_bits : Ideal.ofBits .f32 0x7F800000#32 = (⊤ : EReal) := by
  simp [Ideal.ofBits, Ideal.ieee]

/-- An extended real whose absolute value max(x, -x) lies strictly below +infinity is a real number:
    at -infinity and at +infinity the absolute value is +infinity, which is not below itself. -/
theorem real_of_abs_lt_top (x : EReal) (h : Ideal.cmp .olt (max x (-x)) ⊤ = 1#1) : Sc.IsReal x := by
  induction x using EReal.rec with
  | bot => simp [Ideal.cmp] at h
  | top => simp [Ideal.cmp] at h
  | coe r => exact ⟨r, rfl⟩

/-- All-finite over any shape: when the conjunction, over every entry, of |x| < +infinity is true,
    every entry of x is a real number. -/
theorem all_real {s : Shape} {axes : List (Fin s.rank)} (x : FVec Ideal s .f32) (dims : Fin S_.rank → Fin s.rank)
    (hb : S_.BroadcastsInDim s dims) (h : s.ReducesTo axes S_) (hu : 0 < S_.numel) (j : S_.Idx)
    (e : Host.reduce IntOp.andi (cmpf .olt (Host.absf x) (broadcastInDim s dims hb (constant (F := Ideal) S_ .f32 0x7F800000#32)))
          (constantI S_ 1 1#1) h hu j = 1#1) (i : s.Idx) : Sc.IsReal (x i) := by
  -- the result shape has rank 0, hence a single index: the conjunction ranges over every entry
  haveI : Subsingleton S_.Idx := ⟨fun a b => funext fun d => d.elim0⟩
  have hi := Host.reduce_andi_all _ _ h hu j e i
  refine real_of_abs_lt_top (x i) ?_
  rw [← inf_bits]
  exact hi

/-- Under the precondition every entry of every float argument is a real number. -/
theorem reals_of_pre (a0 : FVec Ideal S50000x128 .f32) (a1 : IVec S2x800000 32) (a2 : FVec Ideal S800000x10 .f32) (a3 : FVec Ideal S266x128 .f32)
    (a4 : FVec Ideal S128 .f32) (a5 : FVec Ideal S266x128 .f32) (a6 : FVec Ideal S128 .f32) (a7 : FVec Ideal S128 .f32) (a8 : FVec Ideal S128 .f32)
    (hpre : Cert.Pre_finite_inputs.fn (F := Ideal) a0 a1 a2 a3 a4 a5 a6 a7 a8 = fun _ => 1#1) :
    (∀ i, Sc.IsReal (a0 i)) ∧ (∀ i, Sc.IsReal (a2 i)) ∧ (∀ i, Sc.IsReal (a3 i)) ∧ (∀ i, Sc.IsReal (a4 i)) ∧ (∀ i, Sc.IsReal (a5 i))
      ∧ (∀ i, Sc.IsReal (a6 i)) ∧ (∀ i, Sc.IsReal (a7 i)) ∧ (∀ i, Sc.IsReal (a8 i)) := by
  -- the predicate's one entry is a conjunction of eight all-finite tests, nested to the left
  have h0 := congrFun hpre ValueIdx.ix0
  dsimp only [fn, fn_part1, fn_part2, andi] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨all_real a0 _ _ _ _ _ e0, all_real a2 _ _ _ _ _ e2, all_real a3 _ _ _ _ _ e3, all_real a4 _ _ _ _ _ e4,
    all_real a5 _ _ _ _ _ e5, all_real a6 _ _ _ _ _ e6, all_real a7 _ _ _ _ _ e7, all_real a8 _ _ _ _ _ e8⟩

end Cert.PreReal

end
-- ==== Proof.MsgR.lean ====
/-
  The reference's stage functions read at an entry, over the scalar functions of Scalar.lean: a message entry is the
  scalar message of row e of the concatenated edge rows; a concatenated row is the concatenation of the three source rows;
  a result entry is the scalar result of the entry's feature, aggregate and the column's moments and affine parameters.
-/
import proofs.«179620_j6270652252664_1_alg».proof.Proof.RSpec
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.ReferenceIdeal.Gen

open Idealize.ShloMosaic Idealize.ShloMosaic.ValueIdx

namespace RV

/-! ## Entry-wise pieces shared by the stages -/

/-- A vector of n entries laid along each of m rows by way of a one-row matrix reads, at (r, t), the vector at t. -/
theorem bcRows_apply {α : Type} {m n : Nat}
    (h1 : (⟨1, ![n]⟩ : Shape).BroadcastsInDim ⟨2, ![1, n]⟩ ![1])
    (h2 : (⟨2, ![1, n]⟩ : Shape).BroadcastsInDim ⟨2, ![m, n]⟩ ![0, 1])
    (b : (⟨1, ![n]⟩ : Shape).Idx → α) (r : Fin m) (t : Fin n) :
    broadcastInDim ⟨2, ![m, n]⟩ ![0, 1] h2 (broadcastInDim ⟨2, ![1, n]⟩ ![1] h1 b) (ix2 r t) = b (ix1 t) := by
  rw [broadcastInDim_oneRow_apply]
  refine broadcastInDim_apply ![1] h1 b (ix2 (0 : Fin 1) t) (ix1 t) ?_
  intro a
  match a with
  | ⟨0, _⟩ =>
    show t.val = if n = 1 then 0 else t.val
    split
    · have := t.isLt; omega
    · rfl

/-- No extended real differs from itself: the guard against an undefined value never fires. -/
theorem cmp_une_self (y : EReal) : Ideal.cmp .une y y = 0#1 := by
  simp [Ideal.cmp]

/-- The guarded softplus at one entry: the guard takes its second branch, the zero word is the number zero, and
    x - 0 = x, which leaves max(x, 0) + log(1 + e^(-|x|)) with |x| = max(x, -x). -/
theorem softplus_entry (x : EReal) :
    Scalar.select (Ideal.cmp .une (x - Ideal.ofBits .f32 0x00000000#32) (x - Ideal.ofBits .f32 0x00000000#32))
      (x + Ideal.ofBits .f32 0x00000000#32)
      (max x (Ideal.ofBits .f32 0x00000000#32)
        + Ideal.log1p (Ideal.exp (-(max (x - Ideal.ofBits .f32 0x00000000#32) (-(x - Ideal.ofBits .f32 0x00000000#32))))))
      = Sc.softplus x := by
  rw [cmp_une_self, select_zero, Ideal.ofBits_zero_f32, sub_zero]
  rfl

/-! ## The result stage -/

/-- The softplus of the node-shaped array at an entry. -/
theorem spN_apply (x : FVec Ideal S50000x128 .f32) (i : S50000x128.Idx) : spN x i = Sc.softplus (x i) :=
  softplus_entry (x i)

/-- A vector of 128 repeated down the node rows reads, at (n, j), the vector at j. -/
theorem bcN_apply (b : FVec Ideal S128 .f32) (n : Fin 50000) (j : Fin 128) : bcN b (ix2 n j) = b (ix1 j) := by
  unfold bcN
  exact bcRows_apply _ _ b n j

/-! ## The message stage -/

/-- The softplus of the edge-shaped array at an entry. -/
theorem spE_apply (x : FVec Ideal S800000x128 .f32) (i : S800000x128.Idx) : spE x i = Sc.softplus (x i) :=
  softplus_entry (x i)

/-- 1 / (1 + e^(-x)) at one entry, with the word of 1.0 read as the number one, is the logistic function. -/
theorem gate_apply (x : FVec Ideal S800000x128 .f32) (i : S800000x128.Idx) : gate x i = Ideal.logistic (x i) := by
  show Ideal.div (Ideal.ofBits .f32 0x3F800000#32) (Ideal.ofBits .f32 0x3F800000#32 + Ideal.exp (-(x i))) = _
  rw [Ideal.ofBits_one_f32]
  rfl

/-- A vector of 128 repeated down the edge rows reads, at (e, j), the vector at j. -/
theorem bcE_apply (b : FVec Ideal S128 .f32) (e : Fin 800000) (j : Fin 128) : bcE b (ix2 e j) = b (ix1 j) := by
  unfold bcE
  exact bcRows_apply _ _ b e j

/-! The operand indices of the product of the edge rows with a weight matrix, axis by axis: at result index (e, j) and
    contraction coordinate k the left operand is read at (e, k) and the right one at (k, j). -/

theorem lhs_dot_0 (i : S800000x128.Idx) (q : dot_S800000x266_S266x128_S800000x128_1_0_0_1_n_n.contr.Idx) :
    (dot_S800000x266_S266x128_S800000x128_1_0_0_1_n_n.lhsIdx i q 0).val = (i 0).val := by
  unfold DotDims.lhsIdx
  rw [dif_neg (show ¬(0 : Fin S800000x266.rank) ∈ dot_S800000x266_S266x128_S800000x128_1_0_0_1_n_n.lhsBatch by decide),
    dif_pos (show (0 : Fin S800000x266.rank) ∈ dot_S800000x266_S266x128_S800000x128_1_0_0_1_n_n.lhsNonContracting by decide)]
  rfl
theorem lhs_dot_1 (i : S800000x128.Idx) (q : dot_S800000x266_S266x128_S800000x128_1_0_0_1_n_n.contr.Idx) :
    (dot_S800000x266_S266x128_S800000x128_1_0_0_1_n_n.lhsIdx i q 1).val = (q ⟨0, by decide⟩).val :=
  dot_S800000x266_S266x128_S800000x128_1_0_0_1_n_n.lhsIdx_val_of_single rfl i q
theorem rhs_dot_0 (i : S800000x128.Idx) (q : dot_S800000x266_S266x128_S800000x128_1_0_0_1_n_n.contr.Idx) :
    (dot_S800000x266_S266x128_S800000x128_1_0_0_1_n_n.rhsIdx i q 0).val = (q ⟨0, by decide⟩).val :=
  dot_S800000x266_S266x128_S800000x128_1_0_0_1_n_n.rhsIdx_val_of_single rfl i q
theorem rhs_dot_1 (i : S800000x128.Idx) (q : dot_S800000x266_S266x128_S800000x128_1_0_0_1_n_n.contr.Idx) :
    (dot_S800000x266_S266x128_S800000x128_1_0_0_1_n_n.rhsIdx i q 1).val = (i 1).val := by
  unfold DotDims.rhsIdx
  rw [dif_neg (show ¬(1 : Fin S266x128.rank) ∈ dot_S800000x266_S266x128_S800000x128_1_0_0_1_n_n.rhsBatch by decide),
    dif_pos (show (1 : Fin S266x128.rank) ∈ dot_S800000x266_S266x128_S800000x128_1_0_0_1_n_n.rhsNonContracting by decide)]
  rfl

/-- The product of the edge rows with a weight matrix at (e, j): row e against column j, the sum over the 266
    coordinates of the one contracted axis. -/
theorem dot_apply (Z : FVec Ideal S800000x266 .f32) (w : FVec Ideal S266x128 .f32) (e : Fin 800000) (j : Fin 128) :
    Host.dotGeneral (F := Ideal) dot_S800000x266_S266x128_S800000x128_1_0_0_1_n_n none Z w (ix2 e j) = ∑ k : Fin 266, Z (ix2 e k) * w (ix2 k j) := by
  simp only [Host.dotGeneral]
  rw [Ideal.dotGeneral_apply, ← Equiv.sum_comp (contrEquiv1 dot_S800000x266_S266x128_S800000x128_1_0_0_1_n_n 266 rfl rfl).symm]
  refine Finset.sum_congr rfl fun k _ => ?_
  have hk := contrEquiv1_symm_val dot_S800000x266_S266x128_S800000x128_1_0_0_1_n_n 266 rfl rfl k
  have el : dot_S800000x266_S266x128_S800000x128_1_0_0_1_n_n.lhsIdx (ix2 e j) ((contrEquiv1 dot_S800000x266_S266x128_S800000x128_1_0_0_1_n_n 266 rfl rfl).symm k) = ix2 e k :=
    funext fun a => Fin.ext (by
      match a with
      | ⟨0, _⟩ => exact lhs_dot_0 _ _
      | ⟨1, _⟩ => exact (lhs_dot_1 _ _).trans hk)
  have er : dot_S800000x266_S266x128_S800000x128_1_0_0_1_n_n.rhsIdx (ix2 e j) ((contrEquiv1 dot_S800000x266_S266x128_S800000x128_1_0_0_1_n_n 266 rfl rfl).symm k) = ix2 k j :=
    funext fun a => Fin.ext (by
      match a with
      | ⟨0, _⟩ => exact (rhs_dot_0 _ _).trans hk
      | ⟨1, _⟩ => exact rhs_dot_1 _ _)
  rw [el, er]

/-- Z · W + b at (e, j): row e of Z against column j of W, plus b at j. -/
theorem logits_apply (Z : FVec Ideal S800000x266 .f32) (w : FVec Ideal S266x128 .f32) (b : FVec Ideal S128 .f32)
    (e : Fin 800000) (j : Fin 128) :
    logits Z w b (ix2 e j) = Sc.lin (fun k => Z (ix2 e k)) (fun k => w (ix2 k j)) (b (ix1 j)) := by
  unfold logits
  rw [addf_apply, dot_apply, bcE_apply]
  rfl

/-! ## The three stages at an entry -/

/-- A message entry. -/
theorem msg_apply (Z : FVec Ideal S800000x266 .f32) (gw : FVec Ideal S266x128 .f32) (gb : FVec Ideal S128 .f32)
    (cw : FVec Ideal S266x128 .f32) (cb : FVec Ideal S128 .f32) (e : Fin 800000) (j : Fin 128) :
    msg Z gw gb cw cb (ix2 e j)
      = Sc.msg (fun k => Z (ix2 e k)) (fun k => gw (ix2 k j)) (gb (ix1 j)) (fun k => cw (ix2 k j)) (cb (ix1 j)) := by
  unfold msg
  rw [mulf_apply, gate_apply, spE_apply, logits_apply, logits_apply]
  rfl

/-- A concatenated edge row: a column below 128 falls in the source rows, one below 256 in the destination rows (128
    less), any other in the edge features (256 less). -/
theorem z_apply (h : FVec Ideal S50000x128 .f32) (ei : IVec S2x800000 32) (ef : FVec Ideal S800000x10 .f32) (e : Fin 800000) (k : Fin 266) :
    z h ei ef (ix2 e k)
      = Sc.zcat (fun k => rows h (src1 ei) (ix2 e k)) (fun k => rows h (dst1 ei) (ix2 e k)) (fun k => ef (ix2 e k)) k := by
  unfold z Sc.zcat
  dsimp only
  split_ifs with h1 h2
  · refine concatenate_apply_piece (1 : Fin S800000x266.rank) _ _ (ix2 e k) 0 (by show 0 < 3; omega) S800000x128 (rows h (src1 ei)) rfl rfl
      0 rfl (ix2 e ⟨k.val, h1⟩) ?_ ?_
    · intro b hb
      match b with
      | ⟨0, _⟩ => rfl
      | ⟨1, _⟩ => exact absurd rfl hb
    · show 0 + k.val = k.val
      omega
  · refine concatenate_apply_piece (1 : Fin S800000x266.rank) _ _ (ix2 e k) 1 (by show 1 < 3; omega) S800000x128 (rows h (dst1 ei)) rfl rfl
      128 rfl (ix2 e ⟨k.val - 128, by omega⟩) ?_ ?_
    · intro b hb
      match b with
      | ⟨0, _⟩ => rfl
      | ⟨1, _⟩ => exact absurd rfl hb
    · show 128 + (k.val - 128) = k.val
      omega
  · refine concatenate_apply_piece (1 : Fin S800000x266.rank) _ _ (ix2 e k) 2 (by show 2 < 3; omega) S800000x10 ef rfl rfl
      256 rfl (ix2 e ⟨k.val - 256, by have := k.isLt; omega⟩) ?_ ?_
    · intro b hb
      match b with
      | ⟨0, _⟩ => rfl
      | ⟨1, _⟩ => exact absurd rfl hb
    · show 256 + (k.val - 256) = k.val
      omega

/-- A result entry. -/
theorem outOf_apply (h a : FVec Ideal S50000x128 .f32) (γ β : FVec Ideal S128 .f32) (n : Fin 50000) (j : Fin 128) :
    outOf h a γ β (ix2 n j)
      = Sc.outR (h (ix2 n j)) (a (ix2 n j)) (mean a (ix1 j)) (rstd (var a) (ix1 j)) (γ (ix1 j)) (β (ix1 j)) := by
  unfold outOf
  rw [spN_apply]
  simp only [addf_apply, mulf_apply, subf_apply, bcN_apply]
  rfl

end RV
end Cert.ReferenceIdeal.Gen

end
-- ==== Proof.Glue.lean ====
/-
  The kernel program's host stages against the reference's: the shared stages (index rows, gathered rows, scatter-add,
  means, variances) are the same functions; a pad read inside the operand, a leading slice and a one-row reshape read at
  an entry; hence the kernel's message rows are the reference's messages.
-/
import proofs.«179620_j6270652252664_1_alg».proof.Proof.KSpec
import proofs.«179620_j6270652252664_1_alg».proof.Proof.RSpec
import proofs.«179620_j6270652252664_1_alg».proof.Proof.MsgR
import Idealize.ShloMosaic.Lib.Pipeline.Value
import Idealize.ShloMosaic.Lib.KernelVsHost
import Idealize.ShloMosaic.Lib.ValueLayout

noncomputable section

namespace Cert.Glue

open Idealize.ShloMosaic Idealize.ShloMosaic.ValueIdx
open Cert.KernelIdeal.Gen (KV.src1 KV.dst1 KV.rows KV.padE KV.padE10 KV.padN KV.row1 KV.msgPad KV.mK KV.agg KV.mean KV.var KV.rstd KV.scale KV.shift KV.outPad KV.outS KV.aggAll KV.outOf KV.out)
open Cert.ReferenceIdeal.Gen (RV.src1 RV.dst1 RV.rows RV.z RV.msg RV.agg RV.mean RV.var RV.rstd RV.aggAll RV.outOf RV.out)

/-! ## The shared stages are the same functions (the two programs print them with their own copies of the same
    dimension records and shape facts) -/
theorem src1_eq (ei : IVec Cert.KernelIdeal.S2x800000 32) : KV.src1 ei = RV.src1 ei := by
  rfl
theorem dst1_eq (ei : IVec Cert.KernelIdeal.S2x800000 32) : KV.dst1 ei = RV.dst1 ei := by
  rfl
theorem rows_eq (h : FVec Ideal Cert.KernelIdeal.S50000x128 .f32) (s : IVec Cert.KernelIdeal.S800000 32) : KV.rows h s = RV.rows h s := by
  rfl
theorem agg_eq (s : IVec Cert.KernelIdeal.S800000 32) (mm : FVec Ideal Cert.KernelIdeal.S800000x128 .f32) : KV.agg s mm = RV.agg s mm := by
  rfl
theorem mean_eq (a : FVec Ideal Cert.KernelIdeal.S50000x128 .f32) : KV.mean a = RV.mean a := by
  rfl
theorem var_eq (a : FVec Ideal Cert.KernelIdeal.S50000x128 .f32) : KV.var a = RV.var a := by
  rfl
theorem rstd_eq (v : FVec Ideal Cert.KernelIdeal.S128 .f32) : KV.rstd v = RV.rstd v := by
  rfl

/-! ## Layout operations read at an entry -/
/-- A padded edge row inside the operand is the operand's row. -/
theorem padE_apply (x : FVec Ideal Cert.KernelIdeal.S800000x128 .f32) (e : Fin 800000) (k : Fin 128) :
    KV.padE x (ix2 (⟨e.val, by have := e.isLt; omega⟩ : Fin 802816) k) = x (ix2 e k) := by
  unfold KV.padE
  refine pad_apply_of_inside _ _ _ x _ _ _ _ (ix2 e k) (fun a => ?_)
  match a with
  | ⟨0, _⟩ => show e.val = 0 + e.val * (0 + 1); omega
  | ⟨1, _⟩ => show k.val = 0 + k.val * (0 + 1); omega
theorem padE10_apply (x : FVec Ideal Cert.KernelIdeal.S800000x10 .f32) (e : Fin 800000) (k : Fin 10) :
    KV.padE10 x (ix2 (⟨e.val, by have := e.isLt; omega⟩ : Fin 802816) k) = x (ix2 e k) := by
  unfold KV.padE10
  refine pad_apply_of_inside _ _ _ x _ _ _ _ (ix2 e k) (fun a => ?_)
  match a with
  | ⟨0, _⟩ => show e.val = 0 + e.val * (0 + 1); omega
  | ⟨1, _⟩ => show k.val = 0 + k.val * (0 + 1); omega
theorem padN_apply (x : FVec Ideal Cert.KernelIdeal.S50000x128 .f32) (n : Fin 50000) (j : Fin 128) :
    KV.padN x (ix2 (⟨n.val, by have := n.isLt; omega⟩ : Fin 53248) j) = x (ix2 n j) := by
  unfold KV.padN
  refine pad_apply_of_inside _ _ _ x _ _ _ _ (ix2 n j) (fun a => ?_)
  match a with
  | ⟨0, _⟩ => show n.val = 0 + n.val * (0 + 1); omega
  | ⟨1, _⟩ => show j.val = 0 + j.val * (0 + 1); omega
/-- The leading 800000 rows of the padded message array. -/
theorem mK_apply (M : FVec Ideal Cert.KernelIdeal.S802816x128 .f32) (e : Fin 800000) (j : Fin 128) :
    KV.mK M (ix2 e j) = M (ix2 (⟨e.val, by have := e.isLt; omega⟩ : Fin 802816) j) := by
  unfold KV.mK
  refine extractStridedSlice_apply _ M _ _ _ (fun a => ?_)
  match a with
  | ⟨0, _⟩ => show e.val = 0 + e.val; omega
  | ⟨1, _⟩ => show j.val = 0 + j.val; omega
theorem outS_apply (O : FVec Ideal Cert.KernelIdeal.S53248x128 .f32) (n : Fin 50000) (j : Fin 128) :
    KV.outS O (ix2 n j) = O (ix2 (⟨n.val, by have := n.isLt; omega⟩ : Fin 53248) j) := by
  unfold KV.outS
  refine extractStridedSlice_apply _ O _ _ _ (fun a => ?_)
  match a with
  | ⟨0, _⟩ => show n.val = 0 + n.val; omega
  | ⟨1, _⟩ => show j.val = 0 + j.val; omega
/-- A vector as one row. -/
theorem row1_apply (b : FVec Ideal Cert.KernelIdeal.S128 .f32) (j : Fin 128) : KV.row1 b (ix2 (0 : Fin 1) j) = b (ix1 j) := by
  unfold KV.row1
  refine shapeCast_apply b _ _ (ix1 j) ?_
  refine (Shape.rowMajor_val_one (d := ![128]) (ix1 j)).trans
    (Eq.trans ?_ (Shape.rowMajor_val_two (d := ![1, 128]) (ix2 (0 : Fin 1) j)).symm)
  show j.val = 0 * 128 + j.val
  omega

/-! ## The messages agree -/
theorem msg_eq (h : FVec Ideal Cert.KernelIdeal.S50000x128 .f32) (ei : IVec Cert.KernelIdeal.S2x800000 32) (ef : FVec Ideal Cert.KernelIdeal.S800000x10 .f32)
    (gw : FVec Ideal Cert.KernelIdeal.S266x128 .f32) (gb : FVec Ideal Cert.KernelIdeal.S128 .f32) (cw : FVec Ideal Cert.KernelIdeal.S266x128 .f32)
    (cb : FVec Ideal Cert.KernelIdeal.S128 .f32) :
    KV.mK (KV.msgPad (KV.padE (KV.rows h (KV.src1 ei))) (KV.padE (KV.rows h (KV.dst1 ei))) (KV.padE10 ef) gw (KV.row1 gb) cw (KV.row1 cb))
      = RV.msg (RV.z h ei ef) gw gb cw cb := by
  funext i
  obtain ⟨e, j, rfl⟩ : ∃ (e : Fin 800000) (j : Fin 128), i = ix2 e j := ⟨i 0, i 1, eq_ix2 i⟩
  rw [mK_apply, Cert.ReferenceIdeal.Gen.RV.msg_apply]
  unfold KV.msgPad
  show Cert.Sc.msg
      (Cert.Sc.zcat (fun k => KV.padE (KV.rows h (KV.src1 ei)) (ix2 (⟨e.val, by have := e.isLt; omega⟩ : Fin 802816) k))
        (fun k => KV.padE (KV.rows h (KV.dst1 ei)) (ix2 (⟨e.val, by have := e.isLt; omega⟩ : Fin 802816) k))
        (fun k => KV.padE10 ef (ix2 (⟨e.val, by have := e.isLt; omega⟩ : Fin 802816) k)))
      (fun k => gw (ix2 k j)) (KV.row1 gb (ix2 (0 : Fin 1) j)) (fun k => cw (ix2 k j)) (KV.row1 cb (ix2 (0 : Fin 1) j)) = _
  simp only [padE_apply, padE10_apply, row1_apply, Cert.ReferenceIdeal.Gen.RV.z_apply, rows_eq, src1_eq, dst1_eq]

/-- The aggregates agree. -/
theorem aggAll_eq (h : FVec Ideal Cert.KernelIdeal.S50000x128 .f32) (ei : IVec Cert.KernelIdeal.S2x800000 32) (ef : FVec Ideal Cert.KernelIdeal.S800000x10 .f32)
    (gw : FVec Ideal Cert.KernelIdeal.S266x128 .f32) (gb : FVec Ideal Cert.KernelIdeal.S128 .f32) (cw : FVec Ideal Cert.KernelIdeal.S266x128 .f32)
    (cb : FVec Ideal Cert.KernelIdeal.S128 .f32) : KV.aggAll h ei ef gw gb cw cb = RV.aggAll h ei ef gw gb cw cb := by
  unfold KV.aggAll RV.aggAll
  rw [msg_eq, src1_eq, agg_eq]

end Cert.Glue

end
-- ==== Proof.Finite.lean ====
/-
  Real inputs give real intermediate values: every message entry, every aggregate entry, every column mean, and
  1 / sqrt(variance + epsilon) (the variance is a sum of squares over a positive count, so variance + epsilon is positive).
-/
import proofs.«179620_j6270652252664_1_alg».proof.Proof.RSpec
import proofs.«179620_j6270652252664_1_alg».proof.Proof.MsgR
import Idealize.ShloMosaic.Lib.ValueIdx
import Idealize.ShloMosaic.PureOps.Ideal.Laws

noncomputable section

namespace Cert.ReferenceIdeal.Gen

open Idealize.ShloMosaic Idealize.ShloMosaic.ValueIdx

namespace RV

/-! ## The two float constants -/

/-- The pattern 0x47435000 is (2^23 + 4411392) · 2^(142 - 150) = 12800000 / 256 = 50000. -/
theorem ofBits_50000 : Ideal.ofBits .f32 0x47435000#32 = ((50000 : ℝ) : EReal) := by
  simp [Ideal.ofBits, Ideal.ieee, -EReal.coe_mul]
  norm_num

/-- The pattern 0x3727C5AC (sign 0, exponent 110, a normal number) is a positive real. -/
theorem ofBits_eps_pos : ∃ r : ℝ, 0 < r ∧ Ideal.ofBits .f32 0x3727C5AC#32 = (r : EReal) := by
  simp [Ideal.ofBits, Ideal.ieee, -EReal.coe_mul]

/-- The zero pattern is the real 0. -/
theorem ofBits_zero_real : Sc.IsReal (Ideal.ofBits .f32 0x00000000#32) := by
  rw [Ideal.ofBits_zero_f32]; exact Sc.IsReal.zero

/-! ## The operations read at an index, over arbitrary operands

Each is stated over variables, so that nothing of full size is ever unfolded: the stage lemmas below only rewrite with these. -/

section Generic
variable {s t u : Shape} {α : Type}

/-- A broadcast of an array all of whose entries have a property has it at every index. -/
theorem bcast_all {P : α → Prop} (dims : Fin s.rank → Fin t.rank) (h : s.BroadcastsInDim t dims) (x : s.Idx → α)
    (hx : ∀ k, P (x k)) (i : t.Idx) : P (broadcastInDim t dims h x i) := by
  unfold broadcastInDim
  exact hx _

/-- A broadcast of an array all of whose entries are one value is that value at every index. -/
theorem bcast_eq (dims : Fin s.rank → Fin t.rank) (h : s.BroadcastsInDim t dims) (x : s.Idx → α) (c : α)
    (hx : ∀ k, x k = c) (i : t.Idx) : broadcastInDim t dims h x i = c :=
  bcast_all (P := fun y => y = c) dims h x hx i

/-- A broadcast splat constant reads the extended real its word encodes. -/
theorem bcast_const (dims : Fin s.rank → Fin t.rank) (h : s.BroadcastsInDim t dims) (b : BitVec (FTy.f32).bits) (i : t.Idx) :
    broadcastInDim t dims h (constant (F := Ideal) s .f32 b) i = Ideal.ofBits .f32 b :=
  bcast_eq dims h _ _ (fun k => constant_apply b k) i

/-- The host's quotient at an index is the quotient of the entries. -/
theorem hostDivf_apply (x y : FVec Ideal s .f32) (i : s.Idx) : Host.divf x y i = Ideal.div (x i) (y i) := rfl

/-- The host's reciprocal square root at an index is that of the entry. -/
theorem hostRsqrt_apply (x : FVec Ideal s .f32) (i : s.Idx) : Host.rsqrt x i = Ideal.rsqrt (x i) := rfl

/-- The host's sum over axes of a real array, from a real initial value, is real. -/
theorem hostReduceAdd_real {axes : List (Fin s.rank)} (x : FVec Ideal s .f32) (init : u.Idx → Ideal .f32)
    (h : s.ReducesTo axes t) (hu : 0 < u.numel) (hinit : ∀ k, Sc.IsReal (init k)) (hx : ∀ i, Sc.IsReal (x i)) (j : t.Idx) :
    Sc.IsReal (Host.reduceAdd x init h hu j) := by
  unfold Host.reduceAdd
  rw [Ideal.hostReduceAdd_def]
  unfold Ideal.hostReduceAdd
  exact Sc.IsReal.add (hinit _) (Sc.IsReal.sum _ _ (fun i _ => hx i))

/-- The host's sum over axes of nonnegative reals, from zero, is a nonnegative real. -/
theorem hostReduceAdd_nonneg {axes : List (Fin s.rank)} (x : FVec Ideal s .f32) (init : u.Idx → Ideal .f32)
    (h : s.ReducesTo axes t) (hu : 0 < u.numel) (hinit : ∀ k, init k = 0) (hx : ∀ i, ∃ r : ℝ, 0 ≤ r ∧ x i = (r : EReal)) (j : t.Idx) :
    ∃ r : ℝ, 0 ≤ r ∧ Host.reduceAdd x init h hu j = (r : EReal) := by
  unfold Host.reduceAdd
  rw [Ideal.hostReduceAdd_def]
  unfold Ideal.hostReduceAdd
  rw [hinit, zero_add]
  exact Sc.sum_nonneg_real _ _ (fun i _ => hx i)

/-- The host's accumulating scatter of real updates into a real array is real. -/
theorem hostScatterAdd_real {si : Shape} {w : Nat} (d : ScatterDims s si u) (x : FVec Ideal s .f32) (idx : IVec si w)
    (upd : FVec Ideal u .f32) (hx : ∀ i, Sc.IsReal (x i)) (hupd : ∀ j, Sc.IsReal (upd j)) (i : s.Idx) :
    Sc.IsReal (Host.scatterAdd d x idx upd i) := by
  unfold Host.scatterAdd
  rw [Ideal.hostScatterAdd_def]
  unfold Ideal.hostScatterAdd
  exact Sc.IsReal.add (hx i) (Sc.IsReal.sum _ _ (fun j _ => hupd j))

end Generic

/-! ## The stages -/

/-- A gathered row entry is an entry of the feature array. -/
theorem rows_real (h : FVec Ideal S50000x128 .f32) (hh : ∀ i, Sc.IsReal (h i)) (s : IVec S800000 32) (i : S800000x128.Idx) :
    Sc.IsReal (rows h s i) := by
  unfold rows Host.gather
  exact hh _

/-- Every message entry is real when the features, edge features, weights and biases are. -/
theorem msg_real (h : FVec Ideal S50000x128 .f32) (ei : IVec S2x800000 32) (ef : FVec Ideal S800000x10 .f32)
    (gw : FVec Ideal S266x128 .f32) (gb : FVec Ideal S128 .f32) (cw : FVec Ideal S266x128 .f32) (cb : FVec Ideal S128 .f32)
    (hh : ∀ i, Sc.IsReal (h i)) (hef : ∀ i, Sc.IsReal (ef i)) (hgw : ∀ i, Sc.IsReal (gw i)) (hgb : ∀ i, Sc.IsReal (gb i))
    (hcw : ∀ i, Sc.IsReal (cw i)) (hcb : ∀ i, Sc.IsReal (cb i)) (i : S800000x128.Idx) :
    Sc.IsReal (msg (z h ei ef) gw gb cw cb i) := by
  obtain ⟨e, j, rfl⟩ : ∃ (e : Fin 800000) (j : Fin 128), i = ix2 e j := ⟨i 0, i 1, eq_ix2 i⟩
  rw [msg_apply]
  refine Sc.IsReal.msg (fun k => ?_) (fun k => hgw _) (fun k => hcw _) (hgb _) (hcb _)
  rw [z_apply]
  exact Sc.IsReal.zcat (fun k => rows_real h hh _ _) (fun k => rows_real h hh _ _) (fun k => hef _) k

/-- A scatter-add of real updates into zeros is real. -/
theorem agg_real (s : IVec S800000 32) (mm : FVec Ideal S800000x128 .f32) (hm : ∀ i, Sc.IsReal (mm i)) (i : S50000x128.Idx) :
    Sc.IsReal (agg s mm i) := by
  rw [agg]
  refine hostScatterAdd_real _ _ _ _ (fun k => ?_) hm i
  rw [bcast_const]
  exact ofBits_zero_real

/-- A column sum of a real array is real: zero plus a finite sum of reals. -/
theorem colsum_real (a : FVec Ideal S50000x128 .f32) (ha : ∀ i, Sc.IsReal (a i)) (j : S128.Idx) : Sc.IsReal (colsum a j) := by
  rw [colsum]
  refine hostReduceAdd_real _ _ _ _ (fun k => ?_) ha j
  rw [constant_apply]
  exact ofBits_zero_real

/-- A column mean of a real array is real. -/
theorem mean_real (a : FVec Ideal S50000x128 .f32) (ha : ∀ i, Sc.IsReal (a i)) (j : S128.Idx) : Sc.IsReal (mean a j) := by
  rw [mean, hostDivf_apply, bcast_const, ofBits_50000]
  exact Sc.IsReal.div_coe (colsum_real a ha j) (by norm_num)

/-- The normalizer, 50000 minus the integer 0, is 50000 at its one index. -/
theorem nrm_eq (k : S_.Idx) : nrm k = ((50000 : ℝ) : EReal) := by
  rw [nrm, subf_apply, constant_apply, sitofp_apply, ofBits_50000]
  show ((50000 : ℝ) : EReal) - (((constantI S_ 32 0#32 k).toInt : ℝ) : EReal) = _
  rw [constantI]
  simp

/-- The guard on the normalizer, 50000 > 0, holds. -/
theorem guard_eq (k : S_.Idx) : cmpf .ogt nrm (constant (F := Ideal) S_ .f32 0x00000000#32) k = 1#1 := by
  rw [cmpf_apply, constant_apply, nrm_eq, Ideal.cmpf_def, Ideal.ofBits_zero_f32]
  simp [Ideal.cmp]

/-- A deviation from the column mean is real. -/
theorem dev_real (a : FVec Ideal S50000x128 .f32) (ha : ∀ i, Sc.IsReal (a i)) (i : S50000x128.Idx) : Sc.IsReal (dev a i) := by
  rw [dev, subf_apply]
  refine Sc.IsReal.sub (ha i) (bcast_all (P := Sc.IsReal) _ _ _ (fun k => ?_) i)
  rw [hostDivf_apply, bcast_const, ofBits_50000]
  exact Sc.IsReal.div_coe (bcast_all (P := Sc.IsReal) _ _ _ (colsum_real a ha) k) (by norm_num)

/-- A column variance of a real array is a nonnegative real: a sum of squares of real deviations, divided by 50000. -/
theorem var_nonneg (a : FVec Ideal S50000x128 .f32) (ha : ∀ i, Sc.IsReal (a i)) (j : S128.Idx) :
    ∃ v : ℝ, 0 ≤ v ∧ var a j = (v : EReal) := by
  rw [var, select_apply, bcast_eq _ _ _ _ guard_eq, select_one, hostDivf_apply, bcast_eq _ _ _ _ nrm_eq,
    Ideal.div_coe (by norm_num)]
  obtain ⟨r, hr, e⟩ := hostReduceAdd_nonneg (mulf (dev a) (dev a)) (constant (F := Ideal) S_ .f32 0x00000000#32)
    reducesTo_S50000x128_S128_d0 h_S_ (fun k => by rw [constant_apply, Ideal.ofBits_zero_f32])
    (fun i => by rw [mulf_apply]; exact Sc.sq_real (dev_real a ha i)) j
  rw [e, ← EReal.coe_mul]
  exact ⟨r * (1 / 50000), by positivity, rfl⟩

/-- 1 / sqrt(variance + epsilon) of a real array is real. -/
theorem rstd_var_real (a : FVec Ideal S50000x128 .f32) (ha : ∀ i, Sc.IsReal (a i)) (j : S128.Idx) : Sc.IsReal (rstd (var a) j) := by
  rw [rstd, hostRsqrt_apply, addf_apply, bcast_const]
  obtain ⟨v, hv, e⟩ := var_nonneg a ha j
  obtain ⟨ε, hε, e'⟩ := ofBits_eps_pos
  rw [e, e', ← EReal.coe_add]
  exact Sc.IsReal.rsqrt_pos (by linarith)

end RV
end Cert.ReferenceIdeal.Gen

end
-- ==== Proof.Bridge.lean ====
/-
  The two results agree on real inputs: the aggregates are the same array; at a node n and feature j the kernel's
  entry is softplus(h + (a · s + t)) with s = γ · r and t = β - μ · s, the reference's softplus(h + ((a - μ) · r · γ + β)),
  and the two arguments of softplus are equal because a, μ, r, γ, β are real.
-/
import proofs.«179620_j6270652252664_1_alg».proof.Proof.Glue
import proofs.«179620_j6270652252664_1_alg».proof.Proof.Finite
import proofs.«179620_j6270652252664_1_alg».proof.Proof.MsgR

noncomputable section

namespace Cert.Bridge

open Idealize.ShloMosaic Idealize.ShloMosaic.ValueIdx
open Cert.KernelIdeal.Gen (KV.out KV.outOf KV.aggAll)
open Cert.ReferenceIdeal.Gen (RV.out RV.outOf RV.aggAll)

/-- From one real aggregate the two programs compute the same result. -/
theorem outOf_eq (h a : FVec Ideal Cert.KernelIdeal.S50000x128 .f32) (γ β : FVec Ideal Cert.KernelIdeal.S128 .f32)
    (ha : ∀ i, Sc.IsReal (a i)) (hγ : ∀ i, Sc.IsReal (γ i)) (hβ : ∀ i, Sc.IsReal (β i)) :
    KV.outOf h a γ β = RV.outOf h a γ β := by
  funext i
  obtain ⟨n, j, rfl⟩ : ∃ (n : Fin 50000) (j : Fin 128), i = ix2 n j := ⟨i 0, i 1, eq_ix2 i⟩
  rw [Cert.ReferenceIdeal.Gen.RV.outOf_apply]
  unfold Cert.KernelIdeal.Gen.KV.outOf
  rw [Cert.Glue.outS_apply]
  -- the kernel's entry: the scalar result of the padded arrays' entries and the two rows' entries
  show Sc.outK (Cert.KernelIdeal.Gen.KV.padN h (ix2 (⟨n.val, by have := n.isLt; omega⟩ : Fin 53248) j))
      (Cert.KernelIdeal.Gen.KV.padN a (ix2 (⟨n.val, by have := n.isLt; omega⟩ : Fin 53248) j))
      (Cert.KernelIdeal.Gen.KV.row1 (Cert.KernelIdeal.Gen.KV.scale γ (Cert.KernelIdeal.Gen.KV.var a)) (ix2 (0 : Fin 1) j))
      (Cert.KernelIdeal.Gen.KV.row1 (Cert.KernelIdeal.Gen.KV.shift β (Cert.KernelIdeal.Gen.KV.mean a)
        (Cert.KernelIdeal.Gen.KV.scale γ (Cert.KernelIdeal.Gen.KV.var a))) (ix2 (0 : Fin 1) j)) = _
  rw [Cert.Glue.padN_apply, Cert.Glue.padN_apply, Cert.Glue.row1_apply, Cert.Glue.row1_apply]
  -- scale = γ · r, shift = β - μ · (γ · r), entry by entry
  show Sc.outK (h (ix2 n j)) (a (ix2 n j))
      (γ (ix1 j) * Cert.KernelIdeal.Gen.KV.rstd (Cert.KernelIdeal.Gen.KV.var a) (ix1 j))
      (β (ix1 j) - Cert.KernelIdeal.Gen.KV.mean a (ix1 j) * (γ (ix1 j) * Cert.KernelIdeal.Gen.KV.rstd (Cert.KernelIdeal.Gen.KV.var a) (ix1 j))) = _
  rw [Cert.Glue.var_eq, Cert.Glue.rstd_eq, Cert.Glue.mean_eq]
  exact Sc.outK_eq_outR (ha _) (Cert.ReferenceIdeal.Gen.RV.mean_real a ha _) (Cert.ReferenceIdeal.Gen.RV.rstd_var_real a ha _) (hγ _) (hβ _)

/-- On real inputs the kernel program's result is the reference's. -/
theorem out_eq (h : FVec Ideal Cert.KernelIdeal.S50000x128 .f32) (ei : IVec Cert.KernelIdeal.S2x800000 32) (ef : FVec Ideal Cert.KernelIdeal.S800000x10 .f32)
    (gw : FVec Ideal Cert.KernelIdeal.S266x128 .f32) (gb : FVec Ideal Cert.KernelIdeal.S128 .f32) (cw : FVec Ideal Cert.KernelIdeal.S266x128 .f32)
    (cb : FVec Ideal Cert.KernelIdeal.S128 .f32) (γ β : FVec Ideal Cert.KernelIdeal.S128 .f32)
    (hh : ∀ i, Sc.IsReal (h i)) (hef : ∀ i, Sc.IsReal (ef i)) (hgw : ∀ i, Sc.IsReal (gw i)) (hgb : ∀ i, Sc.IsReal (gb i))
    (hcw : ∀ i, Sc.IsReal (cw i)) (hcb : ∀ i, Sc.IsReal (cb i)) (hγ : ∀ i, Sc.IsReal (γ i)) (hβ : ∀ i, Sc.IsReal (β i)) :
    KV.out h ei ef gw gb cw cb γ β = RV.out h ei ef gw gb cw cb γ β := by
  unfold KV.out RV.out
  rw [Cert.Glue.aggAll_eq]
  exact outOf_eq h _ γ β
    (fun i => Cert.ReferenceIdeal.Gen.RV.agg_real _ _ (Cert.ReferenceIdeal.Gen.RV.msg_real h ei ef gw gb cw cb hh hef hgw hgb hcw hcb) i) hγ hβ

end Cert.Bridge

end
-- ==== Proof.lean ====
/-
  A message-passing layer over a graph of 50000 nodes and 800000 edges, against its jnp reference, over the extended reals.

  Both programs gather each edge's source and destination node features, concatenate them with the edge features,
  form the message  logistic(z · Wg + bg) · softplus(z · Wc + bc),  add each message into its source node, and
  normalize the aggregate column by column (batch statistics: mean μ, variance v, r = 1 / sqrt(v + ε)) before the residual
  softplus. The kernel computes the messages in 196 blocks of 4096 edges and the normalization in 13 blocks of 4096 nodes,
  on padded arrays, and spells the normalization  a · s + (β - μ · s)  with  s = γ · r;  the reference spells it
  (a - μ) · r · γ + β.  The messages agree entry by entry (the matrix products are the same sums, the kernel's one logistic
  operation is the reference's expansion, the two softplus spellings coincide), hence so do the aggregates and their
  moments; the two normalizations agree because under the precondition every quantity in them is a real number.
-/
import proofs.«179620_j6270652252664_1_alg».proof.Defs
import proofs.«179620_j6270652252664_1_alg».proof.Proof.Gen.Kernel.Frame
import proofs.«179620_j6270652252664_1_alg».proof.Proof.Gen.KernelIdeal.Frame
import proofs.«179620_j6270652252664_1_alg».proof.Proof.Gen.ReferenceIdeal
import proofs.«179620_j6270652252664_1_alg».proof.Proof.Gen.Pre_finite_inputs
import proofs.«179620_j6270652252664_1_alg».proof.Proof.KRun
import proofs.«179620_j6270652252664_1_alg».proof.Proof.KValue
import proofs.«179620_j6270652252664_1_alg».proof.Proof.RRun
import proofs.«179620_j6270652252664_1_alg».proof.Proof.RStages
import proofs.«179620_j6270652252664_1_alg».proof.Proof.RArgs
import proofs.«179620_j6270652252664_1_alg».proof.Proof.PreReal
import proofs.«179620_j6270652252664_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs, and none of its operations writes an argument. -/
theorem frame_reference : Cert.frame_ReferenceIdeal := fun m ρ _ =>
  (θ_run Cert.ReferenceIdeal.defs _ _).mono (fun r h c =>
    ⟨(h c Cert.ReferenceIdeal.main_arg0).trans (Cert.ReferenceIdeal.Gen.RV.ops_arg0 _),
     (h c Cert.ReferenceIdeal.main_arg1).trans (Cert.ReferenceIdeal.Gen.RV.ops_arg1 _),
     (h c Cert.ReferenceIdeal.main_arg2).trans (Cert.ReferenceIdeal.Gen.RV.ops_arg2 _),
     (h c Cert.ReferenceIdeal.main_arg3).trans (Cert.ReferenceIdeal.Gen.RV.ops_arg3 _),
     (h c Cert.ReferenceIdeal.main_arg4).trans (Cert.ReferenceIdeal.Gen.RV.ops_arg4 _),
     (h c Cert.ReferenceIdeal.main_arg5).trans (Cert.ReferenceIdeal.Gen.RV.ops_arg5 _),
     (h c Cert.ReferenceIdeal.main_arg6).trans (Cert.ReferenceIdeal.Gen.RV.ops_arg6 _),
     (h c Cert.ReferenceIdeal.main_arg7).trans (Cert.ReferenceIdeal.Gen.RV.ops_arg7 _),
     (h c Cert.ReferenceIdeal.main_arg8).trans (Cert.ReferenceIdeal.Gen.RV.ops_arg8 _)⟩)
    (Cert.ReferenceIdeal.Gen.RV.run_all (F := Ideal) m ρ)

/-- Both idealized programs end at one result. -/
theorem algebraic : Cert.algebraic_KernelIdeal_ReferenceIdeal := by
  intro m ρ m' ρ' hpre hagree
  refine ⟨fun c => Cert.KernelIdeal.Gen.KV.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · -- the kernel program ends at its result function of the launch arguments
    exact (θ_run Cert.KernelIdeal.defs _ _).mono
      (fun r h c => ⟨(h c).1.trans (Cert.KernelIdeal.Gen.KV.W16_v43 m ρ c), (h c).2⟩)
      (Cert.KernelIdeal.Gen.run_named (F := Ideal) m ρ)
  · -- the reference ends at its result function of the same arguments; on real inputs the two functions agree
    refine (θ_run Cert.ReferenceIdeal.defs _ _).mono (fun r h c =>
      ⟨?_,
       (h c Cert.ReferenceIdeal.main_arg0).trans (Cert.ReferenceIdeal.Gen.RV.ops_arg0 _),
       (h c Cert.ReferenceIdeal.main_arg1).trans (Cert.ReferenceIdeal.Gen.RV.ops_arg1 _),
       (h c Cert.ReferenceIdeal.main_arg2).trans (Cert.ReferenceIdeal.Gen.RV.ops_arg2 _),
       (h c Cert.ReferenceIdeal.main_arg3).trans (Cert.ReferenceIdeal.Gen.RV.ops_arg3 _),
       (h c Cert.ReferenceIdeal.main_arg4).trans (Cert.ReferenceIdeal.Gen.RV.ops_arg4 _),
       (h c Cert.ReferenceIdeal.main_arg5).trans (Cert.ReferenceIdeal.Gen.RV.ops_arg5 _),
       (h c Cert.ReferenceIdeal.main_arg6).trans (Cert.ReferenceIdeal.Gen.RV.ops_arg6 _),
       (h c Cert.ReferenceIdeal.main_arg7).trans (Cert.ReferenceIdeal.Gen.RV.ops_arg7 _),
       (h c Cert.ReferenceIdeal.main_arg8).trans (Cert.ReferenceIdeal.Gen.RV.ops_arg8 _)⟩)
      (Cert.ReferenceIdeal.Gen.RV.run_all (F := Ideal) m' ρ')
    obtain ⟨h0, h2, h3, h4, h5, h6, h7, h8⟩ := Cert.PreReal.reals_of_pre _ _ _ _ _ _ _ _ _ (hpre c)
    refine (h c Cert.ReferenceIdeal.main_v58).trans ((Cert.ReferenceIdeal.Gen.RV.ops_v58 _).trans ?_)
    show Cert.ReferenceIdeal.Gen.RV.out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) = _
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]
    exact (Cert.Bridge.out_eq _ _ _ _ _ _ _ _ _ h0 h2 h3 h4 h5 h6 h7 h8).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
